-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x128 : Shape := ⟨2, ![1024, 128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S4x4096x1024 .f32) (main_arg1 : FVec F S1024x128 .f32) (main_arg2 : FVec F S1024x128 .f32) (main_arg3 : FVec F S1024x128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S4x4096x1024 : Shape := ⟨3, ![4, 4096, 1024]⟩
abbrev S1024x128 : Shape := ⟨2, ![1024, 128]⟩
abbrev S10 : Shape := ⟨1, ![10]⟩
abbrev S4x4096x128 : Shape := ⟨3, ![4, 4096, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1 : Shape := ⟨1, ![1]⟩
abbrev S1024x1 : Shape := ⟨2, ![1024, 1]⟩
abbrev S128x1024 : Shape := ⟨2, ![128, 1024]⟩
abbrev S1024 : Shape := ⟨1, ![1024]⟩

abbrev nBuf : Space → Nat
  | .hbm => 8
  | .vmem => 22
  | .smem => 2
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S4x4096x128, .bf16⟩
  | .hbm, ⟨5, _⟩ => ⟨S4x4096x128, .bf16⟩
  | .hbm, ⟨6, _⟩ => ⟨S4x4096x128, .bf16⟩
  | .hbm, ⟨7, _⟩ => ⟨S4x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x1024x128, .f32⟩
  | .local _ .vmem, ⟨18, _⟩ => ⟨S1x1024x128, .f32⟩
  | .local _ .vmem, ⟨19, _⟩ => ⟨S1024x1, .f32⟩
  | .local _ .vmem, ⟨20, _⟩ => ⟨S1024x1, .f32⟩
  | .local _ .vmem, ⟨21, _⟩ => ⟨S1024x128, .f32⟩
  | .local _ .smem, ⟨0, _⟩ => ⟨S10, .i32⟩
  | .local _ .smem, ⟨1, _⟩ => ⟨S10, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  iota_S1024x1024_d0_w32 : S1024x1024.Iotas .tc 32 [0]
  iota_S1024x1024_d1_w32 : S1024x1024.Iotas .tc 32 [1]
  dot_S1024x1024_S1024x128_S1024x128_1_0_0_1_n_n_wf : DotDims.WF S1024x1024 S1024x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S4x4096x128.size a
  hwx0_4 : ∀ i : grid0.Coords, EltTy.bits .bf16 = 32 ∨ (Rect.block (s := S4x4096x128) S1x1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S4x4096x128.size a
  hwx0_5 : ∀ i : grid0.Coords, EltTy.bits .bf16 = 32 ∨ (Rect.block (s := S4x4096x128) S1x1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S4x4096x128.size a
  hwx0_6 : ∀ i : grid0.Coords, EltTy.bits .bf16 = 32 ∨ (Rect.block (s := S4x4096x128) S1x1024x128.size (cc0_transform_6 i) (hinb0_6 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev spec1_0 : Pipeline.WinSpec sig grid1.rank :=
  Pipeline.WinSpec.ofSpec (Memref.whole main_v0_0) S1x1024x128.size reads1_0 false false 2 stage1_0 sem1_0 nbuf1_0 hstage1_0

abbrev spec1_1 : Pipeline.WinSpec sig grid1.rank :=
  Pipeline.WinSpec.ofSpec (Memref.whole main_v0_1) S1x1024x128.size reads1_1 false false 2 stage1_1 sem1_1 nbuf1_1 hstage1_1

abbrev spec1_2 : Pipeline.WinSpec sig grid1.rank :=
  Pipeline.WinSpec.ofSpec (Memref.whole main_v0_2) S1x1024x128.size reads1_2 false false 2 stage1_2 sem1_2 nbuf1_2 hstage1_2

abbrev spec1_3 : Pipeline.WinSpec sig grid1.rank :=
  Pipeline.WinSpec.ofSpec (Memref.whole main_v1) S1x1024x128.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1024x128.size a ≤ S4x4096x128.size a), EltTy.bits .bf16 = 32 ∨ (Rect.block (s := S4x4096x128) S1x1024x128.size (cc1_transform_0 k1_off1_inb numel1_S1 pf i) h).WholeWords (EltTy.packing .bf16)) ∧
  (∀ i : grid1.Coords, ∃ h : (∀ a, (cc1_transform_1 k1_off1_inb numel1_S1 pf i a + 1) * S1x1024x128.size a ≤ S4x4096x128.size a), EltTy.bits .bf16 = 32 ∨ (Rect.block (s := S4x4096x128) S1x1024x128.size (cc1_transform_1 k1_off1_inb numel1_S1 pf i) h).WholeWords (EltTy.packing .bf16)) ∧
  (∀ i : grid1.Coords, ∃ h : (∀ a, (cc1_transform_2 k1_off1_inb numel1_S1 pf i a + 1) * S1x1024x128.size a ≤ S4x4096x128.size a), EltTy.bits .bf16 = 32 ∨ (Rect.block (s := S4x4096x128) S1x1024x128.size (cc1_transform_2 k1_off1_inb numel1_S1 pf i) h).WholeWords (EltTy.packing .bf16)) ∧
  (∀ i : grid1.Coords, ∃ h : (∀ a, (cc1_transform_3 k1_off1_inb numel1_S1 pf i a + 1) * S1x1024x128.size a ≤ S4x4096x128.size a), EltTy.bits .f32 = 32 ∨ (Rect.block (s := S4x4096x128) S1x1024x128.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond3 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x4096x1024 : Shape := ⟨3, ![4, 4096, 1024]⟩
abbrev S1024x128 : Shape := ⟨2, ![1024, 128]⟩
abbrev S4x4096x128 : Shape := ⟨3, ![4, 4096, 128]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S4x4096x128, .f32⟩
  | .hbm, ⟨5, _⟩ => ⟨S4x4096x128, .f32⟩
  | .hbm, ⟨6, _⟩ => ⟨S4x4096x128, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4x4096x4096, .i1⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x128_S4x4096x128_2_0_01_1_n_n_wf : DotDims.WF S4x4096x1024 S1024x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x1024_S1024x128_S4x4096x128_2_0_01_1_n_n : DotDims S4x4096x1024 S1024x128 S4x4096x128 where
  lhsContracting := [2]
  rhsContracting := [0]
  lhsNonContracting := [0, 1]
  rhsNonContracting := [1]
  lhsBatch := []
  rhsBatch := []
  wf := dot_S4x4096x1024_S1024x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.Kernel.Reg0.lean ====
/- Region 0 of the kernel program: the first TensorCore region, the q, k, v projection kernel
   \`cc0__proj_kernel\`, on its 4×4 grid. Everything here is stated at a PARAMETER \`V\`, the TensorCore's buffer
   contents when the region is entered, and at any float instance \`F\`.

   The region has seven windows. Window 0 is the activation block x[b, i·1024 … (i+1)·1024, :] (1×1024×1024, f32);
   windows 1, 2, 3 are the whole weight matrices W_q, W_k, W_v (1024×128, f32); windows 4, 5, 6 are the output blocks
   q, k, v [b, i·1024 … (i+1)·1024, :] (1×1024×128, bf16). At each grid point the body reads the four input blocks
   whole and writes each output block whole, once: q := bf16((bf16 x · bf16 W_q) · 2^(-7/2)), k := bf16(bf16 x · bf16 W_k),
   v := bf16(bf16 x · bf16 W_v), each product accumulated in f32.

   Contents: each window's block at a point as a function of \`V\` (\`iblk0\`); that an input window's staging
   buffer holds its block at every point (\`before0_W_of\`, \`before0_W\`); what the body leaves in each output buffer
   as a function of the input blocks (\`out0_4\`, \`out0_5\`, \`out0_6\`); the body's separation-logic triple
   (\`sound_kernel0\`); the region's proof data (\`dat0\`) and the body obligation at every point
   (\`body_obligation0\`). -/
import proofs.«420285_j7258494730366_3_alg».proof.Proof.Gen.Kernel.Launch
import proofs.«420285_j7258494730366_3_alg».proof.Proof.Gen.Kernel.Skeleton
import proofs.«420285_j7258494730366_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with axes of length 1024: the structural check recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window \`w\`'s block at grid point \`t\`: the sub-array of the window's array, as \`V\` holds it on entry, that the
    window's index map selects at \`t\`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds x's block at every point, for any proof data whose array is
    \`V\`'s and whose body leaves the block in place: the window is uncut, never idle, and where it is not fetched
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of W_q's window: fetched at the first point only, its (constant) block index never moves, so the
    buffer holds the whole of W_q at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of W_k's window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same of W_v's window. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

/-- The whole 1×1024×1024 activation block. -/
abbrev r0_x : Rect S1x1024x1024 := Rect.unit (s := S1x1024x1024) ![0, 0, 0] S1x1024x1024.size inb_S1x1024x1024_S1x1024x1024_0_0_0
/-- The whole 1024×128 weight matrix. -/
abbrev r0_w : Rect S1024x128 := Rect.unit (s := S1024x128) ![0, 0] S1024x128.size inb_S1024x128_S1024x128_0_0
/-- The whole 1×1024×128 output block. -/
abbrev r0_o : Rect S1x1024x128 := Rect.unit (s := S1x1024x128) ![0, 0, 0] S1x1024x128.size inb_S1x1024x128_S1x1024x128_0_0_0

/-! ## What the body leaves in each output window's buffer -/

/-- The q block after the body, from x's block \`x0\` and W_q \`x1\`: one whole-buffer store of
    bf16((bf16 x0 · bf16 x1) · 2^(-7/2)). -/
def out0_4 (x0 : Vec F S1x1024x1024 .f32) (x1 : Vec F S1024x128 .f32) : Vec F S1x1024x128 .bf16 :=
  View.canon [⟨r0_o, k0_pay2 (View.ld x0 r0_x) (View.ld x1 r0_w)⟩]

/-- The k block after the body, from x's block \`x0\` and W_k \`x2\`: one whole-buffer store of bf16(bf16 x0 · bf16 x2). -/
def out0_5 (x0 : Vec F S1x1024x1024 .f32) (x2 : Vec F S1024x128 .f32) : Vec F S1x1024x128 .bf16 :=
  View.canon [⟨r0_o, k0_pay3 (View.ld x0 r0_x) (View.ld x2 r0_w)⟩]

/-- The v block after the body, from x's block \`x0\` and W_v \`x3\`: one whole-buffer store of bf16(bf16 x0 · bf16 x3). -/
def out0_6 (x0 : Vec F S1x1024x1024 .f32) (x3 : Vec F S1024x128 .f32) : Vec F S1x1024x128 .bf16 :=
  View.canon [⟨r0_o, k0_pay4 (View.ld x0 r0_x) (View.ld x3 r0_w)⟩]

/-- The single store of the q block is the whole block, so it covers it. -/
theorem cover0_4 (p0 : Vec F S1x1024x128 .bf16) (y : S1x1024x128.Idx) :
    ∃ pc ∈ ([⟨r0_o, p0⟩] : List (View.Piece (Elt F) S1x1024x128 .bf16)), y ∈ pc.1.set :=
  View.cover_of_tiled [⟨r0_o, p0⟩] S1x1024x128.size (by rfl) y

/-- Likewise the k block's. -/
theorem cover0_5 (p0 : Vec F S1x1024x128 .bf16) (y : S1x1024x128.Idx) :
    ∃ pc ∈ ([⟨r0_o, p0⟩] : List (View.Piece (Elt F) S1x1024x128 .bf16)), y ∈ pc.1.set :=
  View.cover_of_tiled [⟨r0_o, p0⟩] S1x1024x128.size (by rfl) y

/-- Likewise the v block's. -/
theorem cover0_6 (p0 : Vec F S1x1024x128 .bf16) (y : S1x1024x128.Idx) :
    ∃ pc ∈ ([⟨r0_o, p0⟩] : List (View.Piece (Elt F) S1x1024x128 .bf16)), y ∈ pc.1.set :=
  View.cover_of_tiled [⟨r0_o, p0⟩] S1x1024x128.size (by rfl) y

/-! ## The body's triple -/

set_option maxHeartbeats 1000000 in
/-- The kernel body on whole staging memrefs, the four inputs' at read contents \`x0 … x3\` and the three outputs' at
    anything, runs to the continuation holding the inputs as they were and the outputs at \`out0_4 x0 x1\`,
    \`out0_5 x0 x2\`, \`out0_6 x0 x3\`. The grid coordinates \`i\` are not read. -/
theorem sound_kernel0 (c : Dev nD) (E : Set ℕ) (i : grid0.Coords)
    (arg2 : Memref sig .tc .vmem S1x1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x1024x128 .bf16) (harg8 : arg8.IsWhole)
    (x0 : Vec F S1x1024x1024 .f32) (x1 : Vec F S1024x128 .f32) (x2 : Vec F S1024x128 .f32) (x3 : Vec F S1024x128 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E
          (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The region's proof data -/

/-- The proof data of the region on core \`c\`: the arrays as the region finds them (\`V\`); after the body at point
    \`t\` each input's buffer at its block and each output's at \`out0_W\` of the input blocks; the invariant that the
    rest of the core's memory and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point \`t\`: the invariant, what the core owes, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.Reg1Runs.lean ====
/-
  The attention call (the second pallas_call), what its four case runs share.

  The call walks, for each of the 4 batches, the 10 pairs (qi, ki) with ki ≤ qi of 1024-row tiles, in the order two
  prefetched tables of ten words list them: `qiT` the query tile, `kiT` the key tile of each step.  A step's body reads its
  two words and does up to three things: where ki = 0 it resets the running maximum (to -∞), the normaliser and the
  weighted sum (to 0) that it keeps in three scratch buffers; where ki < qi it folds an unmasked tile into them; where
  ki = qi it folds the causally masked diagonal tile and writes the normalised block out.  So a step is in one of four
  cases — reset + diagonal (qi = ki = 0), reset + off-diagonal (ki = 0 < qi), off-diagonal alone (0 < ki < qi),
  diagonal alone (0 < ki = qi) — and the output window is stored only in the diagonal cases.

  Everything here is stated at ANY admissible contents `a` of the two tables (the program's own constants are
  substituted last), and at any float instance.
-/
import proofs.«420285_j7258494730366_3_alg».proof.Proof.Gen.Kernel.Launch
import proofs.«420285_j7258494730366_3_alg».proof.Proof.Gen.Kernel.Skeleton
import proofs.«420285_j7258494730366_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The pipeline at the tables' contents, its staging memrefs and the body as the pipeline calls it -/

/-- The attention pipeline at admissible contents `a` of its two tables. -/
abbrev cfgA (a : (pcfg1 (F := F)).Adm) : Pipeline.Cfg sig Λ₀ := cfg1 a

/-- Each window's current staging memref at step `t` (0: the query tile, 1: the key tile, 2: the value tile, 3: the output
    block), spelled as the pipeline passes it to the body, and its wholeness. -/
abbrev ms1_0 (a : (pcfg1 (F := F)).Adm) (t : Fin (cfgA a).N) : Memref sig .tc .vmem S1x1024x128 .bf16 := spec1_0.stage ((cfgA a).slots t 0)
abbrev hs1_0 (a : (pcfg1 (F := F)).Adm) (t : Fin (cfgA a).N) : (ms1_0 a t).IsWhole := hstage1_0 (((cfgA a).slots t 0).cast nbuf1_0)
abbrev ms1_1 (a : (pcfg1 (F := F)).Adm) (t : Fin (cfgA a).N) : Memref sig .tc .vmem S1x1024x128 .bf16 := spec1_1.stage ((cfgA a).slots t 1)
abbrev hs1_1 (a : (pcfg1 (F := F)).Adm) (t : Fin (cfgA a).N) : (ms1_1 a t).IsWhole := hstage1_1 (((cfgA a).slots t 1).cast nbuf1_1)
abbrev ms1_2 (a : (pcfg1 (F := F)).Adm) (t : Fin (cfgA a).N) : Memref sig .tc .vmem S1x1024x128 .bf16 := spec1_2.stage ((cfgA a).slots t 2)
abbrev hs1_2 (a : (pcfg1 (F := F)).Adm) (t : Fin (cfgA a).N) : (ms1_2 a t).IsWhole := hstage1_2 (((cfgA a).slots t 2).cast nbuf1_2)
abbrev ms1_3 (a : (pcfg1 (F := F)).Adm) (t : Fin (cfgA a).N) : Memref sig .tc .vmem S1x1024x128 .f32 := spec1_3.stage ((cfgA a).slots t 3)
abbrev hs1_3 (a : (pcfg1 (F := F)).Adm) (t : Fin (cfgA a).N) : (ms1_3 a t).IsWhole := hstage1_3 (((cfgA a).slots t 3).cast nbuf1_3)

/-- The two tables as the body is handed them: each whole buffer as a memref. -/
abbrev tbQ : Memref sig .tc .smem S10 .i32 := Memref.whole main_c
abbrev htbQ : tbQ.IsWhole := Memref.isWhole_whole _
abbrev tbK : Memref sig .tc .smem S10 .i32 := Memref.whole main_c_0
abbrev htbK : tbK.IsWhole := Memref.isWhole_whole _

/-- The three scratch operands: the running maximum and normaliser (one column of 1024 rows each) and the running
    weighted sum (1024 × 128), whole scoped buffers of the kernel's own. -/
abbrev scMx : Memref sig .tc .vmem S1024x1 .f32 := Memref.whole cc1_scratch0
abbrev scL : Memref sig .tc .vmem S1024x1 .f32 := Memref.whole cc1_scratch1
abbrev scAcc : Memref sig .tc .vmem S1024x128 .f32 := Memref.whole cc1_scratch2
/-- The views through which what they hold is stated, and one staging buffer of the output window for the same purpose. -/
abbrev VSx : View sig .tc .vmem S1024x1 .f32 := scMx.view
abbrev VSl : View sig .tc .vmem S1024x1 .f32 := scL.view
abbrev VSa : View sig .tc .vmem S1024x128 .f32 := scAcc.view
abbrev VO3 : View sig .tc .vmem S1x1024x128 .f32 := (Memref.whole cc1_stg3_0 : Memref sig .tc .vmem S1x1024x128 .f32).view

/-- The body at step `t`, on what the pipeline calls it with. -/
abbrev bodyAt1 (a : (pcfg1 (F := F)).Adm) (t : Fin (cfgA a).N) : Prog (TpuEff nD τ sig (Elt F) Λ₀ .tc) PUnit :=
  cc1__attn_kernel (grid1.coords t) tbQ htbQ tbK htbK (ms1_0 a t) (hs1_0 a t) (ms1_1 a t) (hs1_1 a t) (ms1_2 a t) (hs1_2 a t) (ms1_3 a t) (hs1_3 a t)
    scMx (Memref.isWhole_whole _) scL (Memref.isWhole_whole _) scAcc (Memref.isWhole_whole _)

/-! ## The tables' halves the body reads -/

/-- A table memref's buffer on core `c`, and it held read-only (at half the full share) at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The halves of the two tables the region lends the body, table by table. -/
theorem PhiT1_eq (pf : pre1.Contents (Elt F)) (c : Dev nD) :
    (Pipeline.ΦT pre1 pf c : sProp 𝕄) = iprop(tbPt c tbQ (pf 0) ∗ tbPt c tbK (pf 1)) := by
  unfold Pipeline.ΦT Pipeline.prefHeld
  rw [show (Finset.univ : Finset (Fin 2)) = insert (0 : Fin 2) {(1 : Fin 2)} from by decide,
    bigSep_insert (by decide), bigSep_singleton]
  rfl

/-! ## A step's two words, and the three conditions the body branches on -/

/-- The query-tile word and the key-tile word of the step at grid coordinates `i`, read through the tables' memrefs at held
    contents: the forms the body's two scalar loads take. -/
abbrev wordQ (c : Dev nD) (i : grid1.Coords) (xq : TbBuf (F := F) c tbQ) : BitVec 32 :=
  tbQ.view.readAt (Elt F) (Rect.unit (s := S10) (k1_off1 i) S1.size (k1_off1_inb i)).toLoadRect xq (Shape.Idx.first (numel1_S1.symm ▸ Nat.one_pos))
abbrev wordK (c : Dev nD) (i : grid1.Coords) (xk : TbBuf (F := F) c tbK) : BitVec 32 :=
  tbK.view.readAt (Elt F) (Rect.unit (s := S10) (k1_off1 i) S1.size (k1_off1_inb i)).toLoadRect xk (Shape.Idx.first (numel1_S1.symm ▸ Nat.one_pos))

/-- ki = 0: the step resets the three scratch buffers. -/
abbrev condReset (vk : BitVec 32) : Prop := (Scalar.cmpi .ne (Scalar.extui (Scalar.cmpi .eq vk 0#32)) 0#32) = 1#1
/-- ki < qi: the step folds an unmasked tile. -/
abbrev condOff (vq vk : BitVec 32) : Prop := (Scalar.cmpi .ne (Scalar.extui (Scalar.cmpi .slt vk vq)) 0#32) = 1#1
/-- ki = qi: the step folds the masked diagonal tile and stores the output block. -/
abbrev condDiag (vq vk : BitVec 32) : Prop := k1_cond3 vq vk = 1#1

end Cert.Kernel.Hand

end
-- ==== Proof.Kernel.Reg1Kit.lean ====
/-
  The attention call, continued: the region's invariant with the kernel's three scratch buffers in sight, each window's
  block at a step read off the array the region finds, and the fact that an input window's staging buffer holds that block
  at every step.
-/
import proofs.«420285_j7258494730366_3_alg».proof.Proof.Kernel.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The class invariant spelled out: the scoped buffers the attention call does not stage — the projection call's eleven
    staging buffers, at anything — then the three scratch operands as memrefs owned at some contents, beside the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg4_1), ((c : Thread nD τ).loc cc0_stg4_1) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg5_1), ((c : Thread nD τ).loc cc0_stg5_1) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg6_1), ((c : Thread nD τ).loc cc0_stg6_1) ↦{fullShare} f)
          ∗ (∃ d, owns (c : Thread nD τ) scMx fullShare d) ∗ (∃ d, owns (c : Thread nD τ) scL fullShare d) ∗ (∃ d, owns (c : Thread nD τ) scAcc fullShare d)) ∗ (∃ r, prngReg c r)) := by
  unfold Pipeline.ΦA; rw [scopedRest1_eq]; simp only [scMx, scL, scAcc, owns_whole]; try rfl

section Blocks

variable (V : (c : Dev nD) → (b : Ref sig .tc) → Buf (Elt F) ((c : Thread nD τ).loc b))

/-- Window `w`'s block at step `t`, read off its array as the region finds it: for the three tiles a function of the step's
    table words. -/
def iblk1 (a : (pcfg1 (F := F)).Adm) (c : Dev nD) (w : Fin (cfgA a).W) (t : Fin (cfgA a).N) : (((cfgA a).win w).xblock ((cfgA a).grid.coords t)).Idx → Elt F ((cfgA a).win w).elt :=
  (((cfgA a).win w).blk t).view.read (Elt F) (V c (Pipeline.arrRef spec1 w))

/-- The query tile's staging buffer holds its block at every step, fetched there or not (where it is not fetched the block
    index has not moved), for any proof data whose array is the region-entry contents and whose body leaves the block in
    place. -/
theorem before1_0_of (a : (pcfg1 (F := F)).Adm) {c : Dev nD} (dat : Dat τ (Elt F) Unit ℕ (UR sig nD τ) ℕ (cfgA a) c) (hA : dat.A 0 = V c (Pipeline.arrRef spec1 0))
    (hafter : ∀ t, dat.after 0 t = iblk1 V a c 0 t) (t : Fin (cfgA a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the key tile -/
theorem before1_1_of (a : (pcfg1 (F := F)).Adm) {c : Dev nD} (dat : Dat τ (Elt F) Unit ℕ (UR sig nD τ) ℕ (cfgA a) c) (hA : dat.A 1 = V c (Pipeline.arrRef spec1 1))
    (hafter : ∀ t, dat.after 1 t = iblk1 V a c 1 t) (t : Fin (cfgA a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and for the value tile. -/
theorem before1_2_of (a : (pcfg1 (F := F)).Adm) {c : Dev nD} (dat : Dat τ (Elt F) Unit ℕ (UR sig nD τ) ℕ (cfgA a) c) (hA : dat.A 2 = V c (Pipeline.arrRef spec1 2))
    (hafter : ∀ t, dat.after 2 t = iblk1 V a c 2 t) (t : Fin (cfgA a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Where the output window is idle -/

/-- The three tiles are read at every step. -/
theorem live1_0 (a : (pcfg1 (F := F)).Adm) : ∀ i : grid1.Coords, (cfgA a).idle 0 i = false := fun _ => rfl
theorem live1_1 (a : (pcfg1 (F := F)).Adm) : ∀ i : grid1.Coords, (cfgA a).idle 1 i = false := fun _ => rfl
theorem live1_2 (a : (pcfg1 (F := F)).Adm) : ∀ i : grid1.Coords, (cfgA a).idle 2 i = false := fun _ => rfl
end Cert.Kernel.Hand

end
-- ==== Proof.Kernel.Reg1RunA.lean ====
/-
  The attention body at a batch's first step (qi = ki = 0): it resets the running maximum to -∞ and the normaliser and
  weighted sum to 0, folds the causally masked diagonal tile into them, and stores the normalised block into the output's
  buffer.
-/
import proofs.«420285_j7258494730366_3_alg».proof.Proof.Kernel.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the step leaves in the output block's buffer and in the three scratch buffers, as the pieces its stores wrote (last first), with the
    triple that says so: the three tiles' buffers held at their contents, the output's at anything, the scratch
    at anything (the step overwrites them before it reads them), the two tables' halves; each branch decided by the case's hypotheses on the
    step's two words. -/
noncomputable def kernelRun1_A (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d)
            ∗ tbPt c tbQ xq ∗ tbPt c tbK xk
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt c tbQ xq ∗ tbPt c tbK xk) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, HTQ, HTK, Hk⟩
    obtain rfl := harg4.eq_unread hf0; obtain rfl := harg5.eq_unread hf1; obtain rfl := harg6.eq_unread hf2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HTQ]; · iexact HTQ
    iexact HTK

end Cert.Kernel.Hand

end
-- ==== Proof.Kernel.Reg1RunB.lean ====
/-
  The attention body at the first key tile of a later query tile (ki = 0 < qi): it resets the three running quantities and
  folds the unmasked tile into them; the output block's buffer is not touched.
-/
import proofs.«420285_j7258494730366_3_alg».proof.Proof.Kernel.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the step leaves in the three scratch buffers, as the pieces its stores wrote (last first), with the
    triple that says so: the three tiles' buffers held at their contents, the output's handed back as it was, the scratch
    at anything (the step overwrites them before it reads them), the two tables' halves; each branch decided by the case's hypotheses on the
    step's two words. -/
noncomputable def kernelRun1_B (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3
            ∗ (∃ d, owns (c : Thread nD τ) arg8 fullShare d) ∗ (∃ d, owns (c : Thread nD τ) arg9 fullShare d) ∗ (∃ d, owns (c : Thread nD τ) arg10 fullShare d)
            ∗ tbPt c tbQ xq ∗ tbPt c tbK xk
            ∗ (iprop(owns (c : Thread nD τ) arg4 fullShare x0 ∗ owns (c : Thread nD τ) arg5 fullShare x1 ∗ owns (c : Thread nD τ) arg6 fullShare x2 ∗ owns (c : Thread nD τ) arg7 fullShare xi3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt c tbQ xq ∗ tbPt c tbK xk) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HTQ, HTK, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HTQ]; · iexact HTQ
    iexact HTK

end Cert.Kernel.Hand

end
-- ==== Proof.Kernel.Reg1RunC.lean ====
/-
  The attention body at a step that folds an unmasked tile and does nothing else (0 < ki < qi): it reads the query, key and
  value tiles and the three running quantities, and leaves new contents in all three scratch buffers; the output block's
  buffer is not touched.
-/
import proofs.«420285_j7258494730366_3_alg».proof.Proof.Kernel.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the step leaves in the three scratch buffers, as the pieces its stores wrote (last first), with the triple that
    says so: the three tiles' buffers held at their contents, the output's at anything, the scratch at what the step before
    left, the two tables' halves; each branch decided by the case's hypotheses on the step's two words. -/
noncomputable def kernelRun1_C (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs0 ∗ owns (c : Thread nD τ) arg9 fullShare xs1 ∗ owns (c : Thread nD τ) arg10 fullShare xs2
            ∗ tbPt c tbQ xq ∗ tbPt c tbK xk
            ∗ (iprop(owns (c : Thread nD τ) arg4 fullShare x0 ∗ owns (c : Thread nD τ) arg5 fullShare x1 ∗ owns (c : Thread nD τ) arg6 fullShare x2 ∗ owns (c : Thread nD τ) arg7 fullShare xi3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt c tbQ xq ∗ tbPt c tbK xk) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, HTQ, HTK, Hk⟩
    obtain rfl := harg4.eq_unread hf0; obtain rfl := harg5.eq_unread hf1; obtain rfl := harg6.eq_unread hf2; obtain rfl := harg7.eq_unread hf3
    obtain rfl := harg8.eq_unread hfs0; obtain rfl := harg9.eq_unread hfs1; obtain rfl := harg10.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HTQ]; · iexact HTQ
    iexact HTK

end Cert.Kernel.Hand

end
-- ==== Proof.Kernel.Reg1RunD.lean ====
/-
  The attention body at the last key tile of a later query tile (0 < ki = qi): it folds the causally masked diagonal tile
  into the three running quantities the steps before left, and stores the normalised block into the output's buffer.
-/
import proofs.«420285_j7258494730366_3_alg».proof.Proof.Kernel.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the step leaves in the output block's buffer and in the three scratch buffers, as the pieces its stores wrote (last first), with the
    triple that says so: the three tiles' buffers held at their contents, the output's at anything, the scratch
    at what the step before left, the two tables' halves; each branch decided by the case's hypotheses on the
    step's two words. -/
noncomputable def kernelRun1_D (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ tbPt c tbQ xq ∗ tbPt c tbK xk
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt c tbQ xq ∗ tbPt c tbK xk) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, HTQ, HTK, Hk⟩
    obtain rfl := harg4.eq_unread hf0; obtain rfl := harg5.eq_unread hf1; obtain rfl := harg6.eq_unread hf2
    obtain rfl := harg8.eq_unread hfs0; obtain rfl := harg9.eq_unread hfs1; obtain rfl := harg10.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HTQ]; · iexact HTQ
    iexact HTK

end Cert.Kernel.Hand

end
-- ==== Proof.Kernel.Reg1.lean ====
/-
  The attention call, its frame half: what the output block and the three scratch buffers hold after every step, the
  region's invariant and proof data, and the body obligation at every step.

  A step's body reads its query-tile word and key-tile word from the two prefetched tables and is in one of four cases:
  A (key tile 0 = query tile: reset, fold the masked diagonal tile, store the normalised block), B (key tile 0 below the
  query tile: reset, fold an unmasked tile), C (0 < key tile < query tile: fold an unmasked tile into what the step
  before left), D (0 < key tile = query tile: fold the masked diagonal tile into what the step before left, store the
  normalised block). The running maximum, the normaliser and the weighted sum live in three scratch buffers carried
  from step to step; the output block is stored in cases A and D only, and at the other steps its window is idle.

  Everything is stated at the region-entry contents `V` and at ANY admissible contents `a` of the two tables; what is
  needed of the tables is collected in `TblOk`.
-/
import proofs.«420285_j7258494730366_3_alg».proof.Proof.Kernel.Reg1Kit
import proofs.«420285_j7258494730366_3_alg».proof.Proof.Kernel.Reg1RunA
import proofs.«420285_j7258494730366_3_alg».proof.Proof.Kernel.Reg1RunB
import proofs.«420285_j7258494730366_3_alg».proof.Proof.Kernel.Reg1RunC
import proofs.«420285_j7258494730366_3_alg».proof.Proof.Kernel.Reg1RunD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

-- the TensorCore's buffer contents when the region is entered, and the contents of the two tables
variable (V : (c : Dev nD) → (b : Ref sig .tc) → Buf (Elt F) ((c : Thread nD τ).loc b)) (a : (pcfg1 (F := F)).Adm)

/-! ## Case A: a batch's first step (reset and diagonal) -/

/-- The pieces case A stores into the output block tile it, so they cover it. -/
theorem cover1_A_3 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) (y : S1x1024x128.Idx) :
    ∃ pc ∈ (kernelRun1_A c i arg4 harg4 arg5 harg5 arg6 harg6 arg7 harg7 arg8 harg8 arg9 harg9 arg10 harg10 xq xk hc0 hc1 hc2 x0 x1 x2).1, y ∈ pc.1.set :=
  View.cover_of_tiledL (kernelRun1_A c i arg4 harg4 arg5 harg5 arg6 harg6 arg7 harg7 arg8 harg8 arg9 harg9 arg10 harg10 xq xk hc0 hc1 hc2 x0 x1 x2).1 S1x1024x128.size (by sl_kernel_rfl) y

/-- What case A leaves in the output block: its pieces read back. -/
def out1_A_3 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) : Vec F S1x1024x128 .f32 :=
  VO3.read (Elt F) (VO3.writes (Elt F) VO3.junk (kernelRun1_A c i arg4 harg4 arg5 harg5 arg6 harg6 arg7 harg7 arg8 harg8 arg9 harg9 arg10 harg10 xq xk hc0 hc1 hc2 x0 x1 x2).1)

/-- The pieces case A stores into the running maximum tile it, so they cover it. -/
theorem scover1_A_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) (y : S1024x1.Idx) :
    ∃ pc ∈ (kernelRun1_A c i arg4 harg4 arg5 harg5 arg6 harg6 arg7 harg7 arg8 harg8 arg9 harg9 arg10 harg10 xq xk hc0 hc1 hc2 x0 x1 x2).2.1, y ∈ pc.1.set :=
  View.cover_of_tiledL (kernelRun1_A c i arg4 harg4 arg5 harg5 arg6 harg6 arg7 harg7 arg8 harg8 arg9 harg9 arg10 harg10 xq xk hc0 hc1 hc2 x0 x1 x2).2.1 S1024x1.size (by sl_kernel_rfl) y

/-- What case A leaves in the running maximum: its pieces read back. -/
def sout1_A_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) : Vec F S1024x1 .f32 :=
  VSx.read (Elt F) (VSx.writes (Elt F) VSx.junk (kernelRun1_A c i arg4 harg4 arg5 harg5 arg6 harg6 arg7 harg7 arg8 harg8 arg9 harg9 arg10 harg10 xq xk hc0 hc1 hc2 x0 x1 x2).2.1)

/-- The pieces case A stores into the normaliser tile it, so they cover it. -/
theorem scover1_A_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) (y : S1024x1.Idx) :
    ∃ pc ∈ (kernelRun1_A c i arg4 harg4 arg5 harg5 arg6 harg6 arg7 harg7 arg8 harg8 arg9 harg9 arg10 harg10 xq xk hc0 hc1 hc2 x0 x1 x2).2.2.1, y ∈ pc.1.set :=
  View.cover_of_tiledL (kernelRun1_A c i arg4 harg4 arg5 harg5 arg6 harg6 arg7 harg7 arg8 harg8 arg9 harg9 arg10 harg10 xq xk hc0 hc1 hc2 x0 x1 x2).2.2.1 S1024x1.size (by sl_kernel_rfl) y

/-- What case A leaves in the normaliser: its pieces read back. -/
def sout1_A_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) : Vec F S1024x1 .f32 :=
  VSl.read (Elt F) (VSl.writes (Elt F) VSl.junk (kernelRun1_A c i arg4 harg4 arg5 harg5 arg6 harg6 arg7 harg7 arg8 harg8 arg9 harg9 arg10 harg10 xq xk hc0 hc1 hc2 x0 x1 x2).2.2.1)

/-- The pieces case A stores into the weighted sum tile it, so they cover it. -/
theorem scover1_A_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) (y : S1024x128.Idx) :
    ∃ pc ∈ (kernelRun1_A c i arg4 harg4 arg5 harg5 arg6 harg6 arg7 harg7 arg8 harg8 arg9 harg9 arg10 harg10 xq xk hc0 hc1 hc2 x0 x1 x2).2.2.2.1, y ∈ pc.1.set :=
  View.cover_of_tiledL (kernelRun1_A c i arg4 harg4 arg5 harg5 arg6 harg6 arg7 harg7 arg8 harg8 arg9 harg9 arg10 harg10 xq xk hc0 hc1 hc2 x0 x1 x2).2.2.2.1 S1024x128.size (by sl_kernel_rfl) y

/-- What case A leaves in the weighted sum: its pieces read back. -/
def sout1_A_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) : Vec F S1024x128 .f32 :=
  VSa.read (Elt F) (VSa.writes (Elt F) VSa.junk (kernelRun1_A c i arg4 harg4 arg5 harg5 arg6 harg6 arg7 harg7 arg8 harg8 arg9 harg9 arg10 harg10 xq xk hc0 hc1 hc2 x0 x1 x2).2.2.2.1)

/-! ## Case B: a reset step off the diagonal -/

/-- The pieces case B stores into the running maximum tile it, so they cover it. -/
theorem scover1_B_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) (y : S1024x1.Idx) :
    ∃ pc ∈ (kernelRun1_B c i arg4 harg4 arg5 harg5 arg6 harg6 arg7 harg7 arg8 harg8 arg9 harg9 arg10 harg10 xq xk hc0 hc1 hc2 x0 x1 x2).1, y ∈ pc.1.set :=
  View.cover_of_tiledL (kernelRun1_B c i arg4 harg4 arg5 harg5 arg6 harg6 arg7 harg7 arg8 harg8 arg9 harg9 arg10 harg10 xq xk hc0 hc1 hc2 x0 x1 x2).1 S1024x1.size (by sl_kernel_rfl) y

/-- What case B leaves in the running maximum: its pieces read back. -/
def sout1_B_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) : Vec F S1024x1 .f32 :=
  VSx.read (Elt F) (VSx.writes (Elt F) VSx.junk (kernelRun1_B c i arg4 harg4 arg5 harg5 arg6 harg6 arg7 harg7 arg8 harg8 arg9 harg9 arg10 harg10 xq xk hc0 hc1 hc2 x0 x1 x2).1)

/-- The pieces case B stores into the normaliser tile it, so they cover it. -/
theorem scover1_B_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) (y : S1024x1.Idx) :
    ∃ pc ∈ (kernelRun1_B c i arg4 harg4 arg5 harg5 arg6 harg6 arg7 harg7 arg8 harg8 arg9 harg9 arg10 harg10 xq xk hc0 hc1 hc2 x0 x1 x2).2.1, y ∈ pc.1.set :=
  View.cover_of_tiledL (kernelRun1_B c i arg4 harg4 arg5 harg5 arg6 harg6 arg7 harg7 arg8 harg8 arg9 harg9 arg10 harg10 xq xk hc0 hc1 hc2 x0 x1 x2).2.1 S1024x1.size (by sl_kernel_rfl) y

/-- What case B leaves in the normaliser: its pieces read back. -/
def sout1_B_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) : Vec F S1024x1 .f32 :=
  VSl.read (Elt F) (VSl.writes (Elt F) VSl.junk (kernelRun1_B c i arg4 harg4 arg5 harg5 arg6 harg6 arg7 harg7 arg8 harg8 arg9 harg9 arg10 harg10 xq xk hc0 hc1 hc2 x0 x1 x2).2.1)

/-- The pieces case B stores into the weighted sum tile it, so they cover it. -/
theorem scover1_B_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) (y : S1024x128.Idx) :
    ∃ pc ∈ (kernelRun1_B c i arg4 harg4 arg5 harg5 arg6 harg6 arg7 harg7 arg8 harg8 arg9 harg9 arg10 harg10 xq xk hc0 hc1 hc2 x0 x1 x2).2.2.1, y ∈ pc.1.set :=
  View.cover_of_tiledL (kernelRun1_B c i arg4 harg4 arg5 harg5 arg6 harg6 arg7 harg7 arg8 harg8 arg9 harg9 arg10 harg10 xq xk hc0 hc1 hc2 x0 x1 x2).2.2.1 S1024x128.size (by sl_kernel_rfl) y

/-- What case B leaves in the weighted sum: its pieces read back. -/
def sout1_B_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) : Vec F S1024x128 .f32 :=
  VSa.read (Elt F) (VSa.writes (Elt F) VSa.junk (kernelRun1_B c i arg4 harg4 arg5 harg5 arg6 harg6 arg7 harg7 arg8 harg8 arg9 harg9 arg10 harg10 xq xk hc0 hc1 hc2 x0 x1 x2).2.2.1)

/-! ## Case C: an off-diagonal step that carries the scratch -/

/-- The pieces case C stores into the running maximum tile it, so they cover it. -/
theorem scover1_C_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) (y : S1024x1.Idx) :
    ∃ pc ∈ (kernelRun1_C c i arg4 harg4 arg5 harg5 arg6 harg6 arg7 harg7 arg8 harg8 arg9 harg9 arg10 harg10 xq xk hc0 hc1 hc2 x0 x1 x2 xs0 xs1 xs2).1, y ∈ pc.1.set :=
  View.cover_of_tiledL (kernelRun1_C c i arg4 harg4 arg5 harg5 arg6 harg6 arg7 harg7 arg8 harg8 arg9 harg9 arg10 harg10 xq xk hc0 hc1 hc2 x0 x1 x2 xs0 xs1 xs2).1 S1024x1.size (by sl_kernel_rfl) y

/-- What case C leaves in the running maximum: its pieces read back. -/
def sout1_C_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) : Vec F S1024x1 .f32 :=
  VSx.read (Elt F) (VSx.writes (Elt F) VSx.junk (kernelRun1_C c i arg4 harg4 arg5 harg5 arg6 harg6 arg7 harg7 arg8 harg8 arg9 harg9 arg10 harg10 xq xk hc0 hc1 hc2 x0 x1 x2 xs0 xs1 xs2).1)

/-- The pieces case C stores into the normaliser tile it, so they cover it. -/
theorem scover1_C_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) (y : S1024x1.Idx) :
    ∃ pc ∈ (kernelRun1_C c i arg4 harg4 arg5 harg5 arg6 harg6 arg7 harg7 arg8 harg8 arg9 harg9 arg10 harg10 xq xk hc0 hc1 hc2 x0 x1 x2 xs0 xs1 xs2).2.1, y ∈ pc.1.set :=
  View.cover_of_tiledL (kernelRun1_C c i arg4 harg4 arg5 harg5 arg6 harg6 arg7 harg7 arg8 harg8 arg9 harg9 arg10 harg10 xq xk hc0 hc1 hc2 x0 x1 x2 xs0 xs1 xs2).2.1 S1024x1.size (by sl_kernel_rfl) y

/-- What case C leaves in the normaliser: its pieces read back. -/
def sout1_C_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) : Vec F S1024x1 .f32 :=
  VSl.read (Elt F) (VSl.writes (Elt F) VSl.junk (kernelRun1_C c i arg4 harg4 arg5 harg5 arg6 harg6 arg7 harg7 arg8 harg8 arg9 harg9 arg10 harg10 xq xk hc0 hc1 hc2 x0 x1 x2 xs0 xs1 xs2).2.1)

/-- The pieces case C stores into the weighted sum tile it, so they cover it. -/
theorem scover1_C_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) (y : S1024x128.Idx) :
    ∃ pc ∈ (kernelRun1_C c i arg4 harg4 arg5 harg5 arg6 harg6 arg7 harg7 arg8 harg8 arg9 harg9 arg10 harg10 xq xk hc0 hc1 hc2 x0 x1 x2 xs0 xs1 xs2).2.2.1, y ∈ pc.1.set :=
  View.cover_of_tiledL (kernelRun1_C c i arg4 harg4 arg5 harg5 arg6 harg6 arg7 harg7 arg8 harg8 arg9 harg9 arg10 harg10 xq xk hc0 hc1 hc2 x0 x1 x2 xs0 xs1 xs2).2.2.1 S1024x128.size (by sl_kernel_rfl) y

/-- What case C leaves in the weighted sum: its pieces read back. -/
def sout1_C_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) : Vec F S1024x128 .f32 :=
  VSa.read (Elt F) (VSa.writes (Elt F) VSa.junk (kernelRun1_C c i arg4 harg4 arg5 harg5 arg6 harg6 arg7 harg7 arg8 harg8 arg9 harg9 arg10 harg10 xq xk hc0 hc1 hc2 x0 x1 x2 xs0 xs1 xs2).2.2.1)

/-! ## Case D: a diagonal step that carries the scratch -/

/-- The pieces case D stores into the output block tile it, so they cover it. -/
theorem cover1_D_3 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) (y : S1x1024x128.Idx) :
    ∃ pc ∈ (kernelRun1_D c i arg4 harg4 arg5 harg5 arg6 harg6 arg7 harg7 arg8 harg8 arg9 harg9 arg10 harg10 xq xk hc0 hc1 hc2 x0 x1 x2 xs0 xs1 xs2).1, y ∈ pc.1.set :=
  View.cover_of_tiledL (kernelRun1_D c i arg4 harg4 arg5 harg5 arg6 harg6 arg7 harg7 arg8 harg8 arg9 harg9 arg10 harg10 xq xk hc0 hc1 hc2 x0 x1 x2 xs0 xs1 xs2).1 S1x1024x128.size (by sl_kernel_rfl) y

/-- What case D leaves in the output block: its pieces read back. -/
def out1_D_3 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) : Vec F S1x1024x128 .f32 :=
  VO3.read (Elt F) (VO3.writes (Elt F) VO3.junk (kernelRun1_D c i arg4 harg4 arg5 harg5 arg6 harg6 arg7 harg7 arg8 harg8 arg9 harg9 arg10 harg10 xq xk hc0 hc1 hc2 x0 x1 x2 xs0 xs1 xs2).1)

/-- The pieces case D stores into the running maximum tile it, so they cover it. -/
theorem scover1_D_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) (y : S1024x1.Idx) :
    ∃ pc ∈ (kernelRun1_D c i arg4 harg4 arg5 harg5 arg6 harg6 arg7 harg7 arg8 harg8 arg9 harg9 arg10 harg10 xq xk hc0 hc1 hc2 x0 x1 x2 xs0 xs1 xs2).2.1, y ∈ pc.1.set :=
  View.cover_of_tiledL (kernelRun1_D c i arg4 harg4 arg5 harg5 arg6 harg6 arg7 harg7 arg8 harg8 arg9 harg9 arg10 harg10 xq xk hc0 hc1 hc2 x0 x1 x2 xs0 xs1 xs2).2.1 S1024x1.size (by sl_kernel_rfl) y

/-- What case D leaves in the running maximum: its pieces read back. -/
def sout1_D_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) : Vec F S1024x1 .f32 :=
  VSx.read (Elt F) (VSx.writes (Elt F) VSx.junk (kernelRun1_D c i arg4 harg4 arg5 harg5 arg6 harg6 arg7 harg7 arg8 harg8 arg9 harg9 arg10 harg10 xq xk hc0 hc1 hc2 x0 x1 x2 xs0 xs1 xs2).2.1)

/-- The pieces case D stores into the normaliser tile it, so they cover it. -/
theorem scover1_D_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) (y : S1024x1.Idx) :
    ∃ pc ∈ (kernelRun1_D c i arg4 harg4 arg5 harg5 arg6 harg6 arg7 harg7 arg8 harg8 arg9 harg9 arg10 harg10 xq xk hc0 hc1 hc2 x0 x1 x2 xs0 xs1 xs2).2.2.1, y ∈ pc.1.set :=
  View.cover_of_tiledL (kernelRun1_D c i arg4 harg4 arg5 harg5 arg6 harg6 arg7 harg7 arg8 harg8 arg9 harg9 arg10 harg10 xq xk hc0 hc1 hc2 x0 x1 x2 xs0 xs1 xs2).2.2.1 S1024x1.size (by sl_kernel_rfl) y

/-- What case D leaves in the normaliser: its pieces read back. -/
def sout1_D_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) : Vec F S1024x1 .f32 :=
  VSl.read (Elt F) (VSl.writes (Elt F) VSl.junk (kernelRun1_D c i arg4 harg4 arg5 harg5 arg6 harg6 arg7 harg7 arg8 harg8 arg9 harg9 arg10 harg10 xq xk hc0 hc1 hc2 x0 x1 x2 xs0 xs1 xs2).2.2.1)

/-- The pieces case D stores into the weighted sum tile it, so they cover it. -/
theorem scover1_D_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) (y : S1024x128.Idx) :
    ∃ pc ∈ (kernelRun1_D c i arg4 harg4 arg5 harg5 arg6 harg6 arg7 harg7 arg8 harg8 arg9 harg9 arg10 harg10 xq xk hc0 hc1 hc2 x0 x1 x2 xs0 xs1 xs2).2.2.2.1, y ∈ pc.1.set :=
  View.cover_of_tiledL (kernelRun1_D c i arg4 harg4 arg5 harg5 arg6 harg6 arg7 harg7 arg8 harg8 arg9 harg9 arg10 harg10 xq xk hc0 hc1 hc2 x0 x1 x2 xs0 xs1 xs2).2.2.2.1 S1024x128.size (by sl_kernel_rfl) y

/-- What case D leaves in the weighted sum: its pieces read back. -/
def sout1_D_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) : Vec F S1024x128 .f32 :=
  VSa.read (Elt F) (VSa.writes (Elt F) VSa.junk (kernelRun1_D c i arg4 harg4 arg5 harg5 arg6 harg6 arg7 harg7 arg8 harg8 arg9 harg9 arg10 harg10 xq xk hc0 hc1 hc2 x0 x1 x2 xs0 xs1 xs2).2.2.2.1)

/-! ## A step's contents, case by case, at the step's own memrefs, blocks and words -/

/-- The query-tile word and the key-tile word of step `t`, read off the tables' contents. -/
abbrev wQ (c : Dev nD) (t : Fin (cfgA a).N) : BitVec 32 := wordQ c (grid1.coords t) (a.1 0)
abbrev wK (c : Dev nD) (t : Fin (cfgA a).N) : BitVec 32 := wordK c (grid1.coords t) (a.1 1)

/-- What nothing consults: the four buffers read back over arbitrary contents. The output block's component at a step
    off the diagonal (the block is not stored there), and every component at a combination of the three conditions
    that is none of the four cases. -/
def outsJunk : Vec F S1x1024x128 .f32 × Vec F S1024x1 .f32 × Vec F S1024x1 .f32 × Vec F S1024x128 .f32 :=
  (VO3.read (Elt F) VO3.junk, VSx.read (Elt F) VSx.junk, VSl.read (Elt F) VSl.junk, VSa.read (Elt F) VSa.junk)

/-- After a step of case A: the output block, the running maximum, the normaliser, the weighted sum. -/
def step1_A (c : Dev nD) (t : Fin (cfgA a).N) (hR : condReset (wK a c t)) (hO : ¬condOff (wQ a c t) (wK a c t)) (hD : condDiag (wQ a c t) (wK a c t)) : Vec F S1x1024x128 .f32 × Vec F S1024x1 .f32 × Vec F S1024x1 .f32 × Vec F S1024x128 .f32 :=
  (out1_A_3 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t),
   sout1_A_0 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t),
   sout1_A_1 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t),
   sout1_A_2 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t))

/-- After a step of case B: the output block (a placeholder: not stored), the running maximum, the normaliser, the weighted sum. -/
def step1_B (c : Dev nD) (t : Fin (cfgA a).N) (hR : condReset (wK a c t)) (hO : condOff (wQ a c t) (wK a c t)) (hD : ¬condDiag (wQ a c t) (wK a c t)) : Vec F S1x1024x128 .f32 × Vec F S1024x1 .f32 × Vec F S1024x1 .f32 × Vec F S1024x128 .f32 :=
  (VO3.read (Elt F) VO3.junk,
   sout1_B_0 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t),
   sout1_B_1 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t),
   sout1_B_2 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t))

/-- After a step of case C: the output block (a placeholder: not stored), the running maximum, the normaliser, the weighted sum, from what the step before left in the three scratch buffers (\`p\`'s last three components). -/
def step1_C (c : Dev nD) (t : Fin (cfgA a).N) (hR : ¬condReset (wK a c t)) (hO : condOff (wQ a c t) (wK a c t)) (hD : ¬condDiag (wQ a c t) (wK a c t)) (p : Vec F S1x1024x128 .f32 × Vec F S1024x1 .f32 × Vec F S1024x1 .f32 × Vec F S1024x128 .f32) : Vec F S1x1024x128 .f32 × Vec F S1024x1 .f32 × Vec F S1024x1 .f32 × Vec F S1024x128 .f32 :=
  (VO3.read (Elt F) VO3.junk,
   sout1_C_0 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2,
   sout1_C_1 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2,
   sout1_C_2 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2)

/-- After a step of case D: the output block, the running maximum, the normaliser, the weighted sum, from what the step before left in the three scratch buffers (\`p\`'s last three components). -/
def step1_D (c : Dev nD) (t : Fin (cfgA a).N) (hR : ¬condReset (wK a c t)) (hO : ¬condOff (wQ a c t) (wK a c t)) (hD : condDiag (wQ a c t) (wK a c t)) (p : Vec F S1x1024x128 .f32 × Vec F S1024x1 .f32 × Vec F S1024x1 .f32 × Vec F S1024x128 .f32) : Vec F S1x1024x128 .f32 × Vec F S1024x1 .f32 × Vec F S1024x1 .f32 × Vec F S1024x128 .f32 :=
  (out1_D_3 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2,
   sout1_D_0 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2,
   sout1_D_1 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2,
   sout1_D_2 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2)

/-! ## What the output block and the three scratch buffers hold after each step -/

/-- THE ACCUMULATION. After the step at position `n`: the case the step's two words select, run at the step's memrefs,
    blocks and words; a case that carries the scratch (C, D) reads what position `n - 1` left. A combination of the
    conditions that is none of the four cases — the tables of the program meet none — gives `outsJunk`. -/
def outsAt1 (c : Dev nD) : (n : ℕ) → n < (cfgA a).N → Vec F S1x1024x128 .f32 × Vec F S1024x1 .f32 × Vec F S1024x1 .f32 × Vec F S1024x128 .f32
  | 0, hn =>
    if hR : condReset (wK a c ⟨0, hn⟩) then
      if hO : condOff (wQ a c ⟨0, hn⟩) (wK a c ⟨0, hn⟩) then
        if hD : condDiag (wQ a c ⟨0, hn⟩) (wK a c ⟨0, hn⟩) then outsJunk else step1_B V a c ⟨0, hn⟩ hR hO hD
      else
        if hD : condDiag (wQ a c ⟨0, hn⟩) (wK a c ⟨0, hn⟩) then step1_A V a c ⟨0, hn⟩ hR hO hD else outsJunk
    else outsJunk
  | n + 1, hn =>
    if hR : condReset (wK a c ⟨n + 1, hn⟩) then
      if hO : condOff (wQ a c ⟨n + 1, hn⟩) (wK a c ⟨n + 1, hn⟩) then
        if hD : condDiag (wQ a c ⟨n + 1, hn⟩) (wK a c ⟨n + 1, hn⟩) then outsJunk else step1_B V a c ⟨n + 1, hn⟩ hR hO hD
      else
        if hD : condDiag (wQ a c ⟨n + 1, hn⟩) (wK a c ⟨n + 1, hn⟩) then step1_A V a c ⟨n + 1, hn⟩ hR hO hD else outsJunk
    else
      if hO : condOff (wQ a c ⟨n + 1, hn⟩) (wK a c ⟨n + 1, hn⟩) then
        if hD : condDiag (wQ a c ⟨n + 1, hn⟩) (wK a c ⟨n + 1, hn⟩) then outsJunk else step1_C V a c ⟨n + 1, hn⟩ hR hO hD (outsAt1 c n (Nat.lt_of_succ_lt hn))
      else
        if hD : condDiag (wQ a c ⟨n + 1, hn⟩) (wK a c ⟨n + 1, hn⟩) then step1_D V a c ⟨n + 1, hn⟩ hR hO hD (outsAt1 c n (Nat.lt_of_succ_lt hn)) else outsJunk

/-- `outsAt1` at a step of case A. -/
theorem outsAt1_A (c : Dev nD) (t : Fin (cfgA a).N) (hR : condReset (wK a c t)) (hO : ¬condOff (wQ a c t) (wK a c t)) (hD : condDiag (wQ a c t) (wK a c t)) :
    outsAt1 V a c t.val t.isLt = step1_A V a c t hR hO hD := by
  obtain ⟨n, hn⟩ := t
  cases n with
  | zero => exact (dif_pos hR).trans ((dif_neg hO).trans (dif_pos hD))
  | succ n => exact (dif_pos hR).trans ((dif_neg hO).trans (dif_pos hD))

/-- `outsAt1` at a step of case B. -/
theorem outsAt1_B (c : Dev nD) (t : Fin (cfgA a).N) (hR : condReset (wK a c t)) (hO : condOff (wQ a c t) (wK a c t)) (hD : ¬condDiag (wQ a c t) (wK a c t)) :
    outsAt1 V a c t.val t.isLt = step1_B V a c t hR hO hD := by
  obtain ⟨n, hn⟩ := t
  cases n with
  | zero => exact (dif_pos hR).trans ((dif_pos hO).trans (dif_neg hD))
  | succ n => exact (dif_pos hR).trans ((dif_pos hO).trans (dif_neg hD))

/-- `outsAt1` at a step of case C that is not the first: over what the step before left. -/
theorem outsAt1_C (c : Dev nD) (t : Fin (cfgA a).N) (hR : ¬condReset (wK a c t)) (hO : condOff (wQ a c t) (wK a c t)) (hD : ¬condDiag (wQ a c t) (wK a c t)) (ht : t.val ≠ 0) :
    outsAt1 V a c t.val t.isLt = step1_C V a c t hR hO hD (outsAt1 V a c (t.val - 1) (Nat.lt_of_le_of_lt (Nat.sub_le _ _) t.isLt)) := by
  obtain ⟨n, hn⟩ := t
  cases n with
  | zero => exact absurd rfl ht
  | succ n => exact (dif_neg hR).trans ((dif_pos hO).trans ((dif_neg hD).trans rfl))

/-- `outsAt1` at a step of case D that is not the first: over what the step before left. -/
theorem outsAt1_D (c : Dev nD) (t : Fin (cfgA a).N) (hR : ¬condReset (wK a c t)) (hO : ¬condOff (wQ a c t) (wK a c t)) (hD : condDiag (wQ a c t) (wK a c t)) (ht : t.val ≠ 0) :
    outsAt1 V a c t.val t.isLt = step1_D V a c t hR hO hD (outsAt1 V a c (t.val - 1) (Nat.lt_of_le_of_lt (Nat.sub_le _ _) t.isLt)) := by
  obtain ⟨n, hn⟩ := t
  cases n with
  | zero => exact absurd rfl ht
  | succ n => exact (dif_neg hR).trans ((dif_neg hO).trans ((dif_pos hD).trans rfl))

/-! ## The idle table's words are the step's words -/

set_option maxHeartbeats 400000 in
/-- The word the output window's idle table reads off the query table's contents at a step's offset is the word the body
    loads there: the offset is inside the table, and the body's load through the whole table's memref reads the
    element under it. -/
theorem atD_wordQ (c : Dev nD) (i : grid1.Coords) : a.1.atD 0 (k1_off1 i) = wordQ c i (a.1 0) := by
  have hin : ∀ x, k1_off1 i x + 1 ≤ (pre1.ref 0).ty.shape.size x := Fin.forall_fin_one.2 (k1_off1_inb i 0)
  refine (dif_pos hin).trans ?_
  show a.1 0 _ = a.1 0 _
  congr 1

set_option maxHeartbeats 400000 in
/-- The same of the key table. -/
theorem atD_wordK (c : Dev nD) (i : grid1.Coords) : a.1.atD 1 (k1_off1 i) = wordK c i (a.1 1) := by
  have hin : ∀ x, k1_off1 i x + 1 ≤ (pre1.ref 1).ty.shape.size x := Fin.forall_fin_one.2 (k1_off1_inb i 0)
  refine (dif_pos hin).trans ?_
  show a.1 1 _ = a.1 1 _
  congr 1

set_option maxHeartbeats 400000 in
/-- The output window's idle table at step `t`: idle exactly where the step's two words differ. -/
theorem idle1_3_eq (c : Dev nD) (t : Fin (cfgA a).N) :
    (cfgA a).idle 3 ((cfgA a).grid.coords t) = !(k1_cond3 (wQ a c t) (wK a c t) == 1#1) := by
  have e : (cfgA a).idle 3 ((cfgA a).grid.coords t)
      = !(k1_cond3 (a.1.atD 0 (k1_off1 (grid1.coords t))) (a.1.atD 1 (k1_off1 (grid1.coords t))) == 1#1) := by
    show idle1 a.1 3 _ = _
    rfl
  rw [e, atD_wordQ a c, atD_wordK a c]

/-- Off the diagonal the output window is idle, -/
theorem idleAt1_3 (c : Dev nD) (t : Fin (cfgA a).N) (hD : ¬condDiag (wQ a c t) (wK a c t)) :
    (cfgA a).idle 3 ((cfgA a).grid.coords t) = true := by
  rw [idle1_3_eq a c t]
  simpa using hD

/-- and on it live. -/
theorem liveAt1_3 (c : Dev nD) (t : Fin (cfgA a).N) (hD : condDiag (wQ a c t) (wK a c t)) :
    (cfgA a).idle 3 ((cfgA a).grid.coords t) = false := by
  rw [idle1_3_eq a c t]
  simpa using hD

/-- The three tiles' windows are live at every step. -/
theorem liveAt1_0 (t : Fin (cfgA a).N) : (cfgA a).idle 0 ((cfgA a).grid.coords t) = false := live1_0 a _
theorem liveAt1_1 (t : Fin (cfgA a).N) : (cfgA a).idle 1 ((cfgA a).grid.coords t) = false := live1_1 a _
theorem liveAt1_2 (t : Fin (cfgA a).N) : (cfgA a).idle 2 ((cfgA a).grid.coords t) = false := live1_2 a _

/-! ## The region's invariant -/

/-- The invariant before position `n`. Before the first step: the class's (every scoped buffer the call does not stage at
    anything — the three scratch among them — and the generator register at some state). Afterwards: the same with the
    three scratch buffers at what step `n - 1` left in them (`outsAt1`'s last three components). At every position, both
    halves of the two tables at the contents `a.1`: the right half the body loads its words through, the left half
    kept beside it untouched. -/
def PhiS1 (c : Dev nD) : (n : ℕ) → n ≤ (cfgA a).N → sProp 𝕄
  | 0, _ => iprop(Pipeline.ΦA spec1 c ∗ (Pipeline.ΦT pre1 a.1 c : sProp 𝕄) ∗ Pipeline.prefHeld (Ix := Unit) (Name := ℕ) (U := UR sig nD τ) (Lvl := ℕ) pre1 c (fun _ => fullShare.left) a.1)
  | n + 1, hn => iprop(iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scMx fullShare (outsAt1 V a c n hn).2.1 ∗ owns (c : Thread nD τ) scL fullShare (outsAt1 V a c n hn).2.2.1 ∗ owns (c : Thread nD τ) scAcc fullShare (outsAt1 V a c n hn).2.2.2) ∗ (∃ r, prngReg c r))
      ∗ (Pipeline.ΦT pre1 a.1 c : sProp 𝕄) ∗ Pipeline.prefHeld (Ix := Unit) (Name := ℕ) (U := UR sig nD τ) (Lvl := ℕ) pre1 c (fun _ => fullShare.left) a.1)

theorem PhiS1_zero (c : Dev nD) (n : ℕ) (h : n ≤ (cfgA a).N) (hz : n = 0) :
    PhiS1 V a c n h = iprop(Pipeline.ΦA spec1 c ∗ (Pipeline.ΦT pre1 a.1 c : sProp 𝕄) ∗ Pipeline.prefHeld (Ix := Unit) (Name := ℕ) (U := UR sig nD τ) (Lvl := ℕ) pre1 c (fun _ => fullShare.left) a.1) := by
  subst hz; rfl

/-- After step `n` (before step `n + 1`): the scratch at that step's contents. -/
theorem PhiS1_succ (c : Dev nD) (n : ℕ) (hn : n < (cfgA a).N) :
    PhiS1 V a c (n + 1) hn = iprop(iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scMx fullShare (outsAt1 V a c n hn).2.1 ∗ owns (c : Thread nD τ) scL fullShare (outsAt1 V a c n hn).2.2.1 ∗ owns (c : Thread nD τ) scAcc fullShare (outsAt1 V a c n hn).2.2.2) ∗ (∃ r, prngReg c r))
      ∗ (Pipeline.ΦT pre1 a.1 c : sProp 𝕄) ∗ Pipeline.prefHeld (Ix := Unit) (Name := ℕ) (U := UR sig nD τ) (Lvl := ℕ) pre1 c (fun _ => fullShare.left) a.1) := rfl

/-- Before a step that is not the first: the scratch at what the step before left. -/
theorem PhiS1_pos (c : Dev nD) (n : ℕ) (h : n ≤ (cfgA a).N) (hz : n ≠ 0) :
    PhiS1 V a c n h = iprop(iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scMx fullShare (outsAt1 V a c (n - 1) (by omega)).2.1 ∗ owns (c : Thread nD τ) scL fullShare (outsAt1 V a c (n - 1) (by omega)).2.2.1 ∗ owns (c : Thread nD τ) scAcc fullShare (outsAt1 V a c (n - 1) (by omega)).2.2.2) ∗ (∃ r, prngReg c r))
      ∗ (Pipeline.ΦT pre1 a.1 c : sProp 𝕄) ∗ Pipeline.prefHeld (Ix := Unit) (Name := ℕ) (U := UR sig nD τ) (Lvl := ℕ) pre1 c (fun _ => fullShare.left) a.1) := by
  cases n with
  | zero => exact absurd rfl hz
  | succ n => rfl

/-! ## The region's proof data -/

/-- The proof data of the attention call on core `c`: the arrays as the region finds them (`V`); after step `t` each
    tile's buffer at its block and the output block's at `outsAt1`'s first component; the invariant `PhiS1`; nothing
    owed; full shares. -/
def dat1 (c : Dev nD) : Dat τ (Elt F) Unit ℕ (UR sig nD τ) ℕ (cfgA a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => (outsAt1 V a c t.val t.isLt).1
  Φ t := PhiS1 V a c t.val (Nat.le_of_lt_succ t.isLt)
  q _ := fullShare
  owed _ := 0

/-- The proof data's arrays are the region-entry contents. -/
theorem A_eq1 (c : Dev nD) (w : Fin (cfgA a).W) : (dat1 V a c).A w = V c (Pipeline.arrRef spec1 w) := by
  dsimp only [dat1]

/-- The invariant at a step's start, restated at the step's position. -/
theorem PhiS1_castSucc (c : Dev nD) (t : Fin (cfgA a).N) :
    (dat1 V a c).Φ t.castSucc = PhiS1 V a c t.val (Nat.le_of_lt t.isLt) := by
  dsimp only [dat1]; simp only [Fin.coe_castSucc]

/-- What the body leaves, window by window. -/
theorem after1_0 (c : Dev nD) (t : Fin (cfgA a).N) : (dat1 V a c).after 0 t = iblk1 V a c 0 t := by dsimp only [dat1]; rfl
theorem after1_1 (c : Dev nD) (t : Fin (cfgA a).N) : (dat1 V a c).after 1 t = iblk1 V a c 1 t := by dsimp only [dat1]; rfl
theorem after1_2 (c : Dev nD) (t : Fin (cfgA a).N) : (dat1 V a c).after 2 t = iblk1 V a c 2 t := by dsimp only [dat1]; rfl
theorem after1_3 (c : Dev nD) (t : Fin (cfgA a).N) : (dat1 V a c).after 3 t = (outsAt1 V a c t.val t.isLt).1 := by dsimp only [dat1]; rfl

/-- Each tile's current staging buffer holds its block at every step, fetched there or not. -/
theorem before1_0 (c : Dev nD) (t : Fin (cfgA a).N) (d) : (dat1 V a c).before 0 t d = iblk1 V a c 0 t :=
  before1_0_of V a (dat1 V a c) (A_eq1 V a c 0) (after1_0 V a c) t d
theorem before1_1 (c : Dev nD) (t : Fin (cfgA a).N) (d) : (dat1 V a c).before 1 t d = iblk1 V a c 1 t :=
  before1_1_of V a (dat1 V a c) (A_eq1 V a c 1) (after1_1 V a c) t d
theorem before1_2 (c : Dev nD) (t : Fin (cfgA a).N) (d) : (dat1 V a c).before 2 t d = iblk1 V a c 2 t :=
  before1_2_of V a (dat1 V a c) (A_eq1 V a c 2) (after1_2 V a c) t d

/-! ## What is assumed of the tables' contents -/

/-- The three facts about the tables' contents `a.1` the obligation needs, at every step: the step's two words put it in
    one of the four cases; the first step resets the scratch; and at a step off the diagonal the pipeline does not write
    the output block back. -/
structure TblOk (a : (pcfg1 (F := F)).Adm) : Prop where
  cases : ∀ (c : Dev nD) (t : Fin (cfgA a).N),
    (condReset (wK a c t) ∧ ¬condOff (wQ a c t) (wK a c t) ∧ condDiag (wQ a c t) (wK a c t))
    ∨ (condReset (wK a c t) ∧ condOff (wQ a c t) (wK a c t) ∧ ¬condDiag (wQ a c t) (wK a c t))
    ∨ (¬condReset (wK a c t) ∧ condOff (wQ a c t) (wK a c t) ∧ ¬condDiag (wQ a c t) (wK a c t))
    ∨ (¬condReset (wK a c t) ∧ ¬condOff (wQ a c t) (wK a c t) ∧ condDiag (wQ a c t) (wK a c t))
  first : ∀ (c : Dev nD) (t : Fin (cfgA a).N), t.val = 0 → condReset (wK a c t)
  noFlush : ∀ (c : Dev nD) (t : Fin (cfgA a).N), ¬condDiag (wQ a c t) (wK a c t) → ((cfgA a).win 3).flush t = false

/-! ## The body obligation, at a generic step -/

/-- What the body is called with at step `t`: the invariant, what the core owes, and each window's current staging buffer
    at what the pipeline left in it, -/
def bodyPre1 (c : Dev nD) (t : Fin (cfgA a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d))
    ∗ (∃ d, owns (c : Thread nD τ) (ms1_3 a t) fullShare ((dat1 V a c).before 3 t d)))

/-- and what it returns: each buffer at what the body leaves in it (the output block's, where the step stores nothing
    into it and it is not written back, at what it was found holding). -/
def bodyPost1 (c : Dev nD) (t : Fin (cfgA a).N) : sProp 𝕄 :=
  iprop((dat1 V a c).Φ t.succ ∗ (dat1 V a c).owesAt () t.succ
    ∗ (dat1 V a c).leavesExact 0 t
    ∗ (dat1 V a c).leavesExact 1 t
    ∗ (dat1 V a c).leavesExact 2 t
    ∗ (dat1 V a c).leavesExact 3 t)

set_option maxHeartbeats 4000000 in
/-- The body at a step of case A: the tiles' buffers hold their blocks; the scratch is handed to the body at whatever it holds (the step overwrites it), and takes it back at this step's
    contents, the pieces read back; the output block's buffer is returned at the pieces stored into it; the tables' halves and what the
    core owes pass through. -/
theorem sound_body1_A (h : TblOk a) (c : Dev nD) (t : Fin (cfgA a).N) (hR : condReset (wK a c t)) (hO : ¬condOff (wQ a c t) (wK a c t)) (hD : condDiag (wQ a c t) (wK a c t)) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl]
  rw [show (dat1 V a c).Φ t.succ = PhiS1 V a c (t.val + 1) t.isLt from rfl, PhiS1_succ]
  rw [show (dat1 V a c).leavesExact 0 t = owns (c : Thread nD τ) (ms1_0 a t) fullShare ((dat1 V a c).after 0 t) from by
      unfold Dat.leavesExact; rw [liveAt1_0 a t]; rfl, after1_0]
  rw [show (dat1 V a c).leavesExact 1 t = owns (c : Thread nD τ) (ms1_1 a t) fullShare ((dat1 V a c).after 1 t) from by
      unfold Dat.leavesExact; rw [liveAt1_1 a t]; rfl, after1_1]
  rw [show (dat1 V a c).leavesExact 2 t = owns (c : Thread nD τ) (ms1_2 a t) fullShare ((dat1 V a c).after 2 t) from by
      unfold Dat.leavesExact; rw [liveAt1_2 a t]; rfl, after1_2]
  rw [show (dat1 V a c).leavesExact 3 t = owns (c : Thread nD τ) (ms1_3 a t) fullShare ((dat1 V a c).after 3 t) from by
      unfold Dat.leavesExact; rw [liveAt1_3 a c t hD]; rfl, after1_3]
  rw [outsAt1_A V a c t hR hO hD]
  unfold step1_A out1_A_3 sout1_A_0 sout1_A_1 sout1_A_2; (try dsimp only)
  by_cases hz : t.val = 0
  · rw [PhiS1_castSucc V a c t, PhiS1_zero V a c _ _ hz, PhiA1_eq, PhiT1_eq]
    iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
    iapply ((kernelRun1_A c (grid1.coords t) _ _ _ _ _ _ _ _ _ _ _ _ _ _ (a.1 0) (a.1 1) hR hO hD (iblk1 V a c 0 t) (iblk1 V a c 1 t) (iblk1 V a c 2 t)).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HTQ]; · iexact HTQ
    isplitl [HTK]; · iexact HTK
    iintro ⟨H0, H1, H2, ⟨%e3, H3⟩, ⟨%es0, HS0⟩, ⟨%es1, HS1⟩, ⟨%es2, HS2⟩, HTQ, HTK⟩
    isplitl [HF0 HF1 HF2 HF3 HF4 HF5 HF6 HF7 HF8 HF9 HF10 HS0 HS1 HS2 Hg HTQ HTK HTL]
    · isplitl [HF0 HF1 HF2 HF3 HF4 HF5 HF6 HF7 HF8 HF9 HF10 HS0 HS1 HS2 Hg]
      · isplitl [HF0 HF1 HF2 HF3 HF4 HF5 HF6 HF7 HF8 HF9 HF10 HS0 HS1 HS2]
        · isplitl [HF0]; · iexact HF0
          isplitl [HF1]; · iexact HF1
          isplitl [HF2]; · iexact HF2
          isplitl [HF3]; · iexact HF3
          isplitl [HF4]; · iexact HF4
          isplitl [HF5]; · iexact HF5
          isplitl [HF6]; · iexact HF6
          isplitl [HF7]; · iexact HF7
          isplitl [HF8]; · iexact HF8
          isplitl [HF9]; · iexact HF9
          isplitl [HF10]; · iexact HF10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [HTQ HTK]
      · isplitl [HTQ]; · iexact HTQ
        iexact HTK
      iexact HTL
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _ _ _ _ _ _ _ _ _)
  · rw [PhiS1_castSucc V a c t, PhiS1_pos V a c _ _ hz, PhiT1_eq]
    iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
    iapply ((kernelRun1_A c (grid1.coords t) _ _ _ _ _ _ _ _ _ _ _ _ _ _ (a.1 0) (a.1 1) hR hO hD (iblk1 V a c 0 t) (iblk1 V a c 1 t) (iblk1 V a c 2 t)).2.2.2.2 Set.univ _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    isplitl [HS2]; · iexists _; iexact HS2
    isplitl [HTQ]; · iexact HTQ
    isplitl [HTK]; · iexact HTK
    iintro ⟨H0, H1, H2, ⟨%e3, H3⟩, ⟨%es0, HS0⟩, ⟨%es1, HS1⟩, ⟨%es2, HS2⟩, HTQ, HTK⟩
    isplitl [HF0 HF1 HF2 HF3 HF4 HF5 HF6 HF7 HF8 HF9 HF10 HS0 HS1 HS2 Hg HTQ HTK HTL]
    · isplitl [HF0 HF1 HF2 HF3 HF4 HF5 HF6 HF7 HF8 HF9 HF10 HS0 HS1 HS2 Hg]
      · isplitl [HF0 HF1 HF2 HF3 HF4 HF5 HF6 HF7 HF8 HF9 HF10 HS0 HS1 HS2]
        · isplitl [HF0]; · iexact HF0
          isplitl [HF1]; · iexact HF1
          isplitl [HF2]; · iexact HF2
          isplitl [HF3]; · iexact HF3
          isplitl [HF4]; · iexact HF4
          isplitl [HF5]; · iexact HF5
          isplitl [HF6]; · iexact HF6
          isplitl [HF7]; · iexact HF7
          isplitl [HF8]; · iexact HF8
          isplitl [HF9]; · iexact HF9
          isplitl [HF10]; · iexact HF10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [HTQ HTK]
      · isplitl [HTQ]; · iexact HTQ
        iexact HTK
      iexact HTL
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _ _ _ _ _ _ _ _ _)

set_option maxHeartbeats 4000000 in
/-- The body at a step of case B: the tiles' buffers hold their blocks; the scratch is handed to the body at whatever it holds (the step overwrites it), and takes it back at this step's
    contents, the pieces read back; the output block's buffer, not stored into and not written back, is returned as it was found; the tables' halves and what the
    core owes pass through. -/
theorem sound_body1_B (h : TblOk a) (c : Dev nD) (t : Fin (cfgA a).N) (hR : condReset (wK a c t)) (hO : condOff (wQ a c t) (wK a c t)) (hD : ¬condDiag (wQ a c t) (wK a c t)) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl]
  rw [show (dat1 V a c).Φ t.succ = PhiS1 V a c (t.val + 1) t.isLt from rfl, PhiS1_succ]
  rw [show (dat1 V a c).leavesExact 0 t = owns (c : Thread nD τ) (ms1_0 a t) fullShare ((dat1 V a c).after 0 t) from by
      unfold Dat.leavesExact; rw [liveAt1_0 a t]; rfl, after1_0]
  rw [show (dat1 V a c).leavesExact 1 t = owns (c : Thread nD τ) (ms1_1 a t) fullShare ((dat1 V a c).after 1 t) from by
      unfold Dat.leavesExact; rw [liveAt1_1 a t]; rfl, after1_1]
  rw [show (dat1 V a c).leavesExact 2 t = owns (c : Thread nD τ) (ms1_2 a t) fullShare ((dat1 V a c).after 2 t) from by
      unfold Dat.leavesExact; rw [liveAt1_2 a t]; rfl, after1_2]
  rw [Dat.leavesExact_idle (dat1 V a c) 3 t (idleAt1_3 a c t hD) (h.noFlush c t hD)]
  rw [outsAt1_B V a c t hR hO hD]
  unfold step1_B sout1_B_0 sout1_B_1 sout1_B_2; (try dsimp only)
  by_cases hz : t.val = 0
  · rw [PhiS1_castSucc V a c t, PhiS1_zero V a c _ _ hz, PhiA1_eq, PhiT1_eq]
    iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
    iapply ((kernelRun1_B c (grid1.coords t) _ _ _ _ _ _ _ _ _ _ _ _ _ _ (a.1 0) (a.1 1) hR hO hD (iblk1 V a c 0 t) (iblk1 V a c 1 t) (iblk1 V a c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HTQ]; · iexact HTQ
    isplitl [HTK]; · iexact HTK
    iintro ⟨H0, H1, H2, H3, ⟨%es0, HS0⟩, ⟨%es1, HS1⟩, ⟨%es2, HS2⟩, HTQ, HTK⟩
    isplitl [HF0 HF1 HF2 HF3 HF4 HF5 HF6 HF7 HF8 HF9 HF10 HS0 HS1 HS2 Hg HTQ HTK HTL]
    · isplitl [HF0 HF1 HF2 HF3 HF4 HF5 HF6 HF7 HF8 HF9 HF10 HS0 HS1 HS2 Hg]
      · isplitl [HF0 HF1 HF2 HF3 HF4 HF5 HF6 HF7 HF8 HF9 HF10 HS0 HS1 HS2]
        · isplitl [HF0]; · iexact HF0
          isplitl [HF1]; · iexact HF1
          isplitl [HF2]; · iexact HF2
          isplitl [HF3]; · iexact HF3
          isplitl [HF4]; · iexact HF4
          isplitl [HF5]; · iexact HF5
          isplitl [HF6]; · iexact HF6
          isplitl [HF7]; · iexact HF7
          isplitl [HF8]; · iexact HF8
          isplitl [HF9]; · iexact HF9
          isplitl [HF10]; · iexact HF10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [HTQ HTK]
      · isplitl [HTQ]; · iexact HTQ
        iexact HTK
      iexact HTL
    isplitl [Ho]; · iexact Ho
    isplitl [H0]; · iexact H0
    isplitl [H1]; · iexact H1
    isplitl [H2]; · iexact H2
    iexists _; iexact H3
  · rw [PhiS1_castSucc V a c t, PhiS1_pos V a c _ _ hz, PhiT1_eq]
    iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
    iapply ((kernelRun1_B c (grid1.coords t) _ _ _ _ _ _ _ _ _ _ _ _ _ _ (a.1 0) (a.1 1) hR hO hD (iblk1 V a c 0 t) (iblk1 V a c 1 t) (iblk1 V a c 2 t)).2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    isplitl [HTQ]; · iexact HTQ
    isplitl [HTK]; · iexact HTK
    iintro ⟨H0, H1, H2, H3, ⟨%es0, HS0⟩, ⟨%es1, HS1⟩, ⟨%es2, HS2⟩, HTQ, HTK⟩
    isplitl [HF0 HF1 HF2 HF3 HF4 HF5 HF6 HF7 HF8 HF9 HF10 HS0 HS1 HS2 Hg HTQ HTK HTL]
    · isplitl [HF0 HF1 HF2 HF3 HF4 HF5 HF6 HF7 HF8 HF9 HF10 HS0 HS1 HS2 Hg]
      · isplitl [HF0 HF1 HF2 HF3 HF4 HF5 HF6 HF7 HF8 HF9 HF10 HS0 HS1 HS2]
        · isplitl [HF0]; · iexact HF0
          isplitl [HF1]; · iexact HF1
          isplitl [HF2]; · iexact HF2
          isplitl [HF3]; · iexact HF3
          isplitl [HF4]; · iexact HF4
          isplitl [HF5]; · iexact HF5
          isplitl [HF6]; · iexact HF6
          isplitl [HF7]; · iexact HF7
          isplitl [HF8]; · iexact HF8
          isplitl [HF9]; · iexact HF9
          isplitl [HF10]; · iexact HF10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [HTQ HTK]
      · isplitl [HTQ]; · iexact HTQ
        iexact HTK
      iexact HTL
    isplitl [Ho]; · iexact Ho
    isplitl [H0]; · iexact H0
    isplitl [H1]; · iexact H1
    isplitl [H2]; · iexact H2
    iexists _; iexact H3

set_option maxHeartbeats 4000000 in
/-- The body at a step of case C: the tiles' buffers hold their blocks; the invariant hands the body the scratch at what the step before left, and takes it back at this step's
    contents, the pieces read back; the output block's buffer, not stored into and not written back, is returned as it was found; the tables' halves and what the
    core owes pass through. -/
theorem sound_body1_C (h : TblOk a) (c : Dev nD) (t : Fin (cfgA a).N) (hR : ¬condReset (wK a c t)) (hO : condOff (wQ a c t) (wK a c t)) (hD : ¬condDiag (wQ a c t) (wK a c t)) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl]
  rw [show (dat1 V a c).Φ t.succ = PhiS1 V a c (t.val + 1) t.isLt from rfl, PhiS1_succ]
  rw [show (dat1 V a c).leavesExact 0 t = owns (c : Thread nD τ) (ms1_0 a t) fullShare ((dat1 V a c).after 0 t) from by
      unfold Dat.leavesExact; rw [liveAt1_0 a t]; rfl, after1_0]
  rw [show (dat1 V a c).leavesExact 1 t = owns (c : Thread nD τ) (ms1_1 a t) fullShare ((dat1 V a c).after 1 t) from by
      unfold Dat.leavesExact; rw [liveAt1_1 a t]; rfl, after1_1]
  rw [show (dat1 V a c).leavesExact 2 t = owns (c : Thread nD τ) (ms1_2 a t) fullShare ((dat1 V a c).after 2 t) from by
      unfold Dat.leavesExact; rw [liveAt1_2 a t]; rfl, after1_2]
  rw [Dat.leavesExact_idle (dat1 V a c) 3 t (idleAt1_3 a c t hD) (h.noFlush c t hD)]
  have hz : t.val ≠ 0 := fun hz => hR (h.first c t hz)
  rw [outsAt1_C V a c t hR hO hD hz]
  unfold step1_C sout1_C_0 sout1_C_1 sout1_C_2; (try dsimp only)
  rw [PhiS1_castSucc V a c t, PhiS1_pos V a c _ _ hz, PhiT1_eq]
  iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
  iapply ((kernelRun1_C c (grid1.coords t) _ _ _ _ _ _ _ _ _ _ _ _ _ _ (a.1 0) (a.1 1) hR hO hD (iblk1 V a c 0 t) (iblk1 V a c 1 t) (iblk1 V a c 2 t) _ _ _).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HTQ]; · iexact HTQ
  isplitl [HTK]; · iexact HTK
  iintro ⟨H0, H1, H2, H3, ⟨%es0, HS0⟩, ⟨%es1, HS1⟩, ⟨%es2, HS2⟩, HTQ, HTK⟩
  isplitl [HF0 HF1 HF2 HF3 HF4 HF5 HF6 HF7 HF8 HF9 HF10 HS0 HS1 HS2 Hg HTQ HTK HTL]
  · isplitl [HF0 HF1 HF2 HF3 HF4 HF5 HF6 HF7 HF8 HF9 HF10 HS0 HS1 HS2 Hg]
    · isplitl [HF0 HF1 HF2 HF3 HF4 HF5 HF6 HF7 HF8 HF9 HF10 HS0 HS1 HS2]
      · isplitl [HF0]; · iexact HF0
        isplitl [HF1]; · iexact HF1
        isplitl [HF2]; · iexact HF2
        isplitl [HF3]; · iexact HF3
        isplitl [HF4]; · iexact HF4
        isplitl [HF5]; · iexact HF5
        isplitl [HF6]; · iexact HF6
        isplitl [HF7]; · iexact HF7
        isplitl [HF8]; · iexact HF8
        isplitl [HF9]; · iexact HF9
        isplitl [HF10]; · iexact HF10
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _ _ _ _)
      iexact Hg
    isplitl [HTQ HTK]
    · isplitl [HTQ]; · iexact HTQ
      iexact HTK
    iexact HTL
  isplitl [Ho]; · iexact Ho
  isplitl [H0]; · iexact H0
  isplitl [H1]; · iexact H1
  isplitl [H2]; · iexact H2
  iexists _; iexact H3

set_option maxHeartbeats 4000000 in
/-- The body at a step of case D: the tiles' buffers hold their blocks; the invariant hands the body the scratch at what the step before left, and takes it back at this step's
    contents, the pieces read back; the output block's buffer is returned at the pieces stored into it; the tables' halves and what the
    core owes pass through. -/
theorem sound_body1_D (h : TblOk a) (c : Dev nD) (t : Fin (cfgA a).N) (hR : ¬condReset (wK a c t)) (hO : ¬condOff (wQ a c t) (wK a c t)) (hD : condDiag (wQ a c t) (wK a c t)) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl]
  rw [show (dat1 V a c).Φ t.succ = PhiS1 V a c (t.val + 1) t.isLt from rfl, PhiS1_succ]
  rw [show (dat1 V a c).leavesExact 0 t = owns (c : Thread nD τ) (ms1_0 a t) fullShare ((dat1 V a c).after 0 t) from by
      unfold Dat.leavesExact; rw [liveAt1_0 a t]; rfl, after1_0]
  rw [show (dat1 V a c).leavesExact 1 t = owns (c : Thread nD τ) (ms1_1 a t) fullShare ((dat1 V a c).after 1 t) from by
      unfold Dat.leavesExact; rw [liveAt1_1 a t]; rfl, after1_1]
  rw [show (dat1 V a c).leavesExact 2 t = owns (c : Thread nD τ) (ms1_2 a t) fullShare ((dat1 V a c).after 2 t) from by
      unfold Dat.leavesExact; rw [liveAt1_2 a t]; rfl, after1_2]
  rw [show (dat1 V a c).leavesExact 3 t = owns (c : Thread nD τ) (ms1_3 a t) fullShare ((dat1 V a c).after 3 t) from by
      unfold Dat.leavesExact; rw [liveAt1_3 a c t hD]; rfl, after1_3]
  have hz : t.val ≠ 0 := fun hz => hR (h.first c t hz)
  rw [outsAt1_D V a c t hR hO hD hz]
  unfold step1_D out1_D_3 sout1_D_0 sout1_D_1 sout1_D_2; (try dsimp only)
  rw [PhiS1_castSucc V a c t, PhiS1_pos V a c _ _ hz, PhiT1_eq]
  iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
  iapply ((kernelRun1_D c (grid1.coords t) _ _ _ _ _ _ _ _ _ _ _ _ _ _ (a.1 0) (a.1 1) hR hO hD (iblk1 V a c 0 t) (iblk1 V a c 1 t) (iblk1 V a c 2 t) _ _ _).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HTQ]; · iexact HTQ
  isplitl [HTK]; · iexact HTK
  iintro ⟨H0, H1, H2, ⟨%e3, H3⟩, ⟨%es0, HS0⟩, ⟨%es1, HS1⟩, ⟨%es2, HS2⟩, HTQ, HTK⟩
  isplitl [HF0 HF1 HF2 HF3 HF4 HF5 HF6 HF7 HF8 HF9 HF10 HS0 HS1 HS2 Hg HTQ HTK HTL]
  · isplitl [HF0 HF1 HF2 HF3 HF4 HF5 HF6 HF7 HF8 HF9 HF10 HS0 HS1 HS2 Hg]
    · isplitl [HF0 HF1 HF2 HF3 HF4 HF5 HF6 HF7 HF8 HF9 HF10 HS0 HS1 HS2]
      · isplitl [HF0]; · iexact HF0
        isplitl [HF1]; · iexact HF1
        isplitl [HF2]; · iexact HF2
        isplitl [HF3]; · iexact HF3
        isplitl [HF4]; · iexact HF4
        isplitl [HF5]; · iexact HF5
        isplitl [HF6]; · iexact HF6
        isplitl [HF7]; · iexact HF7
        isplitl [HF8]; · iexact HF8
        isplitl [HF9]; · iexact HF9
        isplitl [HF10]; · iexact HF10
        isplitl [HS0]
        · unfold owns; iexists _; isplitr
          swap; · iexact HS0
          ipureintro; exact View.read_writes_of_cover _ _ _ _ _ (scover1_D_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_D_1 c _ _ _ _ _ _ _ _ _ _ _ _ _ _ _ _ _ _ _ _ _ _ _ _ _ _)
        unfold owns; iexists _; isplitr
        swap; · iexact HS2
        ipureintro; exact View.read_writes_of_cover _ _ _ _ _ (scover1_D_2 c _ _ _ _ _ _ _ _ _ _ _ _ _ _ _ _ _ _ _ _ _ _ _ _ _ _)
      iexact Hg
    isplitl [HTQ HTK]
    · isplitl [HTQ]; · iexact HTQ
      iexact HTK
    iexact HTL
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_D_3 c _ _ _ _ _ _ _ _ _ _ _ _ _ _ _ _ _ _ _ _ _ _ _ _ _ _)

/-- The body at any step: the step is in one of the four cases. -/
theorem sound_body1 (h : TblOk a) (c : Dev nD) (t : Fin (cfgA a).N) :
    bodyPre1 V a c t ⊢ wp frame (wpE (defs₀ (F := F)) Variants.none c none) Set.univ (bodyAt1 a t) (fun _ => bodyPost1 V a c t) := by
  rcases h.cases c t with ⟨hR, hO, hD⟩ | ⟨hR, hO, hD⟩ | ⟨hR, hO, hD⟩ | ⟨hR, hO, hD⟩
  · exact sound_body1_A V a h c t hR hO hD
  · exact sound_body1_B V a h c t hR hO hD
  · exact sound_body1_C V a h c t hR hO hD
  · exact sound_body1_D V a h c t hR hO hD

/-- The body obligation of the region's proof data, at every step. -/
theorem body_obligation1 (h : TblOk a) (c : Dev nD) : BodyObligation (dat1 (F := F) V a c) (defs₀ (F := F)) Variants.none () Set.univ := fun t => by
  rw [bigSep_W1, bigSep_W1]
  exact sound_body1 V a h c t

/-! ## The invariant at the region's two ends -/

/-- What the region is entered with — the class invariant and the two tables whole — is the invariant before the first
    step: the tables split into their halves. -/
theorem hin1 (c : Dev nD) : iprop(Pipeline.ΦA spec1 c ∗ Pipeline.prefHeld (Ix := Unit) (Name := ℕ) (U := UR sig nD τ) (Lvl := ℕ) pre1 c (fun _ => fullShare) a.1) ⊢ (dat1 V a c).Φ 0 := by
  rw [show (dat1 V a c).Φ 0 = PhiS1 V a c 0 (Nat.zero_le _) from rfl, PhiS1_zero V a c 0 _ rfl]
  iintro ⟨HA, HT⟩
  ihave HT2 := (Pipeline.prefHeld_share pre1 c (PosShare.mem_left_op_right fullShare) a.1).1 $$ HT
  icases HT2 with ⟨HL, HR⟩
  isplitl [HA]; · iexact HA
  isplitl [HR]; · iexact HR
  iexact HL

/-- After any step the invariant gives the class invariant and the whole tables back: the scratch buffers' named contents
    are forgotten and the tables' halves joined. -/
theorem Phi_out1 (c : Dev nD) (t : Fin ((cfgA a).N + 1)) (ht : t.val ≠ 0) :
    (dat1 V a c).Φ t ⊢ iprop(Pipeline.ΦA spec1 c ∗ Pipeline.prefHeld (Ix := Unit) (Name := ℕ) (U := UR sig nD τ) (Lvl := ℕ) pre1 c (fun _ => fullShare) a.1) := by
  rw [show (dat1 V a c).Φ t = PhiS1 V a c t.val (Nat.le_of_lt_succ t.isLt) from rfl, PhiS1_pos V a c _ _ ht, PhiA1_eq]
  iintro ⟨⟨⟨HF0, HF1, HF2, HF3, HF4, HF5, HF6, HF7, HF8, HF9, HF10, HS0, HS1, HS2⟩, Hg⟩, HR, HL⟩
  isplitl [HF0 HF1 HF2 HF3 HF4 HF5 HF6 HF7 HF8 HF9 HF10 HS0 HS1 HS2 Hg]
  · isplitl [HF0 HF1 HF2 HF3 HF4 HF5 HF6 HF7 HF8 HF9 HF10 HS0 HS1 HS2]
    · isplitl [HF0]; · iexact HF0
      isplitl [HF1]; · iexact HF1
      isplitl [HF2]; · iexact HF2
      isplitl [HF3]; · iexact HF3
      isplitl [HF4]; · iexact HF4
      isplitl [HF5]; · iexact HF5
      isplitl [HF6]; · iexact HF6
      isplitl [HF7]; · iexact HF7
      isplitl [HF8]; · iexact HF8
      isplitl [HF9]; · iexact HF9
      isplitl [HF10]; · iexact HF10
      isplitl [HS0]; · iexists _; iexact HS0
      isplitl [HS1]; · iexists _; iexact HS1
      iexists _; iexact HS2
    iexact Hg
  iapply (Pipeline.prefHeld_share pre1 c (PosShare.mem_left_op_right fullShare) a.1).2
  isplitl [HL]; · iexact HL
  iexact HR

/-- The same after the last step. -/
theorem hout1 (h : TblOk a) (c : Dev nD) :
    (dat1 V a c).Φ (Fin.last (cfgA a).N) ⊢ iprop(Pipeline.ΦA spec1 c ∗ Pipeline.prefHeld (Ix := Unit) (Name := ℕ) (U := UR sig nD τ) (Lvl := ℕ) pre1 c (fun _ => fullShare) a.1) :=
  Phi_out1 V a c _ (by rw [Fin.val_last]; have : (cfgA a).N = 40 := N_1; omega)

end Region1

end Cert.Kernel.Hand

end
-- ==== Proof.KernelIdeal.Reg0.lean ====
/- Region 0 of the kernel program: the first TensorCore region, the q, k, v projection kernel
   \`cc0__proj_kernel\`, on its 4×4 grid. Everything here is stated at a PARAMETER \`V\`, the TensorCore's buffer
   contents when the region is entered, and at any float instance \`F\`.

   The region has seven windows. Window 0 is the activation block x[b, i·1024 … (i+1)·1024, :] (1×1024×1024, f32);
   windows 1, 2, 3 are the whole weight matrices W_q, W_k, W_v (1024×128, f32); windows 4, 5, 6 are the output blocks
   q, k, v [b, i·1024 … (i+1)·1024, :] (1×1024×128, bf16). At each grid point the body reads the four input blocks
   whole and writes each output block whole, once: q := bf16((bf16 x · bf16 W_q) · 2^(-7/2)), k := bf16(bf16 x · bf16 W_k),
   v := bf16(bf16 x · bf16 W_v), each product accumulated in f32.

   Contents: each window's block at a point as a function of \`V\` (\`iblk0\`); that an input window's staging
   buffer holds its block at every point (\`before0_W_of\`, \`before0_W\`); what the body leaves in each output buffer
   as a function of the input blocks (\`out0_4\`, \`out0_5\`, \`out0_6\`); the body's separation-logic triple
   (\`sound_kernel0\`); the region's proof data (\`dat0\`) and the body obligation at every point
   (\`body_obligation0\`). -/
import proofs.«420285_j7258494730366_3_alg».proof.Proof.Gen.KernelIdeal.Launch
import proofs.«420285_j7258494730366_3_alg».proof.Proof.Gen.KernelIdeal.Skeleton
import proofs.«420285_j7258494730366_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with axes of length 1024: the structural check recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window \`w\`'s block at grid point \`t\`: the sub-array of the window's array, as \`V\` holds it on entry, that the
    window's index map selects at \`t\`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds x's block at every point, for any proof data whose array is
    \`V\`'s and whose body leaves the block in place: the window is uncut, never idle, and where it is not fetched
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of W_q's window: fetched at the first point only, its (constant) block index never moves, so the
    buffer holds the whole of W_q at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of W_k's window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same of W_v's window. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

/-- The whole 1×1024×1024 activation block. -/
abbrev r0_x : Rect S1x1024x1024 := Rect.unit (s := S1x1024x1024) ![0, 0, 0] S1x1024x1024.size inb_S1x1024x1024_S1x1024x1024_0_0_0
/-- The whole 1024×128 weight matrix. -/
abbrev r0_w : Rect S1024x128 := Rect.unit (s := S1024x128) ![0, 0] S1024x128.size inb_S1024x128_S1024x128_0_0
/-- The whole 1×1024×128 output block. -/
abbrev r0_o : Rect S1x1024x128 := Rect.unit (s := S1x1024x128) ![0, 0, 0] S1x1024x128.size inb_S1x1024x128_S1x1024x128_0_0_0

/-! ## What the body leaves in each output window's buffer -/

/-- The q block after the body, from x's block \`x0\` and W_q \`x1\`: one whole-buffer store of
    bf16((bf16 x0 · bf16 x1) · 2^(-7/2)). -/
def out0_4 (x0 : Vec F S1x1024x1024 .f32) (x1 : Vec F S1024x128 .f32) : Vec F S1x1024x128 .bf16 :=
  View.canon [⟨r0_o, k0_pay2 (View.ld x0 r0_x) (View.ld x1 r0_w)⟩]

/-- The k block after the body, from x's block \`x0\` and W_k \`x2\`: one whole-buffer store of bf16(bf16 x0 · bf16 x2). -/
def out0_5 (x0 : Vec F S1x1024x1024 .f32) (x2 : Vec F S1024x128 .f32) : Vec F S1x1024x128 .bf16 :=
  View.canon [⟨r0_o, k0_pay3 (View.ld x0 r0_x) (View.ld x2 r0_w)⟩]

/-- The v block after the body, from x's block \`x0\` and W_v \`x3\`: one whole-buffer store of bf16(bf16 x0 · bf16 x3). -/
def out0_6 (x0 : Vec F S1x1024x1024 .f32) (x3 : Vec F S1024x128 .f32) : Vec F S1x1024x128 .bf16 :=
  View.canon [⟨r0_o, k0_pay4 (View.ld x0 r0_x) (View.ld x3 r0_w)⟩]

/-- The single store of the q block is the whole block, so it covers it. -/
theorem cover0_4 (p0 : Vec F S1x1024x128 .bf16) (y : S1x1024x128.Idx) :
    ∃ pc ∈ ([⟨r0_o, p0⟩] : List (View.Piece (Elt F) S1x1024x128 .bf16)), y ∈ pc.1.set :=
  View.cover_of_tiled [⟨r0_o, p0⟩] S1x1024x128.size (by rfl) y

/-- Likewise the k block's. -/
theorem cover0_5 (p0 : Vec F S1x1024x128 .bf16) (y : S1x1024x128.Idx) :
    ∃ pc ∈ ([⟨r0_o, p0⟩] : List (View.Piece (Elt F) S1x1024x128 .bf16)), y ∈ pc.1.set :=
  View.cover_of_tiled [⟨r0_o, p0⟩] S1x1024x128.size (by rfl) y

/-- Likewise the v block's. -/
theorem cover0_6 (p0 : Vec F S1x1024x128 .bf16) (y : S1x1024x128.Idx) :
    ∃ pc ∈ ([⟨r0_o, p0⟩] : List (View.Piece (Elt F) S1x1024x128 .bf16)), y ∈ pc.1.set :=
  View.cover_of_tiled [⟨r0_o, p0⟩] S1x1024x128.size (by rfl) y

/-! ## The body's triple -/

set_option maxHeartbeats 1000000 in
/-- The kernel body on whole staging memrefs, the four inputs' at read contents \`x0 … x3\` and the three outputs' at
    anything, runs to the continuation holding the inputs as they were and the outputs at \`out0_4 x0 x1\`,
    \`out0_5 x0 x2\`, \`out0_6 x0 x3\`. The grid coordinates \`i\` are not read. -/
theorem sound_kernel0 (c : Dev nD) (E : Set ℕ) (i : grid0.Coords)
    (arg2 : Memref sig .tc .vmem S1x1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x1024x128 .bf16) (harg8 : arg8.IsWhole)
    (x0 : Vec F S1x1024x1024 .f32) (x1 : Vec F S1024x128 .f32) (x2 : Vec F S1024x128 .f32) (x3 : Vec F S1024x128 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E
          (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The region's proof data -/

/-- The proof data of the region on core \`c\`: the arrays as the region finds them (\`V\`); after the body at point
    \`t\` each input's buffer at its block and each output's at \`out0_W\` of the input blocks; the invariant that the
    rest of the core's memory and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point \`t\`: the invariant, what the core owes, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.Reg1Runs.lean ====
/-
  The attention call (the second pallas_call), what its four case runs share.

  The call walks, for each of the 4 batches, the 10 pairs (qi, ki) with ki ≤ qi of 1024-row tiles, in the order two
  prefetched tables of ten words list them: `qiT` the query tile, `kiT` the key tile of each step.  A step's body reads its
  two words and does up to three things: where ki = 0 it resets the running maximum (to -∞), the normaliser and the
  weighted sum (to 0) that it keeps in three scratch buffers; where ki < qi it folds an unmasked tile into them; where
  ki = qi it folds the causally masked diagonal tile and writes the normalised block out.  So a step is in one of four
  cases — reset + diagonal (qi = ki = 0), reset + off-diagonal (ki = 0 < qi), off-diagonal alone (0 < ki < qi),
  diagonal alone (0 < ki = qi) — and the output window is stored only in the diagonal cases.

  Everything here is stated at ANY admissible contents `a` of the two tables (the program's own constants are
  substituted last), and at any float instance.
-/
import proofs.«420285_j7258494730366_3_alg».proof.Proof.Gen.KernelIdeal.Launch
import proofs.«420285_j7258494730366_3_alg».proof.Proof.Gen.KernelIdeal.Skeleton
import proofs.«420285_j7258494730366_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The pipeline at the tables' contents, its staging memrefs and the body as the pipeline calls it -/

/-- The attention pipeline at admissible contents `a` of its two tables. -/
abbrev cfgA (a : (pcfg1 (F := F)).Adm) : Pipeline.Cfg sig Λ₀ := cfg1 a

/-- Each window's current staging memref at step `t` (0: the query tile, 1: the key tile, 2: the value tile, 3: the output
    block), spelled as the pipeline passes it to the body, and its wholeness. -/
abbrev ms1_0 (a : (pcfg1 (F := F)).Adm) (t : Fin (cfgA a).N) : Memref sig .tc .vmem S1x1024x128 .bf16 := spec1_0.stage ((cfgA a).slots t 0)
abbrev hs1_0 (a : (pcfg1 (F := F)).Adm) (t : Fin (cfgA a).N) : (ms1_0 a t).IsWhole := hstage1_0 (((cfgA a).slots t 0).cast nbuf1_0)
abbrev ms1_1 (a : (pcfg1 (F := F)).Adm) (t : Fin (cfgA a).N) : Memref sig .tc .vmem S1x1024x128 .bf16 := spec1_1.stage ((cfgA a).slots t 1)
abbrev hs1_1 (a : (pcfg1 (F := F)).Adm) (t : Fin (cfgA a).N) : (ms1_1 a t).IsWhole := hstage1_1 (((cfgA a).slots t 1).cast nbuf1_1)
abbrev ms1_2 (a : (pcfg1 (F := F)).Adm) (t : Fin (cfgA a).N) : Memref sig .tc .vmem S1x1024x128 .bf16 := spec1_2.stage ((cfgA a).slots t 2)
abbrev hs1_2 (a : (pcfg1 (F := F)).Adm) (t : Fin (cfgA a).N) : (ms1_2 a t).IsWhole := hstage1_2 (((cfgA a).slots t 2).cast nbuf1_2)
abbrev ms1_3 (a : (pcfg1 (F := F)).Adm) (t : Fin (cfgA a).N) : Memref sig .tc .vmem S1x1024x128 .f32 := spec1_3.stage ((cfgA a).slots t 3)
abbrev hs1_3 (a : (pcfg1 (F := F)).Adm) (t : Fin (cfgA a).N) : (ms1_3 a t).IsWhole := hstage1_3 (((cfgA a).slots t 3).cast nbuf1_3)

/-- The two tables as the body is handed them: each whole buffer as a memref. -/
abbrev tbQ : Memref sig .tc .smem S10 .i32 := Memref.whole main_c
abbrev htbQ : tbQ.IsWhole := Memref.isWhole_whole _
abbrev tbK : Memref sig .tc .smem S10 .i32 := Memref.whole main_c_0
abbrev htbK : tbK.IsWhole := Memref.isWhole_whole _

/-- The three scratch operands: the running maximum and normaliser (one column of 1024 rows each) and the running
    weighted sum (1024 × 128), whole scoped buffers of the kernel's own. -/
abbrev scMx : Memref sig .tc .vmem S1024x1 .f32 := Memref.whole cc1_scratch0
abbrev scL : Memref sig .tc .vmem S1024x1 .f32 := Memref.whole cc1_scratch1
abbrev scAcc : Memref sig .tc .vmem S1024x128 .f32 := Memref.whole cc1_scratch2
/-- The views through which what they hold is stated, and one staging buffer of the output window for the same purpose. -/
abbrev VSx : View sig .tc .vmem S1024x1 .f32 := scMx.view
abbrev VSl : View sig .tc .vmem S1024x1 .f32 := scL.view
abbrev VSa : View sig .tc .vmem S1024x128 .f32 := scAcc.view
abbrev VO3 : View sig .tc .vmem S1x1024x128 .f32 := (Memref.whole cc1_stg3_0 : Memref sig .tc .vmem S1x1024x128 .f32).view

/-- The body at step `t`, on what the pipeline calls it with. -/
abbrev bodyAt1 (a : (pcfg1 (F := F)).Adm) (t : Fin (cfgA a).N) : Prog (TpuEff nD τ sig (Elt F) Λ₀ .tc) PUnit :=
  cc1__attn_kernel (grid1.coords t) tbQ htbQ tbK htbK (ms1_0 a t) (hs1_0 a t) (ms1_1 a t) (hs1_1 a t) (ms1_2 a t) (hs1_2 a t) (ms1_3 a t) (hs1_3 a t)
    scMx (Memref.isWhole_whole _) scL (Memref.isWhole_whole _) scAcc (Memref.isWhole_whole _)

/-! ## The tables' halves the body reads -/

/-- A table memref's buffer on core `c`, and it held read-only (at half the full share) at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The halves of the two tables the region lends the body, table by table. -/
theorem PhiT1_eq (pf : pre1.Contents (Elt F)) (c : Dev nD) :
    (Pipeline.ΦT pre1 pf c : sProp 𝕄) = iprop(tbPt c tbQ (pf 0) ∗ tbPt c tbK (pf 1)) := by
  unfold Pipeline.ΦT Pipeline.prefHeld
  rw [show (Finset.univ : Finset (Fin 2)) = insert (0 : Fin 2) {(1 : Fin 2)} from by decide,
    bigSep_insert (by decide), bigSep_singleton]
  rfl

/-! ## A step's two words, and the three conditions the body branches on -/

/-- The query-tile word and the key-tile word of the step at grid coordinates `i`, read through the tables' memrefs at held
    contents: the forms the body's two scalar loads take. -/
abbrev wordQ (c : Dev nD) (i : grid1.Coords) (xq : TbBuf (F := F) c tbQ) : BitVec 32 :=
  tbQ.view.readAt (Elt F) (Rect.unit (s := S10) (k1_off1 i) S1.size (k1_off1_inb i)).toLoadRect xq (Shape.Idx.first (numel1_S1.symm ▸ Nat.one_pos))
abbrev wordK (c : Dev nD) (i : grid1.Coords) (xk : TbBuf (F := F) c tbK) : BitVec 32 :=
  tbK.view.readAt (Elt F) (Rect.unit (s := S10) (k1_off1 i) S1.size (k1_off1_inb i)).toLoadRect xk (Shape.Idx.first (numel1_S1.symm ▸ Nat.one_pos))

/-- ki = 0: the step resets the three scratch buffers. -/
abbrev condReset (vk : BitVec 32) : Prop := (Scalar.cmpi .ne (Scalar.extui (Scalar.cmpi .eq vk 0#32)) 0#32) = 1#1
/-- ki < qi: the step folds an unmasked tile. -/
abbrev condOff (vq vk : BitVec 32) : Prop := (Scalar.cmpi .ne (Scalar.extui (Scalar.cmpi .slt vk vq)) 0#32) = 1#1
/-- ki = qi: the step folds the masked diagonal tile and stores the output block. -/
abbrev condDiag (vq vk : BitVec 32) : Prop := k1_cond3 vq vk = 1#1

end Cert.KernelIdeal.Hand

end
-- ==== Proof.KernelIdeal.Reg1Kit.lean ====
/-
  The attention call, continued: the region's invariant with the kernel's three scratch buffers in sight, each window's
  block at a step read off the array the region finds, and the fact that an input window's staging buffer holds that block
  at every step.
-/
import proofs.«420285_j7258494730366_3_alg».proof.Proof.KernelIdeal.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The class invariant spelled out: the scoped buffers the attention call does not stage — the projection call's eleven
    staging buffers, at anything — then the three scratch operands as memrefs owned at some contents, beside the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg4_1), ((c : Thread nD τ).loc cc0_stg4_1) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg5_1), ((c : Thread nD τ).loc cc0_stg5_1) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg6_1), ((c : Thread nD τ).loc cc0_stg6_1) ↦{fullShare} f)
          ∗ (∃ d, owns (c : Thread nD τ) scMx fullShare d) ∗ (∃ d, owns (c : Thread nD τ) scL fullShare d) ∗ (∃ d, owns (c : Thread nD τ) scAcc fullShare d)) ∗ (∃ r, prngReg c r)) := by
  unfold Pipeline.ΦA; rw [scopedRest1_eq]; simp only [scMx, scL, scAcc, owns_whole]; try rfl

section Blocks

variable (V : (c : Dev nD) → (b : Ref sig .tc) → Buf (Elt F) ((c : Thread nD τ).loc b))

/-- Window `w`'s block at step `t`, read off its array as the region finds it: for the three tiles a function of the step's
    table words. -/
def iblk1 (a : (pcfg1 (F := F)).Adm) (c : Dev nD) (w : Fin (cfgA a).W) (t : Fin (cfgA a).N) : (((cfgA a).win w).xblock ((cfgA a).grid.coords t)).Idx → Elt F ((cfgA a).win w).elt :=
  (((cfgA a).win w).blk t).view.read (Elt F) (V c (Pipeline.arrRef spec1 w))

/-- The query tile's staging buffer holds its block at every step, fetched there or not (where it is not fetched the block
    index has not moved), for any proof data whose array is the region-entry contents and whose body leaves the block in
    place. -/
theorem before1_0_of (a : (pcfg1 (F := F)).Adm) {c : Dev nD} (dat : Dat τ (Elt F) Unit ℕ (UR sig nD τ) ℕ (cfgA a) c) (hA : dat.A 0 = V c (Pipeline.arrRef spec1 0))
    (hafter : ∀ t, dat.after 0 t = iblk1 V a c 0 t) (t : Fin (cfgA a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the key tile -/
theorem before1_1_of (a : (pcfg1 (F := F)).Adm) {c : Dev nD} (dat : Dat τ (Elt F) Unit ℕ (UR sig nD τ) ℕ (cfgA a) c) (hA : dat.A 1 = V c (Pipeline.arrRef spec1 1))
    (hafter : ∀ t, dat.after 1 t = iblk1 V a c 1 t) (t : Fin (cfgA a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and for the value tile. -/
theorem before1_2_of (a : (pcfg1 (F := F)).Adm) {c : Dev nD} (dat : Dat τ (Elt F) Unit ℕ (UR sig nD τ) ℕ (cfgA a) c) (hA : dat.A 2 = V c (Pipeline.arrRef spec1 2))
    (hafter : ∀ t, dat.after 2 t = iblk1 V a c 2 t) (t : Fin (cfgA a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Where the output window is idle -/

/-- The three tiles are read at every step. -/
theorem live1_0 (a : (pcfg1 (F := F)).Adm) : ∀ i : grid1.Coords, (cfgA a).idle 0 i = false := fun _ => rfl
theorem live1_1 (a : (pcfg1 (F := F)).Adm) : ∀ i : grid1.Coords, (cfgA a).idle 1 i = false := fun _ => rfl
theorem live1_2 (a : (pcfg1 (F := F)).Adm) : ∀ i : grid1.Coords, (cfgA a).idle 2 i = false := fun _ => rfl
end Cert.KernelIdeal.Hand

end
-- ==== Proof.KernelIdeal.Reg1RunA.lean ====
/-
  The attention body at a batch's first step (qi = ki = 0): it resets the running maximum to -∞ and the normaliser and
  weighted sum to 0, folds the causally masked diagonal tile into them, and stores the normalised block into the output's
  buffer.
-/
import proofs.«420285_j7258494730366_3_alg».proof.Proof.KernelIdeal.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- What the step leaves in the output block's buffer and in the three scratch buffers, as the pieces its stores wrote (last first), with the
    triple that says so: the three tiles' buffers held at their contents, the output's at anything, the scratch
    at anything (the step overwrites them before it reads them), the two tables' halves; each branch decided by the case's hypotheses on the
    step's two words. -/
noncomputable def kernelRun1_A (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d)
            ∗ tbPt c tbQ xq ∗ tbPt c tbK xk
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt c tbQ xq ∗ tbPt c tbK xk) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, HTQ, HTK, Hk⟩
    obtain rfl := harg4.eq_unread hf0; obtain rfl := harg5.eq_unread hf1; obtain rfl := harg6.eq_unread hf2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HTQ]; · iexact HTQ
    iexact HTK

end Cert.KernelIdeal.Hand

end
-- ==== Proof.KernelIdeal.Reg1RunB.lean ====
/-
  The attention body at the first key tile of a later query tile (ki = 0 < qi): it resets the three running quantities and
  folds the unmasked tile into them; the output block's buffer is not touched.
-/
import proofs.«420285_j7258494730366_3_alg».proof.Proof.KernelIdeal.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- What the step leaves in the three scratch buffers, as the pieces its stores wrote (last first), with the
    triple that says so: the three tiles' buffers held at their contents, the output's handed back as it was, the scratch
    at anything (the step overwrites them before it reads them), the two tables' halves; each branch decided by the case's hypotheses on the
    step's two words. -/
noncomputable def kernelRun1_B (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3
            ∗ (∃ d, owns (c : Thread nD τ) arg8 fullShare d) ∗ (∃ d, owns (c : Thread nD τ) arg9 fullShare d) ∗ (∃ d, owns (c : Thread nD τ) arg10 fullShare d)
            ∗ tbPt c tbQ xq ∗ tbPt c tbK xk
            ∗ (iprop(owns (c : Thread nD τ) arg4 fullShare x0 ∗ owns (c : Thread nD τ) arg5 fullShare x1 ∗ owns (c : Thread nD τ) arg6 fullShare x2 ∗ owns (c : Thread nD τ) arg7 fullShare xi3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt c tbQ xq ∗ tbPt c tbK xk) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HTQ, HTK, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HTQ]; · iexact HTQ
    iexact HTK

end Cert.KernelIdeal.Hand

end
-- ==== Proof.KernelIdeal.Reg1RunC.lean ====
/-
  The attention body at a step that folds an unmasked tile and does nothing else (0 < ki < qi): it reads the query, key and
  value tiles and the three running quantities, and leaves new contents in all three scratch buffers; the output block's
  buffer is not touched.
-/
import proofs.«420285_j7258494730366_3_alg».proof.Proof.KernelIdeal.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- What the step leaves in the three scratch buffers, as the pieces its stores wrote (last first), with the triple that
    says so: the three tiles' buffers held at their contents, the output's at anything, the scratch at what the step before
    left, the two tables' halves; each branch decided by the case's hypotheses on the step's two words. -/
noncomputable def kernelRun1_C (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs0 ∗ owns (c : Thread nD τ) arg9 fullShare xs1 ∗ owns (c : Thread nD τ) arg10 fullShare xs2
            ∗ tbPt c tbQ xq ∗ tbPt c tbK xk
            ∗ (iprop(owns (c : Thread nD τ) arg4 fullShare x0 ∗ owns (c : Thread nD τ) arg5 fullShare x1 ∗ owns (c : Thread nD τ) arg6 fullShare x2 ∗ owns (c : Thread nD τ) arg7 fullShare xi3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt c tbQ xq ∗ tbPt c tbK xk) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, HTQ, HTK, Hk⟩
    obtain rfl := harg4.eq_unread hf0; obtain rfl := harg5.eq_unread hf1; obtain rfl := harg6.eq_unread hf2; obtain rfl := harg7.eq_unread hf3
    obtain rfl := harg8.eq_unread hfs0; obtain rfl := harg9.eq_unread hfs1; obtain rfl := harg10.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HTQ]; · iexact HTQ
    iexact HTK

end Cert.KernelIdeal.Hand

end
-- ==== Proof.KernelIdeal.Reg1RunD.lean ====
/-
  The attention body at the last key tile of a later query tile (0 < ki = qi): it folds the causally masked diagonal tile
  into the three running quantities the steps before left, and stores the normalised block into the output's buffer.
-/
import proofs.«420285_j7258494730366_3_alg».proof.Proof.KernelIdeal.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- What the step leaves in the output block's buffer and in the three scratch buffers, as the pieces its stores wrote (last first), with the
    triple that says so: the three tiles' buffers held at their contents, the output's at anything, the scratch
    at what the step before left, the two tables' halves; each branch decided by the case's hypotheses on the
    step's two words. -/
noncomputable def kernelRun1_D (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ tbPt c tbQ xq ∗ tbPt c tbK xk
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt c tbQ xq ∗ tbPt c tbK xk) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, HTQ, HTK, Hk⟩
    obtain rfl := harg4.eq_unread hf0; obtain rfl := harg5.eq_unread hf1; obtain rfl := harg6.eq_unread hf2
    obtain rfl := harg8.eq_unread hfs0; obtain rfl := harg9.eq_unread hfs1; obtain rfl := harg10.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HTQ]; · iexact HTQ
    iexact HTK

end Cert.KernelIdeal.Hand

end
-- ==== Proof.KernelIdeal.Reg1.lean ====
/-
  The attention call, its frame half: what the output block and the three scratch buffers hold after every step, the
  region's invariant and proof data, and the body obligation at every step.

  A step's body reads its query-tile word and key-tile word from the two prefetched tables and is in one of four cases:
  A (key tile 0 = query tile: reset, fold the masked diagonal tile, store the normalised block), B (key tile 0 below the
  query tile: reset, fold an unmasked tile), C (0 < key tile < query tile: fold an unmasked tile into what the step
  before left), D (0 < key tile = query tile: fold the masked diagonal tile into what the step before left, store the
  normalised block). The running maximum, the normaliser and the weighted sum live in three scratch buffers carried
  from step to step; the output block is stored in cases A and D only, and at the other steps its window is idle.

  Everything is stated at the region-entry contents `V` and at ANY admissible contents `a` of the two tables; what is
  needed of the tables is collected in `TblOk`.
-/
import proofs.«420285_j7258494730366_3_alg».proof.Proof.KernelIdeal.Reg1Kit
import proofs.«420285_j7258494730366_3_alg».proof.Proof.KernelIdeal.Reg1RunA
import proofs.«420285_j7258494730366_3_alg».proof.Proof.KernelIdeal.Reg1RunB
import proofs.«420285_j7258494730366_3_alg».proof.Proof.KernelIdeal.Reg1RunC
import proofs.«420285_j7258494730366_3_alg».proof.Proof.KernelIdeal.Reg1RunD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1

-- the TensorCore's buffer contents when the region is entered, and the contents of the two tables
variable (V : (c : Dev nD) → (b : Ref sig .tc) → Buf (Elt F) ((c : Thread nD τ).loc b)) (a : (pcfg1 (F := F)).Adm)

/-! ## Case A: a batch's first step (reset and diagonal) -/

/-- The pieces case A stores into the output block tile it, so they cover it. -/
theorem cover1_A_3 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) (y : S1x1024x128.Idx) :
    ∃ pc ∈ (kernelRun1_A c i arg4 harg4 arg5 harg5 arg6 harg6 arg7 harg7 arg8 harg8 arg9 harg9 arg10 harg10 xq xk hc0 hc1 hc2 x0 x1 x2).1, y ∈ pc.1.set :=
  View.cover_of_tiledL (kernelRun1_A c i arg4 harg4 arg5 harg5 arg6 harg6 arg7 harg7 arg8 harg8 arg9 harg9 arg10 harg10 xq xk hc0 hc1 hc2 x0 x1 x2).1 S1x1024x128.size (by sl_kernel_rfl) y

/-- What case A leaves in the output block: its pieces read back. -/
def out1_A_3 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) : Vec F S1x1024x128 .f32 :=
  VO3.read (Elt F) (VO3.writes (Elt F) VO3.junk (kernelRun1_A c i arg4 harg4 arg5 harg5 arg6 harg6 arg7 harg7 arg8 harg8 arg9 harg9 arg10 harg10 xq xk hc0 hc1 hc2 x0 x1 x2).1)

/-- The pieces case A stores into the running maximum tile it, so they cover it. -/
theorem scover1_A_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) (y : S1024x1.Idx) :
    ∃ pc ∈ (kernelRun1_A c i arg4 harg4 arg5 harg5 arg6 harg6 arg7 harg7 arg8 harg8 arg9 harg9 arg10 harg10 xq xk hc0 hc1 hc2 x0 x1 x2).2.1, y ∈ pc.1.set :=
  View.cover_of_tiledL (kernelRun1_A c i arg4 harg4 arg5 harg5 arg6 harg6 arg7 harg7 arg8 harg8 arg9 harg9 arg10 harg10 xq xk hc0 hc1 hc2 x0 x1 x2).2.1 S1024x1.size (by sl_kernel_rfl) y

/-- What case A leaves in the running maximum: its pieces read back. -/
def sout1_A_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) : Vec F S1024x1 .f32 :=
  VSx.read (Elt F) (VSx.writes (Elt F) VSx.junk (kernelRun1_A c i arg4 harg4 arg5 harg5 arg6 harg6 arg7 harg7 arg8 harg8 arg9 harg9 arg10 harg10 xq xk hc0 hc1 hc2 x0 x1 x2).2.1)

/-- The pieces case A stores into the normaliser tile it, so they cover it. -/
theorem scover1_A_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) (y : S1024x1.Idx) :
    ∃ pc ∈ (kernelRun1_A c i arg4 harg4 arg5 harg5 arg6 harg6 arg7 harg7 arg8 harg8 arg9 harg9 arg10 harg10 xq xk hc0 hc1 hc2 x0 x1 x2).2.2.1, y ∈ pc.1.set :=
  View.cover_of_tiledL (kernelRun1_A c i arg4 harg4 arg5 harg5 arg6 harg6 arg7 harg7 arg8 harg8 arg9 harg9 arg10 harg10 xq xk hc0 hc1 hc2 x0 x1 x2).2.2.1 S1024x1.size (by sl_kernel_rfl) y

/-- What case A leaves in the normaliser: its pieces read back. -/
def sout1_A_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) : Vec F S1024x1 .f32 :=
  VSl.read (Elt F) (VSl.writes (Elt F) VSl.junk (kernelRun1_A c i arg4 harg4 arg5 harg5 arg6 harg6 arg7 harg7 arg8 harg8 arg9 harg9 arg10 harg10 xq xk hc0 hc1 hc2 x0 x1 x2).2.2.1)

/-- The pieces case A stores into the weighted sum tile it, so they cover it. -/
theorem scover1_A_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) (y : S1024x128.Idx) :
    ∃ pc ∈ (kernelRun1_A c i arg4 harg4 arg5 harg5 arg6 harg6 arg7 harg7 arg8 harg8 arg9 harg9 arg10 harg10 xq xk hc0 hc1 hc2 x0 x1 x2).2.2.2.1, y ∈ pc.1.set :=
  View.cover_of_tiledL (kernelRun1_A c i arg4 harg4 arg5 harg5 arg6 harg6 arg7 harg7 arg8 harg8 arg9 harg9 arg10 harg10 xq xk hc0 hc1 hc2 x0 x1 x2).2.2.2.1 S1024x128.size (by sl_kernel_rfl) y

/-- What case A leaves in the weighted sum: its pieces read back. -/
def sout1_A_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) : Vec F S1024x128 .f32 :=
  VSa.read (Elt F) (VSa.writes (Elt F) VSa.junk (kernelRun1_A c i arg4 harg4 arg5 harg5 arg6 harg6 arg7 harg7 arg8 harg8 arg9 harg9 arg10 harg10 xq xk hc0 hc1 hc2 x0 x1 x2).2.2.2.1)

/-! ## Case B: a reset step off the diagonal -/

/-- The pieces case B stores into the running maximum tile it, so they cover it. -/
theorem scover1_B_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) (y : S1024x1.Idx) :
    ∃ pc ∈ (kernelRun1_B c i arg4 harg4 arg5 harg5 arg6 harg6 arg7 harg7 arg8 harg8 arg9 harg9 arg10 harg10 xq xk hc0 hc1 hc2 x0 x1 x2).1, y ∈ pc.1.set :=
  View.cover_of_tiledL (kernelRun1_B c i arg4 harg4 arg5 harg5 arg6 harg6 arg7 harg7 arg8 harg8 arg9 harg9 arg10 harg10 xq xk hc0 hc1 hc2 x0 x1 x2).1 S1024x1.size (by sl_kernel_rfl) y

/-- What case B leaves in the running maximum: its pieces read back. -/
def sout1_B_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) : Vec F S1024x1 .f32 :=
  VSx.read (Elt F) (VSx.writes (Elt F) VSx.junk (kernelRun1_B c i arg4 harg4 arg5 harg5 arg6 harg6 arg7 harg7 arg8 harg8 arg9 harg9 arg10 harg10 xq xk hc0 hc1 hc2 x0 x1 x2).1)

/-- The pieces case B stores into the normaliser tile it, so they cover it. -/
theorem scover1_B_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) (y : S1024x1.Idx) :
    ∃ pc ∈ (kernelRun1_B c i arg4 harg4 arg5 harg5 arg6 harg6 arg7 harg7 arg8 harg8 arg9 harg9 arg10 harg10 xq xk hc0 hc1 hc2 x0 x1 x2).2.1, y ∈ pc.1.set :=
  View.cover_of_tiledL (kernelRun1_B c i arg4 harg4 arg5 harg5 arg6 harg6 arg7 harg7 arg8 harg8 arg9 harg9 arg10 harg10 xq xk hc0 hc1 hc2 x0 x1 x2).2.1 S1024x1.size (by sl_kernel_rfl) y

/-- What case B leaves in the normaliser: its pieces read back. -/
def sout1_B_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) : Vec F S1024x1 .f32 :=
  VSl.read (Elt F) (VSl.writes (Elt F) VSl.junk (kernelRun1_B c i arg4 harg4 arg5 harg5 arg6 harg6 arg7 harg7 arg8 harg8 arg9 harg9 arg10 harg10 xq xk hc0 hc1 hc2 x0 x1 x2).2.1)

/-- The pieces case B stores into the weighted sum tile it, so they cover it. -/
theorem scover1_B_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) (y : S1024x128.Idx) :
    ∃ pc ∈ (kernelRun1_B c i arg4 harg4 arg5 harg5 arg6 harg6 arg7 harg7 arg8 harg8 arg9 harg9 arg10 harg10 xq xk hc0 hc1 hc2 x0 x1 x2).2.2.1, y ∈ pc.1.set :=
  View.cover_of_tiledL (kernelRun1_B c i arg4 harg4 arg5 harg5 arg6 harg6 arg7 harg7 arg8 harg8 arg9 harg9 arg10 harg10 xq xk hc0 hc1 hc2 x0 x1 x2).2.2.1 S1024x128.size (by sl_kernel_rfl) y

/-- What case B leaves in the weighted sum: its pieces read back. -/
def sout1_B_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) : Vec F S1024x128 .f32 :=
  VSa.read (Elt F) (VSa.writes (Elt F) VSa.junk (kernelRun1_B c i arg4 harg4 arg5 harg5 arg6 harg6 arg7 harg7 arg8 harg8 arg9 harg9 arg10 harg10 xq xk hc0 hc1 hc2 x0 x1 x2).2.2.1)

/-! ## Case C: an off-diagonal step that carries the scratch -/

/-- The pieces case C stores into the running maximum tile it, so they cover it. -/
theorem scover1_C_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) (y : S1024x1.Idx) :
    ∃ pc ∈ (kernelRun1_C c i arg4 harg4 arg5 harg5 arg6 harg6 arg7 harg7 arg8 harg8 arg9 harg9 arg10 harg10 xq xk hc0 hc1 hc2 x0 x1 x2 xs0 xs1 xs2).1, y ∈ pc.1.set :=
  View.cover_of_tiledL (kernelRun1_C c i arg4 harg4 arg5 harg5 arg6 harg6 arg7 harg7 arg8 harg8 arg9 harg9 arg10 harg10 xq xk hc0 hc1 hc2 x0 x1 x2 xs0 xs1 xs2).1 S1024x1.size (by sl_kernel_rfl) y

/-- What case C leaves in the running maximum: its pieces read back. -/
def sout1_C_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) : Vec F S1024x1 .f32 :=
  VSx.read (Elt F) (VSx.writes (Elt F) VSx.junk (kernelRun1_C c i arg4 harg4 arg5 harg5 arg6 harg6 arg7 harg7 arg8 harg8 arg9 harg9 arg10 harg10 xq xk hc0 hc1 hc2 x0 x1 x2 xs0 xs1 xs2).1)

/-- The pieces case C stores into the normaliser tile it, so they cover it. -/
theorem scover1_C_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) (y : S1024x1.Idx) :
    ∃ pc ∈ (kernelRun1_C c i arg4 harg4 arg5 harg5 arg6 harg6 arg7 harg7 arg8 harg8 arg9 harg9 arg10 harg10 xq xk hc0 hc1 hc2 x0 x1 x2 xs0 xs1 xs2).2.1, y ∈ pc.1.set :=
  View.cover_of_tiledL (kernelRun1_C c i arg4 harg4 arg5 harg5 arg6 harg6 arg7 harg7 arg8 harg8 arg9 harg9 arg10 harg10 xq xk hc0 hc1 hc2 x0 x1 x2 xs0 xs1 xs2).2.1 S1024x1.size (by sl_kernel_rfl) y

/-- What case C leaves in the normaliser: its pieces read back. -/
def sout1_C_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) : Vec F S1024x1 .f32 :=
  VSl.read (Elt F) (VSl.writes (Elt F) VSl.junk (kernelRun1_C c i arg4 harg4 arg5 harg5 arg6 harg6 arg7 harg7 arg8 harg8 arg9 harg9 arg10 harg10 xq xk hc0 hc1 hc2 x0 x1 x2 xs0 xs1 xs2).2.1)

/-- The pieces case C stores into the weighted sum tile it, so they cover it. -/
theorem scover1_C_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) (y : S1024x128.Idx) :
    ∃ pc ∈ (kernelRun1_C c i arg4 harg4 arg5 harg5 arg6 harg6 arg7 harg7 arg8 harg8 arg9 harg9 arg10 harg10 xq xk hc0 hc1 hc2 x0 x1 x2 xs0 xs1 xs2).2.2.1, y ∈ pc.1.set :=
  View.cover_of_tiledL (kernelRun1_C c i arg4 harg4 arg5 harg5 arg6 harg6 arg7 harg7 arg8 harg8 arg9 harg9 arg10 harg10 xq xk hc0 hc1 hc2 x0 x1 x2 xs0 xs1 xs2).2.2.1 S1024x128.size (by sl_kernel_rfl) y

/-- What case C leaves in the weighted sum: its pieces read back. -/
def sout1_C_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) : Vec F S1024x128 .f32 :=
  VSa.read (Elt F) (VSa.writes (Elt F) VSa.junk (kernelRun1_C c i arg4 harg4 arg5 harg5 arg6 harg6 arg7 harg7 arg8 harg8 arg9 harg9 arg10 harg10 xq xk hc0 hc1 hc2 x0 x1 x2 xs0 xs1 xs2).2.2.1)

/-! ## Case D: a diagonal step that carries the scratch -/

/-- The pieces case D stores into the output block tile it, so they cover it. -/
theorem cover1_D_3 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) (y : S1x1024x128.Idx) :
    ∃ pc ∈ (kernelRun1_D c i arg4 harg4 arg5 harg5 arg6 harg6 arg7 harg7 arg8 harg8 arg9 harg9 arg10 harg10 xq xk hc0 hc1 hc2 x0 x1 x2 xs0 xs1 xs2).1, y ∈ pc.1.set :=
  View.cover_of_tiledL (kernelRun1_D c i arg4 harg4 arg5 harg5 arg6 harg6 arg7 harg7 arg8 harg8 arg9 harg9 arg10 harg10 xq xk hc0 hc1 hc2 x0 x1 x2 xs0 xs1 xs2).1 S1x1024x128.size (by sl_kernel_rfl) y

/-- What case D leaves in the output block: its pieces read back. -/
def out1_D_3 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) : Vec F S1x1024x128 .f32 :=
  VO3.read (Elt F) (VO3.writes (Elt F) VO3.junk (kernelRun1_D c i arg4 harg4 arg5 harg5 arg6 harg6 arg7 harg7 arg8 harg8 arg9 harg9 arg10 harg10 xq xk hc0 hc1 hc2 x0 x1 x2 xs0 xs1 xs2).1)

/-- The pieces case D stores into the running maximum tile it, so they cover it. -/
theorem scover1_D_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) (y : S1024x1.Idx) :
    ∃ pc ∈ (kernelRun1_D c i arg4 harg4 arg5 harg5 arg6 harg6 arg7 harg7 arg8 harg8 arg9 harg9 arg10 harg10 xq xk hc0 hc1 hc2 x0 x1 x2 xs0 xs1 xs2).2.1, y ∈ pc.1.set :=
  View.cover_of_tiledL (kernelRun1_D c i arg4 harg4 arg5 harg5 arg6 harg6 arg7 harg7 arg8 harg8 arg9 harg9 arg10 harg10 xq xk hc0 hc1 hc2 x0 x1 x2 xs0 xs1 xs2).2.1 S1024x1.size (by sl_kernel_rfl) y

/-- What case D leaves in the running maximum: its pieces read back. -/
def sout1_D_0 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) : Vec F S1024x1 .f32 :=
  VSx.read (Elt F) (VSx.writes (Elt F) VSx.junk (kernelRun1_D c i arg4 harg4 arg5 harg5 arg6 harg6 arg7 harg7 arg8 harg8 arg9 harg9 arg10 harg10 xq xk hc0 hc1 hc2 x0 x1 x2 xs0 xs1 xs2).2.1)

/-- The pieces case D stores into the normaliser tile it, so they cover it. -/
theorem scover1_D_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) (y : S1024x1.Idx) :
    ∃ pc ∈ (kernelRun1_D c i arg4 harg4 arg5 harg5 arg6 harg6 arg7 harg7 arg8 harg8 arg9 harg9 arg10 harg10 xq xk hc0 hc1 hc2 x0 x1 x2 xs0 xs1 xs2).2.2.1, y ∈ pc.1.set :=
  View.cover_of_tiledL (kernelRun1_D c i arg4 harg4 arg5 harg5 arg6 harg6 arg7 harg7 arg8 harg8 arg9 harg9 arg10 harg10 xq xk hc0 hc1 hc2 x0 x1 x2 xs0 xs1 xs2).2.2.1 S1024x1.size (by sl_kernel_rfl) y

/-- What case D leaves in the normaliser: its pieces read back. -/
def sout1_D_1 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) : Vec F S1024x1 .f32 :=
  VSl.read (Elt F) (VSl.writes (Elt F) VSl.junk (kernelRun1_D c i arg4 harg4 arg5 harg5 arg6 harg6 arg7 harg7 arg8 harg8 arg9 harg9 arg10 harg10 xq xk hc0 hc1 hc2 x0 x1 x2 xs0 xs1 xs2).2.2.1)

/-- The pieces case D stores into the weighted sum tile it, so they cover it. -/
theorem scover1_D_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) (y : S1024x128.Idx) :
    ∃ pc ∈ (kernelRun1_D c i arg4 harg4 arg5 harg5 arg6 harg6 arg7 harg7 arg8 harg8 arg9 harg9 arg10 harg10 xq xk hc0 hc1 hc2 x0 x1 x2 xs0 xs1 xs2).2.2.2.1, y ∈ pc.1.set :=
  View.cover_of_tiledL (kernelRun1_D c i arg4 harg4 arg5 harg5 arg6 harg6 arg7 harg7 arg8 harg8 arg9 harg9 arg10 harg10 xq xk hc0 hc1 hc2 x0 x1 x2 xs0 xs1 xs2).2.2.2.1 S1024x128.size (by sl_kernel_rfl) y

/-- What case D leaves in the weighted sum: its pieces read back. -/
def sout1_D_2 (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) : Vec F S1024x128 .f32 :=
  VSa.read (Elt F) (VSa.writes (Elt F) VSa.junk (kernelRun1_D c i arg4 harg4 arg5 harg5 arg6 harg6 arg7 harg7 arg8 harg8 arg9 harg9 arg10 harg10 xq xk hc0 hc1 hc2 x0 x1 x2 xs0 xs1 xs2).2.2.2.1)

/-! ## A step's contents, case by case, at the step's own memrefs, blocks and words -/

/-- The query-tile word and the key-tile word of step `t`, read off the tables' contents. -/
abbrev wQ (c : Dev nD) (t : Fin (cfgA a).N) : BitVec 32 := wordQ c (grid1.coords t) (a.1 0)
abbrev wK (c : Dev nD) (t : Fin (cfgA a).N) : BitVec 32 := wordK c (grid1.coords t) (a.1 1)

/-- What nothing consults: the four buffers read back over arbitrary contents. The output block's component at a step
    off the diagonal (the block is not stored there), and every component at a combination of the three conditions
    that is none of the four cases. -/
def outsJunk : Vec F S1x1024x128 .f32 × Vec F S1024x1 .f32 × Vec F S1024x1 .f32 × Vec F S1024x128 .f32 :=
  (VO3.read (Elt F) VO3.junk, VSx.read (Elt F) VSx.junk, VSl.read (Elt F) VSl.junk, VSa.read (Elt F) VSa.junk)

/-- After a step of case A: the output block, the running maximum, the normaliser, the weighted sum. -/
def step1_A (c : Dev nD) (t : Fin (cfgA a).N) (hR : condReset (wK a c t)) (hO : ¬condOff (wQ a c t) (wK a c t)) (hD : condDiag (wQ a c t) (wK a c t)) : Vec F S1x1024x128 .f32 × Vec F S1024x1 .f32 × Vec F S1024x1 .f32 × Vec F S1024x128 .f32 :=
  (out1_A_3 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t),
   sout1_A_0 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t),
   sout1_A_1 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t),
   sout1_A_2 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t))

/-- After a step of case B: the output block (a placeholder: not stored), the running maximum, the normaliser, the weighted sum. -/
def step1_B (c : Dev nD) (t : Fin (cfgA a).N) (hR : condReset (wK a c t)) (hO : condOff (wQ a c t) (wK a c t)) (hD : ¬condDiag (wQ a c t) (wK a c t)) : Vec F S1x1024x128 .f32 × Vec F S1024x1 .f32 × Vec F S1024x1 .f32 × Vec F S1024x128 .f32 :=
  (VO3.read (Elt F) VO3.junk,
   sout1_B_0 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t),
   sout1_B_1 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t),
   sout1_B_2 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t))

/-- After a step of case C: the output block (a placeholder: not stored), the running maximum, the normaliser, the weighted sum, from what the step before left in the three scratch buffers (\`p\`'s last three components). -/
def step1_C (c : Dev nD) (t : Fin (cfgA a).N) (hR : ¬condReset (wK a c t)) (hO : condOff (wQ a c t) (wK a c t)) (hD : ¬condDiag (wQ a c t) (wK a c t)) (p : Vec F S1x1024x128 .f32 × Vec F S1024x1 .f32 × Vec F S1024x1 .f32 × Vec F S1024x128 .f32) : Vec F S1x1024x128 .f32 × Vec F S1024x1 .f32 × Vec F S1024x1 .f32 × Vec F S1024x128 .f32 :=
  (VO3.read (Elt F) VO3.junk,
   sout1_C_0 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2,
   sout1_C_1 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2,
   sout1_C_2 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2)

/-- After a step of case D: the output block, the running maximum, the normaliser, the weighted sum, from what the step before left in the three scratch buffers (\`p\`'s last three components). -/
def step1_D (c : Dev nD) (t : Fin (cfgA a).N) (hR : ¬condReset (wK a c t)) (hO : ¬condOff (wQ a c t) (wK a c t)) (hD : condDiag (wQ a c t) (wK a c t)) (p : Vec F S1x1024x128 .f32 × Vec F S1024x1 .f32 × Vec F S1024x1 .f32 × Vec F S1024x128 .f32) : Vec F S1x1024x128 .f32 × Vec F S1024x1 .f32 × Vec F S1024x1 .f32 × Vec F S1024x128 .f32 :=
  (out1_D_3 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2,
   sout1_D_0 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2,
   sout1_D_1 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2,
   sout1_D_2 c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2)

/-! ## What the output block and the three scratch buffers hold after each step -/

/-- THE ACCUMULATION. After the step at position `n`: the case the step's two words select, run at the step's memrefs,
    blocks and words; a case that carries the scratch (C, D) reads what position `n - 1` left. A combination of the
    conditions that is none of the four cases — the tables of the program meet none — gives `outsJunk`. -/
def outsAt1 (c : Dev nD) : (n : ℕ) → n < (cfgA a).N → Vec F S1x1024x128 .f32 × Vec F S1024x1 .f32 × Vec F S1024x1 .f32 × Vec F S1024x128 .f32
  | 0, hn =>
    if hR : condReset (wK a c ⟨0, hn⟩) then
      if hO : condOff (wQ a c ⟨0, hn⟩) (wK a c ⟨0, hn⟩) then
        if hD : condDiag (wQ a c ⟨0, hn⟩) (wK a c ⟨0, hn⟩) then outsJunk else step1_B V a c ⟨0, hn⟩ hR hO hD
      else
        if hD : condDiag (wQ a c ⟨0, hn⟩) (wK a c ⟨0, hn⟩) then step1_A V a c ⟨0, hn⟩ hR hO hD else outsJunk
    else outsJunk
  | n + 1, hn =>
    if hR : condReset (wK a c ⟨n + 1, hn⟩) then
      if hO : condOff (wQ a c ⟨n + 1, hn⟩) (wK a c ⟨n + 1, hn⟩) then
        if hD : condDiag (wQ a c ⟨n + 1, hn⟩) (wK a c ⟨n + 1, hn⟩) then outsJunk else step1_B V a c ⟨n + 1, hn⟩ hR hO hD
      else
        if hD : condDiag (wQ a c ⟨n + 1, hn⟩) (wK a c ⟨n + 1, hn⟩) then step1_A V a c ⟨n + 1, hn⟩ hR hO hD else outsJunk
    else
      if hO : condOff (wQ a c ⟨n + 1, hn⟩) (wK a c ⟨n + 1, hn⟩) then
        if hD : condDiag (wQ a c ⟨n + 1, hn⟩) (wK a c ⟨n + 1, hn⟩) then outsJunk else step1_C V a c ⟨n + 1, hn⟩ hR hO hD (outsAt1 c n (Nat.lt_of_succ_lt hn))
      else
        if hD : condDiag (wQ a c ⟨n + 1, hn⟩) (wK a c ⟨n + 1, hn⟩) then step1_D V a c ⟨n + 1, hn⟩ hR hO hD (outsAt1 c n (Nat.lt_of_succ_lt hn)) else outsJunk

/-- `outsAt1` at a step of case A. -/
theorem outsAt1_A (c : Dev nD) (t : Fin (cfgA a).N) (hR : condReset (wK a c t)) (hO : ¬condOff (wQ a c t) (wK a c t)) (hD : condDiag (wQ a c t) (wK a c t)) :
    outsAt1 V a c t.val t.isLt = step1_A V a c t hR hO hD := by
  obtain ⟨n, hn⟩ := t
  cases n with
  | zero => exact (dif_pos hR).trans ((dif_neg hO).trans (dif_pos hD))
  | succ n => exact (dif_pos hR).trans ((dif_neg hO).trans (dif_pos hD))

/-- `outsAt1` at a step of case B. -/
theorem outsAt1_B (c : Dev nD) (t : Fin (cfgA a).N) (hR : condReset (wK a c t)) (hO : condOff (wQ a c t) (wK a c t)) (hD : ¬condDiag (wQ a c t) (wK a c t)) :
    outsAt1 V a c t.val t.isLt = step1_B V a c t hR hO hD := by
  obtain ⟨n, hn⟩ := t
  cases n with
  | zero => exact (dif_pos hR).trans ((dif_pos hO).trans (dif_neg hD))
  | succ n => exact (dif_pos hR).trans ((dif_pos hO).trans (dif_neg hD))

/-- `outsAt1` at a step of case C that is not the first: over what the step before left. -/
theorem outsAt1_C (c : Dev nD) (t : Fin (cfgA a).N) (hR : ¬condReset (wK a c t)) (hO : condOff (wQ a c t) (wK a c t)) (hD : ¬condDiag (wQ a c t) (wK a c t)) (ht : t.val ≠ 0) :
    outsAt1 V a c t.val t.isLt = step1_C V a c t hR hO hD (outsAt1 V a c (t.val - 1) (Nat.lt_of_le_of_lt (Nat.sub_le _ _) t.isLt)) := by
  obtain ⟨n, hn⟩ := t
  cases n with
  | zero => exact absurd rfl ht
  | succ n => exact (dif_neg hR).trans ((dif_pos hO).trans ((dif_neg hD).trans rfl))

/-- `outsAt1` at a step of case D that is not the first: over what the step before left. -/
theorem outsAt1_D (c : Dev nD) (t : Fin (cfgA a).N) (hR : ¬condReset (wK a c t)) (hO : ¬condOff (wQ a c t) (wK a c t)) (hD : condDiag (wQ a c t) (wK a c t)) (ht : t.val ≠ 0) :
    outsAt1 V a c t.val t.isLt = step1_D V a c t hR hO hD (outsAt1 V a c (t.val - 1) (Nat.lt_of_le_of_lt (Nat.sub_le _ _) t.isLt)) := by
  obtain ⟨n, hn⟩ := t
  cases n with
  | zero => exact absurd rfl ht
  | succ n => exact (dif_neg hR).trans ((dif_neg hO).trans ((dif_pos hD).trans rfl))

/-! ## The idle table's words are the step's words -/

set_option maxHeartbeats 400000 in
/-- The word the output window's idle table reads off the query table's contents at a step's offset is the word the body
    loads there: the offset is inside the table, and the body's load through the whole table's memref reads the
    element under it. -/
theorem atD_wordQ (c : Dev nD) (i : grid1.Coords) : a.1.atD 0 (k1_off1 i) = wordQ c i (a.1 0) := by
  have hin : ∀ x, k1_off1 i x + 1 ≤ (pre1.ref 0).ty.shape.size x := Fin.forall_fin_one.2 (k1_off1_inb i 0)
  refine (dif_pos hin).trans ?_
  show a.1 0 _ = a.1 0 _
  congr 1

set_option maxHeartbeats 400000 in
/-- The same of the key table. -/
theorem atD_wordK (c : Dev nD) (i : grid1.Coords) : a.1.atD 1 (k1_off1 i) = wordK c i (a.1 1) := by
  have hin : ∀ x, k1_off1 i x + 1 ≤ (pre1.ref 1).ty.shape.size x := Fin.forall_fin_one.2 (k1_off1_inb i 0)
  refine (dif_pos hin).trans ?_
  show a.1 1 _ = a.1 1 _
  congr 1

set_option maxHeartbeats 400000 in
/-- The output window's idle table at step `t`: idle exactly where the step's two words differ. -/
theorem idle1_3_eq (c : Dev nD) (t : Fin (cfgA a).N) :
    (cfgA a).idle 3 ((cfgA a).grid.coords t) = !(k1_cond3 (wQ a c t) (wK a c t) == 1#1) := by
  have e : (cfgA a).idle 3 ((cfgA a).grid.coords t)
      = !(k1_cond3 (a.1.atD 0 (k1_off1 (grid1.coords t))) (a.1.atD 1 (k1_off1 (grid1.coords t))) == 1#1) := by
    show idle1 a.1 3 _ = _
    rfl
  rw [e, atD_wordQ a c, atD_wordK a c]

/-- Off the diagonal the output window is idle, -/
theorem idleAt1_3 (c : Dev nD) (t : Fin (cfgA a).N) (hD : ¬condDiag (wQ a c t) (wK a c t)) :
    (cfgA a).idle 3 ((cfgA a).grid.coords t) = true := by
  rw [idle1_3_eq a c t]
  simpa using hD

/-- and on it live. -/
theorem liveAt1_3 (c : Dev nD) (t : Fin (cfgA a).N) (hD : condDiag (wQ a c t) (wK a c t)) :
    (cfgA a).idle 3 ((cfgA a).grid.coords t) = false := by
  rw [idle1_3_eq a c t]
  simpa using hD

/-- The three tiles' windows are live at every step. -/
theorem liveAt1_0 (t : Fin (cfgA a).N) : (cfgA a).idle 0 ((cfgA a).grid.coords t) = false := live1_0 a _
theorem liveAt1_1 (t : Fin (cfgA a).N) : (cfgA a).idle 1 ((cfgA a).grid.coords t) = false := live1_1 a _
theorem liveAt1_2 (t : Fin (cfgA a).N) : (cfgA a).idle 2 ((cfgA a).grid.coords t) = false := live1_2 a _

/-! ## The region's invariant -/

/-- The invariant before position `n`. Before the first step: the class's (every scoped buffer the call does not stage at
    anything — the three scratch among them — and the generator register at some state). Afterwards: the same with the
    three scratch buffers at what step `n - 1` left in them (`outsAt1`'s last three components). At every position, both
    halves of the two tables at the contents `a.1`: the right half the body loads its words through, the left half
    kept beside it untouched. -/
def PhiS1 (c : Dev nD) : (n : ℕ) → n ≤ (cfgA a).N → sProp 𝕄
  | 0, _ => iprop(Pipeline.ΦA spec1 c ∗ (Pipeline.ΦT pre1 a.1 c : sProp 𝕄) ∗ Pipeline.prefHeld (Ix := Unit) (Name := ℕ) (U := UR sig nD τ) (Lvl := ℕ) pre1 c (fun _ => fullShare.left) a.1)
  | n + 1, hn => iprop(iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scMx fullShare (outsAt1 V a c n hn).2.1 ∗ owns (c : Thread nD τ) scL fullShare (outsAt1 V a c n hn).2.2.1 ∗ owns (c : Thread nD τ) scAcc fullShare (outsAt1 V a c n hn).2.2.2) ∗ (∃ r, prngReg c r))
      ∗ (Pipeline.ΦT pre1 a.1 c : sProp 𝕄) ∗ Pipeline.prefHeld (Ix := Unit) (Name := ℕ) (U := UR sig nD τ) (Lvl := ℕ) pre1 c (fun _ => fullShare.left) a.1)

theorem PhiS1_zero (c : Dev nD) (n : ℕ) (h : n ≤ (cfgA a).N) (hz : n = 0) :
    PhiS1 V a c n h = iprop(Pipeline.ΦA spec1 c ∗ (Pipeline.ΦT pre1 a.1 c : sProp 𝕄) ∗ Pipeline.prefHeld (Ix := Unit) (Name := ℕ) (U := UR sig nD τ) (Lvl := ℕ) pre1 c (fun _ => fullShare.left) a.1) := by
  subst hz; rfl

/-- After step `n` (before step `n + 1`): the scratch at that step's contents. -/
theorem PhiS1_succ (c : Dev nD) (n : ℕ) (hn : n < (cfgA a).N) :
    PhiS1 V a c (n + 1) hn = iprop(iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scMx fullShare (outsAt1 V a c n hn).2.1 ∗ owns (c : Thread nD τ) scL fullShare (outsAt1 V a c n hn).2.2.1 ∗ owns (c : Thread nD τ) scAcc fullShare (outsAt1 V a c n hn).2.2.2) ∗ (∃ r, prngReg c r))
      ∗ (Pipeline.ΦT pre1 a.1 c : sProp 𝕄) ∗ Pipeline.prefHeld (Ix := Unit) (Name := ℕ) (U := UR sig nD τ) (Lvl := ℕ) pre1 c (fun _ => fullShare.left) a.1) := rfl

/-- Before a step that is not the first: the scratch at what the step before left. -/
theorem PhiS1_pos (c : Dev nD) (n : ℕ) (h : n ≤ (cfgA a).N) (hz : n ≠ 0) :
    PhiS1 V a c n h = iprop(iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scMx fullShare (outsAt1 V a c (n - 1) (by omega)).2.1 ∗ owns (c : Thread nD τ) scL fullShare (outsAt1 V a c (n - 1) (by omega)).2.2.1 ∗ owns (c : Thread nD τ) scAcc fullShare (outsAt1 V a c (n - 1) (by omega)).2.2.2) ∗ (∃ r, prngReg c r))
      ∗ (Pipeline.ΦT pre1 a.1 c : sProp 𝕄) ∗ Pipeline.prefHeld (Ix := Unit) (Name := ℕ) (U := UR sig nD τ) (Lvl := ℕ) pre1 c (fun _ => fullShare.left) a.1) := by
  cases n with
  | zero => exact absurd rfl hz
  | succ n => rfl

/-! ## The region's proof data -/

/-- The proof data of the attention call on core `c`: the arrays as the region finds them (`V`); after step `t` each
    tile's buffer at its block and the output block's at `outsAt1`'s first component; the invariant `PhiS1`; nothing
    owed; full shares. -/
def dat1 (c : Dev nD) : Dat τ (Elt F) Unit ℕ (UR sig nD τ) ℕ (cfgA a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => (outsAt1 V a c t.val t.isLt).1
  Φ t := PhiS1 V a c t.val (Nat.le_of_lt_succ t.isLt)
  q _ := fullShare
  owed _ := 0

/-- The proof data's arrays are the region-entry contents. -/
theorem A_eq1 (c : Dev nD) (w : Fin (cfgA a).W) : (dat1 V a c).A w = V c (Pipeline.arrRef spec1 w) := by
  dsimp only [dat1]

/-- The invariant at a step's start, restated at the step's position. -/
theorem PhiS1_castSucc (c : Dev nD) (t : Fin (cfgA a).N) :
    (dat1 V a c).Φ t.castSucc = PhiS1 V a c t.val (Nat.le_of_lt t.isLt) := by
  dsimp only [dat1]; simp only [Fin.coe_castSucc]

/-- What the body leaves, window by window. -/
theorem after1_0 (c : Dev nD) (t : Fin (cfgA a).N) : (dat1 V a c).after 0 t = iblk1 V a c 0 t := by dsimp only [dat1]; rfl
theorem after1_1 (c : Dev nD) (t : Fin (cfgA a).N) : (dat1 V a c).after 1 t = iblk1 V a c 1 t := by dsimp only [dat1]; rfl
theorem after1_2 (c : Dev nD) (t : Fin (cfgA a).N) : (dat1 V a c).after 2 t = iblk1 V a c 2 t := by dsimp only [dat1]; rfl
theorem after1_3 (c : Dev nD) (t : Fin (cfgA a).N) : (dat1 V a c).after 3 t = (outsAt1 V a c t.val t.isLt).1 := by dsimp only [dat1]; rfl

/-- Each tile's current staging buffer holds its block at every step, fetched there or not. -/
theorem before1_0 (c : Dev nD) (t : Fin (cfgA a).N) (d) : (dat1 V a c).before 0 t d = iblk1 V a c 0 t :=
  before1_0_of V a (dat1 V a c) (A_eq1 V a c 0) (after1_0 V a c) t d
theorem before1_1 (c : Dev nD) (t : Fin (cfgA a).N) (d) : (dat1 V a c).before 1 t d = iblk1 V a c 1 t :=
  before1_1_of V a (dat1 V a c) (A_eq1 V a c 1) (after1_1 V a c) t d
theorem before1_2 (c : Dev nD) (t : Fin (cfgA a).N) (d) : (dat1 V a c).before 2 t d = iblk1 V a c 2 t :=
  before1_2_of V a (dat1 V a c) (A_eq1 V a c 2) (after1_2 V a c) t d

/-! ## What is assumed of the tables' contents -/

/-- The three facts about the tables' contents `a.1` the obligation needs, at every step: the step's two words put it in
    one of the four cases; the first step resets the scratch; and at a step off the diagonal the pipeline does not write
    the output block back. -/
structure TblOk (a : (pcfg1 (F := F)).Adm) : Prop where
  cases : ∀ (c : Dev nD) (t : Fin (cfgA a).N),
    (condReset (wK a c t) ∧ ¬condOff (wQ a c t) (wK a c t) ∧ condDiag (wQ a c t) (wK a c t))
    ∨ (condReset (wK a c t) ∧ condOff (wQ a c t) (wK a c t) ∧ ¬condDiag (wQ a c t) (wK a c t))
    ∨ (¬condReset (wK a c t) ∧ condOff (wQ a c t) (wK a c t) ∧ ¬condDiag (wQ a c t) (wK a c t))
    ∨ (¬condReset (wK a c t) ∧ ¬condOff (wQ a c t) (wK a c t) ∧ condDiag (wQ a c t) (wK a c t))
  first : ∀ (c : Dev nD) (t : Fin (cfgA a).N), t.val = 0 → condReset (wK a c t)
  noFlush : ∀ (c : Dev nD) (t : Fin (cfgA a).N), ¬condDiag (wQ a c t) (wK a c t) → ((cfgA a).win 3).flush t = false

/-! ## The body obligation, at a generic step -/

/-- What the body is called with at step `t`: the invariant, what the core owes, and each window's current staging buffer
    at what the pipeline left in it, -/
def bodyPre1 (c : Dev nD) (t : Fin (cfgA a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d))
    ∗ (∃ d, owns (c : Thread nD τ) (ms1_3 a t) fullShare ((dat1 V a c).before 3 t d)))

/-- and what it returns: each buffer at what the body leaves in it (the output block's, where the step stores nothing
    into it and it is not written back, at what it was found holding). -/
def bodyPost1 (c : Dev nD) (t : Fin (cfgA a).N) : sProp 𝕄 :=
  iprop((dat1 V a c).Φ t.succ ∗ (dat1 V a c).owesAt () t.succ
    ∗ (dat1 V a c).leavesExact 0 t
    ∗ (dat1 V a c).leavesExact 1 t
    ∗ (dat1 V a c).leavesExact 2 t
    ∗ (dat1 V a c).leavesExact 3 t)

set_option maxHeartbeats 4000000 in
/-- The body at a step of case A: the tiles' buffers hold their blocks; the scratch is handed to the body at whatever it holds (the step overwrites it), and takes it back at this step's
    contents, the pieces read back; the output block's buffer is returned at the pieces stored into it; the tables' halves and what the
    core owes pass through. -/
theorem sound_body1_A (h : TblOk a) (c : Dev nD) (t : Fin (cfgA a).N) (hR : condReset (wK a c t)) (hO : ¬condOff (wQ a c t) (wK a c t)) (hD : condDiag (wQ a c t) (wK a c t)) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl]
  rw [show (dat1 V a c).Φ t.succ = PhiS1 V a c (t.val + 1) t.isLt from rfl, PhiS1_succ]
  rw [show (dat1 V a c).leavesExact 0 t = owns (c : Thread nD τ) (ms1_0 a t) fullShare ((dat1 V a c).after 0 t) from by
      unfold Dat.leavesExact; rw [liveAt1_0 a t]; rfl, after1_0]
  rw [show (dat1 V a c).leavesExact 1 t = owns (c : Thread nD τ) (ms1_1 a t) fullShare ((dat1 V a c).after 1 t) from by
      unfold Dat.leavesExact; rw [liveAt1_1 a t]; rfl, after1_1]
  rw [show (dat1 V a c).leavesExact 2 t = owns (c : Thread nD τ) (ms1_2 a t) fullShare ((dat1 V a c).after 2 t) from by
      unfold Dat.leavesExact; rw [liveAt1_2 a t]; rfl, after1_2]
  rw [show (dat1 V a c).leavesExact 3 t = owns (c : Thread nD τ) (ms1_3 a t) fullShare ((dat1 V a c).after 3 t) from by
      unfold Dat.leavesExact; rw [liveAt1_3 a c t hD]; rfl, after1_3]
  rw [outsAt1_A V a c t hR hO hD]
  unfold step1_A out1_A_3 sout1_A_0 sout1_A_1 sout1_A_2; (try dsimp only)
  by_cases hz : t.val = 0
  · rw [PhiS1_castSucc V a c t, PhiS1_zero V a c _ _ hz, PhiA1_eq, PhiT1_eq]
    iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
    iapply ((kernelRun1_A c (grid1.coords t) _ _ _ _ _ _ _ _ _ _ _ _ _ _ (a.1 0) (a.1 1) hR hO hD (iblk1 V a c 0 t) (iblk1 V a c 1 t) (iblk1 V a c 2 t)).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HTQ]; · iexact HTQ
    isplitl [HTK]; · iexact HTK
    iintro ⟨H0, H1, H2, ⟨%e3, H3⟩, ⟨%es0, HS0⟩, ⟨%es1, HS1⟩, ⟨%es2, HS2⟩, HTQ, HTK⟩
    isplitl [HF0 HF1 HF2 HF3 HF4 HF5 HF6 HF7 HF8 HF9 HF10 HS0 HS1 HS2 Hg HTQ HTK HTL]
    · isplitl [HF0 HF1 HF2 HF3 HF4 HF5 HF6 HF7 HF8 HF9 HF10 HS0 HS1 HS2 Hg]
      · isplitl [HF0 HF1 HF2 HF3 HF4 HF5 HF6 HF7 HF8 HF9 HF10 HS0 HS1 HS2]
        · isplitl [HF0]; · iexact HF0
          isplitl [HF1]; · iexact HF1
          isplitl [HF2]; · iexact HF2
          isplitl [HF3]; · iexact HF3
          isplitl [HF4]; · iexact HF4
          isplitl [HF5]; · iexact HF5
          isplitl [HF6]; · iexact HF6
          isplitl [HF7]; · iexact HF7
          isplitl [HF8]; · iexact HF8
          isplitl [HF9]; · iexact HF9
          isplitl [HF10]; · iexact HF10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [HTQ HTK]
      · isplitl [HTQ]; · iexact HTQ
        iexact HTK
      iexact HTL
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _ _ _ _ _ _ _ _ _)
  · rw [PhiS1_castSucc V a c t, PhiS1_pos V a c _ _ hz, PhiT1_eq]
    iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
    iapply ((kernelRun1_A c (grid1.coords t) _ _ _ _ _ _ _ _ _ _ _ _ _ _ (a.1 0) (a.1 1) hR hO hD (iblk1 V a c 0 t) (iblk1 V a c 1 t) (iblk1 V a c 2 t)).2.2.2.2 Set.univ _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    isplitl [HS2]; · iexists _; iexact HS2
    isplitl [HTQ]; · iexact HTQ
    isplitl [HTK]; · iexact HTK
    iintro ⟨H0, H1, H2, ⟨%e3, H3⟩, ⟨%es0, HS0⟩, ⟨%es1, HS1⟩, ⟨%es2, HS2⟩, HTQ, HTK⟩
    isplitl [HF0 HF1 HF2 HF3 HF4 HF5 HF6 HF7 HF8 HF9 HF10 HS0 HS1 HS2 Hg HTQ HTK HTL]
    · isplitl [HF0 HF1 HF2 HF3 HF4 HF5 HF6 HF7 HF8 HF9 HF10 HS0 HS1 HS2 Hg]
      · isplitl [HF0 HF1 HF2 HF3 HF4 HF5 HF6 HF7 HF8 HF9 HF10 HS0 HS1 HS2]
        · isplitl [HF0]; · iexact HF0
          isplitl [HF1]; · iexact HF1
          isplitl [HF2]; · iexact HF2
          isplitl [HF3]; · iexact HF3
          isplitl [HF4]; · iexact HF4
          isplitl [HF5]; · iexact HF5
          isplitl [HF6]; · iexact HF6
          isplitl [HF7]; · iexact HF7
          isplitl [HF8]; · iexact HF8
          isplitl [HF9]; · iexact HF9
          isplitl [HF10]; · iexact HF10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [HTQ HTK]
      · isplitl [HTQ]; · iexact HTQ
        iexact HTK
      iexact HTL
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _ _ _ _ _ _ _ _ _)

set_option maxHeartbeats 4000000 in
/-- The body at a step of case B: the tiles' buffers hold their blocks; the scratch is handed to the body at whatever it holds (the step overwrites it), and takes it back at this step's
    contents, the pieces read back; the output block's buffer, not stored into and not written back, is returned as it was found; the tables' halves and what the
    core owes pass through. -/
theorem sound_body1_B (h : TblOk a) (c : Dev nD) (t : Fin (cfgA a).N) (hR : condReset (wK a c t)) (hO : condOff (wQ a c t) (wK a c t)) (hD : ¬condDiag (wQ a c t) (wK a c t)) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl]
  rw [show (dat1 V a c).Φ t.succ = PhiS1 V a c (t.val + 1) t.isLt from rfl, PhiS1_succ]
  rw [show (dat1 V a c).leavesExact 0 t = owns (c : Thread nD τ) (ms1_0 a t) fullShare ((dat1 V a c).after 0 t) from by
      unfold Dat.leavesExact; rw [liveAt1_0 a t]; rfl, after1_0]
  rw [show (dat1 V a c).leavesExact 1 t = owns (c : Thread nD τ) (ms1_1 a t) fullShare ((dat1 V a c).after 1 t) from by
      unfold Dat.leavesExact; rw [liveAt1_1 a t]; rfl, after1_1]
  rw [show (dat1 V a c).leavesExact 2 t = owns (c : Thread nD τ) (ms1_2 a t) fullShare ((dat1 V a c).after 2 t) from by
      unfold Dat.leavesExact; rw [liveAt1_2 a t]; rfl, after1_2]
  rw [Dat.leavesExact_idle (dat1 V a c) 3 t (idleAt1_3 a c t hD) (h.noFlush c t hD)]
  rw [outsAt1_B V a c t hR hO hD]
  unfold step1_B sout1_B_0 sout1_B_1 sout1_B_2; (try dsimp only)
  by_cases hz : t.val = 0
  · rw [PhiS1_castSucc V a c t, PhiS1_zero V a c _ _ hz, PhiA1_eq, PhiT1_eq]
    iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
    iapply ((kernelRun1_B c (grid1.coords t) _ _ _ _ _ _ _ _ _ _ _ _ _ _ (a.1 0) (a.1 1) hR hO hD (iblk1 V a c 0 t) (iblk1 V a c 1 t) (iblk1 V a c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HTQ]; · iexact HTQ
    isplitl [HTK]; · iexact HTK
    iintro ⟨H0, H1, H2, H3, ⟨%es0, HS0⟩, ⟨%es1, HS1⟩, ⟨%es2, HS2⟩, HTQ, HTK⟩
    isplitl [HF0 HF1 HF2 HF3 HF4 HF5 HF6 HF7 HF8 HF9 HF10 HS0 HS1 HS2 Hg HTQ HTK HTL]
    · isplitl [HF0 HF1 HF2 HF3 HF4 HF5 HF6 HF7 HF8 HF9 HF10 HS0 HS1 HS2 Hg]
      · isplitl [HF0 HF1 HF2 HF3 HF4 HF5 HF6 HF7 HF8 HF9 HF10 HS0 HS1 HS2]
        · isplitl [HF0]; · iexact HF0
          isplitl [HF1]; · iexact HF1
          isplitl [HF2]; · iexact HF2
          isplitl [HF3]; · iexact HF3
          isplitl [HF4]; · iexact HF4
          isplitl [HF5]; · iexact HF5
          isplitl [HF6]; · iexact HF6
          isplitl [HF7]; · iexact HF7
          isplitl [HF8]; · iexact HF8
          isplitl [HF9]; · iexact HF9
          isplitl [HF10]; · iexact HF10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [HTQ HTK]
      · isplitl [HTQ]; · iexact HTQ
        iexact HTK
      iexact HTL
    isplitl [Ho]; · iexact Ho
    isplitl [H0]; · iexact H0
    isplitl [H1]; · iexact H1
    isplitl [H2]; · iexact H2
    iexists _; iexact H3
  · rw [PhiS1_castSucc V a c t, PhiS1_pos V a c _ _ hz, PhiT1_eq]
    iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
    iapply ((kernelRun1_B c (grid1.coords t) _ _ _ _ _ _ _ _ _ _ _ _ _ _ (a.1 0) (a.1 1) hR hO hD (iblk1 V a c 0 t) (iblk1 V a c 1 t) (iblk1 V a c 2 t)).2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    isplitl [HTQ]; · iexact HTQ
    isplitl [HTK]; · iexact HTK
    iintro ⟨H0, H1, H2, H3, ⟨%es0, HS0⟩, ⟨%es1, HS1⟩, ⟨%es2, HS2⟩, HTQ, HTK⟩
    isplitl [HF0 HF1 HF2 HF3 HF4 HF5 HF6 HF7 HF8 HF9 HF10 HS0 HS1 HS2 Hg HTQ HTK HTL]
    · isplitl [HF0 HF1 HF2 HF3 HF4 HF5 HF6 HF7 HF8 HF9 HF10 HS0 HS1 HS2 Hg]
      · isplitl [HF0 HF1 HF2 HF3 HF4 HF5 HF6 HF7 HF8 HF9 HF10 HS0 HS1 HS2]
        · isplitl [HF0]; · iexact HF0
          isplitl [HF1]; · iexact HF1
          isplitl [HF2]; · iexact HF2
          isplitl [HF3]; · iexact HF3
          isplitl [HF4]; · iexact HF4
          isplitl [HF5]; · iexact HF5
          isplitl [HF6]; · iexact HF6
          isplitl [HF7]; · iexact HF7
          isplitl [HF8]; · iexact HF8
          isplitl [HF9]; · iexact HF9
          isplitl [HF10]; · iexact HF10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [HTQ HTK]
      · isplitl [HTQ]; · iexact HTQ
        iexact HTK
      iexact HTL
    isplitl [Ho]; · iexact Ho
    isplitl [H0]; · iexact H0
    isplitl [H1]; · iexact H1
    isplitl [H2]; · iexact H2
    iexists _; iexact H3

set_option maxHeartbeats 4000000 in
/-- The body at a step of case C: the tiles' buffers hold their blocks; the invariant hands the body the scratch at what the step before left, and takes it back at this step's
    contents, the pieces read back; the output block's buffer, not stored into and not written back, is returned as it was found; the tables' halves and what the
    core owes pass through. -/
theorem sound_body1_C (h : TblOk a) (c : Dev nD) (t : Fin (cfgA a).N) (hR : ¬condReset (wK a c t)) (hO : condOff (wQ a c t) (wK a c t)) (hD : ¬condDiag (wQ a c t) (wK a c t)) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl]
  rw [show (dat1 V a c).Φ t.succ = PhiS1 V a c (t.val + 1) t.isLt from rfl, PhiS1_succ]
  rw [show (dat1 V a c).leavesExact 0 t = owns (c : Thread nD τ) (ms1_0 a t) fullShare ((dat1 V a c).after 0 t) from by
      unfold Dat.leavesExact; rw [liveAt1_0 a t]; rfl, after1_0]
  rw [show (dat1 V a c).leavesExact 1 t = owns (c : Thread nD τ) (ms1_1 a t) fullShare ((dat1 V a c).after 1 t) from by
      unfold Dat.leavesExact; rw [liveAt1_1 a t]; rfl, after1_1]
  rw [show (dat1 V a c).leavesExact 2 t = owns (c : Thread nD τ) (ms1_2 a t) fullShare ((dat1 V a c).after 2 t) from by
      unfold Dat.leavesExact; rw [liveAt1_2 a t]; rfl, after1_2]
  rw [Dat.leavesExact_idle (dat1 V a c) 3 t (idleAt1_3 a c t hD) (h.noFlush c t hD)]
  have hz : t.val ≠ 0 := fun hz => hR (h.first c t hz)
  rw [outsAt1_C V a c t hR hO hD hz]
  unfold step1_C sout1_C_0 sout1_C_1 sout1_C_2; (try dsimp only)
  rw [PhiS1_castSucc V a c t, PhiS1_pos V a c _ _ hz, PhiT1_eq]
  iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
  iapply ((kernelRun1_C c (grid1.coords t) _ _ _ _ _ _ _ _ _ _ _ _ _ _ (a.1 0) (a.1 1) hR hO hD (iblk1 V a c 0 t) (iblk1 V a c 1 t) (iblk1 V a c 2 t) _ _ _).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HTQ]; · iexact HTQ
  isplitl [HTK]; · iexact HTK
  iintro ⟨H0, H1, H2, H3, ⟨%es0, HS0⟩, ⟨%es1, HS1⟩, ⟨%es2, HS2⟩, HTQ, HTK⟩
  isplitl [HF0 HF1 HF2 HF3 HF4 HF5 HF6 HF7 HF8 HF9 HF10 HS0 HS1 HS2 Hg HTQ HTK HTL]
  · isplitl [HF0 HF1 HF2 HF3 HF4 HF5 HF6 HF7 HF8 HF9 HF10 HS0 HS1 HS2 Hg]
    · isplitl [HF0 HF1 HF2 HF3 HF4 HF5 HF6 HF7 HF8 HF9 HF10 HS0 HS1 HS2]
      · isplitl [HF0]; · iexact HF0
        isplitl [HF1]; · iexact HF1
        isplitl [HF2]; · iexact HF2
        isplitl [HF3]; · iexact HF3
        isplitl [HF4]; · iexact HF4
        isplitl [HF5]; · iexact HF5
        isplitl [HF6]; · iexact HF6
        isplitl [HF7]; · iexact HF7
        isplitl [HF8]; · iexact HF8
        isplitl [HF9]; · iexact HF9
        isplitl [HF10]; · iexact HF10
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _ _ _ _)
      iexact Hg
    isplitl [HTQ HTK]
    · isplitl [HTQ]; · iexact HTQ
      iexact HTK
    iexact HTL
  isplitl [Ho]; · iexact Ho
  isplitl [H0]; · iexact H0
  isplitl [H1]; · iexact H1
  isplitl [H2]; · iexact H2
  iexists _; iexact H3

set_option maxHeartbeats 4000000 in
/-- The body at a step of case D: the tiles' buffers hold their blocks; the invariant hands the body the scratch at what the step before left, and takes it back at this step's
    contents, the pieces read back; the output block's buffer is returned at the pieces stored into it; the tables' halves and what the
    core owes pass through. -/
theorem sound_body1_D (h : TblOk a) (c : Dev nD) (t : Fin (cfgA a).N) (hR : ¬condReset (wK a c t)) (hO : ¬condOff (wQ a c t) (wK a c t)) (hD : condDiag (wQ a c t) (wK a c t)) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl]
  rw [show (dat1 V a c).Φ t.succ = PhiS1 V a c (t.val + 1) t.isLt from rfl, PhiS1_succ]
  rw [show (dat1 V a c).leavesExact 0 t = owns (c : Thread nD τ) (ms1_0 a t) fullShare ((dat1 V a c).after 0 t) from by
      unfold Dat.leavesExact; rw [liveAt1_0 a t]; rfl, after1_0]
  rw [show (dat1 V a c).leavesExact 1 t = owns (c : Thread nD τ) (ms1_1 a t) fullShare ((dat1 V a c).after 1 t) from by
      unfold Dat.leavesExact; rw [liveAt1_1 a t]; rfl, after1_1]
  rw [show (dat1 V a c).leavesExact 2 t = owns (c : Thread nD τ) (ms1_2 a t) fullShare ((dat1 V a c).after 2 t) from by
      unfold Dat.leavesExact; rw [liveAt1_2 a t]; rfl, after1_2]
  rw [show (dat1 V a c).leavesExact 3 t = owns (c : Thread nD τ) (ms1_3 a t) fullShare ((dat1 V a c).after 3 t) from by
      unfold Dat.leavesExact; rw [liveAt1_3 a c t hD]; rfl, after1_3]
  have hz : t.val ≠ 0 := fun hz => hR (h.first c t hz)
  rw [outsAt1_D V a c t hR hO hD hz]
  unfold step1_D out1_D_3 sout1_D_0 sout1_D_1 sout1_D_2; (try dsimp only)
  rw [PhiS1_castSucc V a c t, PhiS1_pos V a c _ _ hz, PhiT1_eq]
  iintro ⟨⟨⟨⟨HF0, HF1, HF2, HF3, HF4, HF5, HF6, HF7, HF8, HF9, HF10, HS0, HS1, HS2⟩, Hg⟩, ⟨HTQ, HTK⟩, HTL⟩, Ho, ⟨%d0, H0⟩, ⟨%d1, H1⟩, ⟨%d2, H2⟩, ⟨%d3, H3⟩⟩
  iapply ((kernelRun1_D c (grid1.coords t) _ _ _ _ _ _ _ _ _ _ _ _ _ _ (a.1 0) (a.1 1) hR hO hD (iblk1 V a c 0 t) (iblk1 V a c 1 t) (iblk1 V a c 2 t) _ _ _).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HTQ]; · iexact HTQ
  isplitl [HTK]; · iexact HTK
  iintro ⟨H0, H1, H2, ⟨%e3, H3⟩, ⟨%es0, HS0⟩, ⟨%es1, HS1⟩, ⟨%es2, HS2⟩, HTQ, HTK⟩
  isplitl [HF0 HF1 HF2 HF3 HF4 HF5 HF6 HF7 HF8 HF9 HF10 HS0 HS1 HS2 Hg HTQ HTK HTL]
  · isplitl [HF0 HF1 HF2 HF3 HF4 HF5 HF6 HF7 HF8 HF9 HF10 HS0 HS1 HS2 Hg]
    · isplitl [HF0 HF1 HF2 HF3 HF4 HF5 HF6 HF7 HF8 HF9 HF10 HS0 HS1 HS2]
      · isplitl [HF0]; · iexact HF0
        isplitl [HF1]; · iexact HF1
        isplitl [HF2]; · iexact HF2
        isplitl [HF3]; · iexact HF3
        isplitl [HF4]; · iexact HF4
        isplitl [HF5]; · iexact HF5
        isplitl [HF6]; · iexact HF6
        isplitl [HF7]; · iexact HF7
        isplitl [HF8]; · iexact HF8
        isplitl [HF9]; · iexact HF9
        isplitl [HF10]; · iexact HF10
        isplitl [HS0]
        · unfold owns; iexists _; isplitr
          swap; · iexact HS0
          ipureintro; exact View.read_writes_of_cover _ _ _ _ _ (scover1_D_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_D_1 c _ _ _ _ _ _ _ _ _ _ _ _ _ _ _ _ _ _ _ _ _ _ _ _ _ _)
        unfold owns; iexists _; isplitr
        swap; · iexact HS2
        ipureintro; exact View.read_writes_of_cover _ _ _ _ _ (scover1_D_2 c _ _ _ _ _ _ _ _ _ _ _ _ _ _ _ _ _ _ _ _ _ _ _ _ _ _)
      iexact Hg
    isplitl [HTQ HTK]
    · isplitl [HTQ]; · iexact HTQ
      iexact HTK
    iexact HTL
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_D_3 c _ _ _ _ _ _ _ _ _ _ _ _ _ _ _ _ _ _ _ _ _ _ _ _ _ _)

/-- The body at any step: the step is in one of the four cases. -/
theorem sound_body1 (h : TblOk a) (c : Dev nD) (t : Fin (cfgA a).N) :
    bodyPre1 V a c t ⊢ wp frame (wpE (defs₀ (F := F)) Variants.none c none) Set.univ (bodyAt1 a t) (fun _ => bodyPost1 V a c t) := by
  rcases h.cases c t with ⟨hR, hO, hD⟩ | ⟨hR, hO, hD⟩ | ⟨hR, hO, hD⟩ | ⟨hR, hO, hD⟩
  · exact sound_body1_A V a h c t hR hO hD
  · exact sound_body1_B V a h c t hR hO hD
  · exact sound_body1_C V a h c t hR hO hD
  · exact sound_body1_D V a h c t hR hO hD

/-- The body obligation of the region's proof data, at every step. -/
theorem body_obligation1 (h : TblOk a) (c : Dev nD) : BodyObligation (dat1 (F := F) V a c) (defs₀ (F := F)) Variants.none () Set.univ := fun t => by
  rw [bigSep_W1, bigSep_W1]
  exact sound_body1 V a h c t

/-! ## The invariant at the region's two ends -/

/-- What the region is entered with — the class invariant and the two tables whole — is the invariant before the first
    step: the tables split into their halves. -/
theorem hin1 (c : Dev nD) : iprop(Pipeline.ΦA spec1 c ∗ Pipeline.prefHeld (Ix := Unit) (Name := ℕ) (U := UR sig nD τ) (Lvl := ℕ) pre1 c (fun _ => fullShare) a.1) ⊢ (dat1 V a c).Φ 0 := by
  rw [show (dat1 V a c).Φ 0 = PhiS1 V a c 0 (Nat.zero_le _) from rfl, PhiS1_zero V a c 0 _ rfl]
  iintro ⟨HA, HT⟩
  ihave HT2 := (Pipeline.prefHeld_share pre1 c (PosShare.mem_left_op_right fullShare) a.1).1 $$ HT
  icases HT2 with ⟨HL, HR⟩
  isplitl [HA]; · iexact HA
  isplitl [HR]; · iexact HR
  iexact HL

/-- After any step the invariant gives the class invariant and the whole tables back: the scratch buffers' named contents
    are forgotten and the tables' halves joined. -/
theorem Phi_out1 (c : Dev nD) (t : Fin ((cfgA a).N + 1)) (ht : t.val ≠ 0) :
    (dat1 V a c).Φ t ⊢ iprop(Pipeline.ΦA spec1 c ∗ Pipeline.prefHeld (Ix := Unit) (Name := ℕ) (U := UR sig nD τ) (Lvl := ℕ) pre1 c (fun _ => fullShare) a.1) := by
  rw [show (dat1 V a c).Φ t = PhiS1 V a c t.val (Nat.le_of_lt_succ t.isLt) from rfl, PhiS1_pos V a c _ _ ht, PhiA1_eq]
  iintro ⟨⟨⟨HF0, HF1, HF2, HF3, HF4, HF5, HF6, HF7, HF8, HF9, HF10, HS0, HS1, HS2⟩, Hg⟩, HR, HL⟩
  isplitl [HF0 HF1 HF2 HF3 HF4 HF5 HF6 HF7 HF8 HF9 HF10 HS0 HS1 HS2 Hg]
  · isplitl [HF0 HF1 HF2 HF3 HF4 HF5 HF6 HF7 HF8 HF9 HF10 HS0 HS1 HS2]
    · isplitl [HF0]; · iexact HF0
      isplitl [HF1]; · iexact HF1
      isplitl [HF2]; · iexact HF2
      isplitl [HF3]; · iexact HF3
      isplitl [HF4]; · iexact HF4
      isplitl [HF5]; · iexact HF5
      isplitl [HF6]; · iexact HF6
      isplitl [HF7]; · iexact HF7
      isplitl [HF8]; · iexact HF8
      isplitl [HF9]; · iexact HF9
      isplitl [HF10]; · iexact HF10
      isplitl [HS0]; · iexists _; iexact HS0
      isplitl [HS1]; · iexists _; iexact HS1
      iexists _; iexact HS2
    iexact Hg
  iapply (Pipeline.prefHeld_share pre1 c (PosShare.mem_left_op_right fullShare) a.1).2
  isplitl [HL]; · iexact HL
  iexact HR

/-- The same after the last step. -/
theorem hout1 (h : TblOk a) (c : Dev nD) :
    (dat1 V a c).Φ (Fin.last (cfgA a).N) ⊢ iprop(Pipeline.ΦA spec1 c ∗ Pipeline.prefHeld (Ix := Unit) (Name := ℕ) (U := UR sig nD τ) (Lvl := ℕ) pre1 c (fun _ => fullShare) a.1) :=
  Phi_out1 V a c _ (by rw [Fin.val_last]; have : (cfgA a).N = 40 := N_1; omega)

end Region1

end Cert.KernelIdeal.Hand

end
-- ==== Proof.Spec.lean ====
/-
  Causal single-head attention over the extended reals, as ONE function of the four argument arrays:
  the activations x : [4, 4096, 1024] and the three projections Wq, Wk, Wv : [1024, 128].

  With q = x·Wq, k = x·Wk, v = x·Wv (each entry a sum over the 1024 input features), the logit of query
  row t against key row s is (Σ_d q[t,d]·k[s,d])·σ, σ the one float the programs share for 128^(-1/2);
  a key after the query (s > t) is masked to -∞; each row is shifted by its maximum, exponentiated and
  normalised by its sum, and the result is the weighted sum of the value rows.  Every row keeps its own
  diagonal entry, so on real inputs the row maximum is a real, the weights are reals in [0, 1] and the
  normaliser is a positive real.
-/
import Idealize.ShloMosaic.PureOps.Ideal
import Idealize.ShloMosaic.Lib.ValueIdx

noncomputable section

namespace Cert.Attn

open Idealize.ShloMosaic Idealize.ShloMosaic.ValueIdx

/-- The activations' shape, a projection's, and the result's. -/
abbrev SX : Shape := ⟨3, ![4, 4096, 1024]⟩
abbrev SW : Shape := ⟨2, ![1024, 128]⟩
abbrev SO : Shape := ⟨3, ![4, 4096, 128]⟩

/-- σ: the float both programs multiply the logits by (the f32 nearest 128^(-1/2)), as the exact dyadic it denotes. -/
def scale : EReal := Ideal.ofBits .f32 0x3DB504F3#32

/-- One entry of a projection x·W: batch b, row t, feature d. -/
def proj (x : SX.Idx → EReal) (w : SW.Idx → EReal) (b : Fin 4) (t : Fin 4096) (d : Fin 128) : EReal :=
  ∑ c : Fin 1024, x (ix3 b t c) * w (ix2 c d)

/-- The scaled logit of query row t against key row s. -/
def logit (x : SX.Idx → EReal) (wq wk : SW.Idx → EReal) (b : Fin 4) (t s : Fin 4096) : EReal :=
  (∑ d : Fin 128, proj x wq b t d * proj x wk b s d) * scale

/-- The causal mask: a key after the query is -∞. -/
def masked (x : SX.Idx → EReal) (wq wk : SW.Idx → EReal) (b : Fin 4) (t s : Fin 4096) : EReal :=
  if s.val ≤ t.val then logit x wq wk b t s else ⊥

/-- The maximum of a row of masked logits. -/
def rowMax (x : SX.Idx → EReal) (wq wk : SW.Idx → EReal) (b : Fin 4) (t : Fin 4096) : EReal :=
  Finset.univ.sup fun s : Fin 4096 => masked x wq wk b t s

/-- The unnormalised weight e^(logit − row maximum); 0 at a masked key. -/
def weight (x : SX.Idx → EReal) (wq wk : SW.Idx → EReal) (b : Fin 4) (t s : Fin 4096) : EReal :=
  Ideal.exp (masked x wq wk b t s - rowMax x wq wk b t)

/-- The row's normaliser. -/
def denom (x : SX.Idx → EReal) (wq wk : SW.Idx → EReal) (b : Fin 4) (t : Fin 4096) : EReal :=
  ∑ s : Fin 4096, weight x wq wk b t s

/-- One entry of the attention output: the value rows weighted by the normalised weights. -/
def attnAt (x : SX.Idx → EReal) (wq wk wv : SW.Idx → EReal) (b : Fin 4) (t : Fin 4096) (d : Fin 128) : EReal :=
  ∑ s : Fin 4096, Ideal.div (weight x wq wk b t s) (denom x wq wk b t) * proj x wv b s d

/-- The whole output array. -/
def attn (x : SX.Idx → EReal) (wq wk wv : SW.Idx → EReal) : SO.Idx → EReal :=
  fun i => attnAt x wq wk wv (i 0) (i 1) (i 2)

theorem attn_ix3 (x : SX.Idx → EReal) (wq wk wv : SW.Idx → EReal) (b : Fin 4) (t : Fin 4096) (d : Fin 128) :
    attn x wq wk wv (ix3 b t d) = attnAt x wq wk wv b t d := rfl

end Cert.Attn

end
-- ==== Proof.KernelIdeal.ProjValue.lean ====
/-
  What the projection call leaves in its three output arrays, at the ideal values.

  The call runs on a 4×4 grid; point t = 4b + i reads the activation block x[b, 1024i … 1024i+1023, :] and the
  three weight matrices whole, and writes the blocks q, k, v [b, 1024i … 1024i+1023, :].  At the ideal values a
  rounding to a narrower format is the identity and a product into a zero accumulator is the plain sum over the
  1024 input features, so row r of a written block is Σ_c x[b, 1024i + r, c]·W[c, d] (for q, that sum times the
  shared scale σ, in this order).  That is the block, at the point's offset, of ONE function of the whole arrays —
  the projection x·W read at (b, 1024i + r, d) — and the sixteen blocks tile each output array (row r' of batch b
  lies in the block of point 4b + r'/1024).  Hence each output array ends as that function of the activations and
  the weights the call finds, with no hypothesis on them.
-/
import proofs.«420285_j7258494730366_3_alg».proof.Proof.KernelIdeal.Reg0
import proofs.«420285_j7258494730366_3_alg».proof.Proof.Spec
import Idealize.ShloMosaic.Lib.Pipeline.Value
import Idealize.ShloMosaic.PureOps.Ideal.Laws
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The product of a 1024×1024 block with a 1024×128 matrix, at an index -/

theorem lhs_proj_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_proj_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_proj_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_proj_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- Into a zero accumulator the product's entry (p, d) is the sum over the 1024 contracted features. -/
theorem matmul_proj_apply (l : FVec Ideal S1024x1024 .bf16) (r : FVec Ideal S1024x128 .bf16) (p : Fin 1024) (d : Fin 128) :
    FloatOps.matmul dot_S1024x1024_S1024x128_S1024x128_1_0_0_1_n_n none l r (constant (F := Ideal) S1024x128 .f32 0x00000000#32) (ix2 p d)
      = ∑ k : Fin 1024, l (ix2 p k) * r (ix2 k d) := by
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 p d) ((ValueIdx.contrEquiv1 dot_S1024x1024_S1024x128_S1024x128_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S1024x1024_S1024x128_S1024x128_1_0_0_1_n_n.rhsIdx (ix2 p d) ((ValueIdx.contrEquiv1 dot_S1024x1024_S1024x128_S1024x128_1_0_0_1_n_n 1024 rfl rfl).symm k) = ix2 k d := funext fun a => Fin.ext (by
    match a with
    | ⟨0, _⟩ => exact (rhs_proj_0 _ _).trans hk
    | ⟨1, _⟩ => exact rhs_proj_1 _ _)
  rw [el, er]

/-! ## The three payloads at an index -/

/-- Dropping the leading unit coordinate of (z, p, d) leaves (p, d). -/
theorem tail_ix3 (z : Fin 1) (p : Fin 1024) (d : Fin 128) :
    (fun a : Fin 2 => (ix3 z p d : S1x1024x128.Idx) a.succ) = (ix2 p d : S1024x128.Idx) :=
  funext fun a => by match a with | ⟨0, _⟩ => rfl | ⟨1, _⟩ => rfl

/-- Putting the unit coordinate 0 before (p, k) gives (z, p, k): the axis has one index. -/
theorem cons_ix2 (z : Fin 1) (p k : Fin 1024) :
    (Fin.cons (⟨0, Nat.one_pos⟩ : Fin 1) (ix2 p k : S1024x1024.Idx) : S1x1024x1024.Idx) = ix3 z p k :=
  funext fun a => by
    match a with
    | ⟨0, _⟩ => exact Fin.ext (by show 0 = z.val; omega)
    | ⟨1, _⟩ => rfl
    | ⟨2, _⟩ => rfl

/-- The k block's entry (z, p, d): Σ_c x0[z, p, c]·w[c, d]. -/
theorem pay_k_apply (x0 : Vec Ideal S1x1024x1024 .f32) (w : Vec Ideal S1024x128 .f32) (z : Fin 1) (p : Fin 1024) (d : Fin 128) :
    k0_pay3 (F := Ideal) x0 w (ix3 z p d) = ∑ k : Fin 1024, x0 (ix3 z p k) * w (ix2 k d) := by
  unfold k0_pay3 k0_pay1
  refine (shapeCast_addUnit_apply ![1024, 128] _ _ (ix3 z p d)).trans ?_
  rw [tail_ix3]
  refine (matmul_proj_apply _ _ p d).trans ?_
  refine Finset.sum_congr rfl fun k _ => ?_
  refine congrArg (· * w (ix2 k d)) ?_
  refine (shapeCast_dropUnit_apply ![1024, 1024] x0 _ (ix2 p k)).trans ?_
  exact congrArg x0 (cons_ix2 z p k)

/-- The v block's entry: the same sum with the third weight matrix. -/
theorem pay_v_apply (x0 : Vec Ideal S1x1024x1024 .f32) (w : Vec Ideal S1024x128 .f32) (z : Fin 1) (p : Fin 1024) (d : Fin 128) :
    k0_pay4 (F := Ideal) x0 w (ix3 z p d) = ∑ k : Fin 1024, x0 (ix3 z p k) * w (ix2 k d) := by
  unfold k0_pay4 k0_pay1
  refine (shapeCast_addUnit_apply ![1024, 128] _ _ (ix3 z p d)).trans ?_
  rw [tail_ix3]
  refine (matmul_proj_apply _ _ p d).trans ?_
  refine Finset.sum_congr rfl fun k _ => ?_
  refine congrArg (· * w (ix2 k d)) ?_
  refine (shapeCast_dropUnit_apply ![1024, 1024] x0 _ (ix2 p k)).trans ?_
  exact congrArg x0 (cons_ix2 z p k)

/-- The q block's entry: that sum, then times the shared scale σ. -/
theorem pay_q_apply (x0 : Vec Ideal S1x1024x1024 .f32) (w : Vec Ideal S1024x128 .f32) (z : Fin 1) (p : Fin 1024) (d : Fin 128) :
    k0_pay2 (F := Ideal) x0 w (ix3 z p d) = (∑ k : Fin 1024, x0 (ix3 z p k) * w (ix2 k d)) * Attn.scale := by
  unfold k0_pay2 k0_pay1
  refine (shapeCast_addUnit_apply ![1024, 128] _ _ (ix3 z p d)).trans ?_
  rw [tail_ix3]
  refine congrArg (· * Attn.scale) ?_
  refine (matmul_proj_apply _ _ p d).trans ?_
  refine Finset.sum_congr rfl fun k _ => ?_
  refine congrArg (· * w (ix2 k d)) ?_
  refine (shapeCast_dropUnit_apply ![1024, 1024] x0 _ (ix2 p k)).trans ?_
  exact congrArg x0 (cons_ix2 z p k)

/-! ## The output arrays as functions of the whole arrays -/

/-- The projection x·W as an array: entry (b, t, d) is Σ_c x[b,t,c]·W[c,d]. -/
abbrev kArr (X : S4x4096x1024.Idx → EReal) (W : S1024x128.Idx → EReal) : S4x4096x128.Idx → EReal :=
  fun i => Attn.proj X W (i 0) (i 1) (i 2)
abbrev vArr (X : S4x4096x1024.Idx → EReal) (W : S1024x128.Idx → EReal) : S4x4096x128.Idx → EReal :=
  fun i => Attn.proj X W (i 0) (i 1) (i 2)
/-- The same, each entry then multiplied by the shared scale σ. -/
abbrev qArr (X : S4x4096x1024.Idx → EReal) (W : S1024x128.Idx → EReal) : S4x4096x128.Idx → EReal :=
  fun i => Attn.proj X W (i 0) (i 1) (i 2) * Attn.scale

/-- One entry of the k block as the k array's function at the array index under it, given where the input
    blocks' entries sit in the whole arrays. -/
theorem k_point (x0 : Vec Ideal S1x1024x1024 .f32) (w : Vec Ideal S1024x128 .f32)
    (X : S4x4096x1024.Idx → EReal) (W : S1024x128.Idx → EReal) (y : S1x1024x128.Idx) (i : S4x4096x128.Idx)
    (hx : ∀ k : Fin 1024, x0 (ix3 (y 0) (y 1) k) = X (ix3 (i 0) (i 1) k)) (hw : ∀ q, w q = W q)
    (hd : (y 2).val = (i 2).val) :
    k0_pay3 (F := Ideal) x0 w y = kArr X W i := by
  obtain ⟨z, p, d, rfl⟩ : ∃ (z : Fin 1) (p : Fin 1024) (d : Fin 128), y = ix3 z p d := ⟨y 0, y 1, y 2, eq_ix3 y⟩
  rw [pay_k_apply]
  show _ = Attn.proj X W (i 0) (i 1) (i 2)
  unfold Attn.proj
  refine Finset.sum_congr rfl fun k _ => ?_
  have hd' : (d : Fin 128) = i 2 := Fin.ext hd
  rw [hw, ← hd']
  exact congrArg (· * W (ix2 k d)) (hx k)

/-- One entry of the v block as the v array's function at the array index under it, given where the input
    blocks' entries sit in the whole arrays. -/
theorem v_point (x0 : Vec Ideal S1x1024x1024 .f32) (w : Vec Ideal S1024x128 .f32)
    (X : S4x4096x1024.Idx → EReal) (W : S1024x128.Idx → EReal) (y : S1x1024x128.Idx) (i : S4x4096x128.Idx)
    (hx : ∀ k : Fin 1024, x0 (ix3 (y 0) (y 1) k) = X (ix3 (i 0) (i 1) k)) (hw : ∀ q, w q = W q)
    (hd : (y 2).val = (i 2).val) :
    k0_pay4 (F := Ideal) x0 w y = vArr X W i := by
  obtain ⟨z, p, d, rfl⟩ : ∃ (z : Fin 1) (p : Fin 1024) (d : Fin 128), y = ix3 z p d := ⟨y 0, y 1, y 2, eq_ix3 y⟩
  rw [pay_v_apply]
  show _ = Attn.proj X W (i 0) (i 1) (i 2)
  unfold Attn.proj
  refine Finset.sum_congr rfl fun k _ => ?_
  have hd' : (d : Fin 128) = i 2 := Fin.ext hd
  rw [hw, ← hd']
  exact congrArg (· * W (ix2 k d)) (hx k)

/-- One entry of the q block as the q array's function at the array index under it, given where the input
    blocks' entries sit in the whole arrays. -/
theorem q_point (x0 : Vec Ideal S1x1024x1024 .f32) (w : Vec Ideal S1024x128 .f32)
    (X : S4x4096x1024.Idx → EReal) (W : S1024x128.Idx → EReal) (y : S1x1024x128.Idx) (i : S4x4096x128.Idx)
    (hx : ∀ k : Fin 1024, x0 (ix3 (y 0) (y 1) k) = X (ix3 (i 0) (i 1) k)) (hw : ∀ q, w q = W q)
    (hd : (y 2).val = (i 2).val) :
    k0_pay2 (F := Ideal) x0 w y = qArr X W i := by
  obtain ⟨z, p, d, rfl⟩ : ∃ (z : Fin 1) (p : Fin 1024) (d : Fin 128), y = ix3 z p d := ⟨y 0, y 1, y 2, eq_ix3 y⟩
  rw [pay_q_apply]
  show _ = Attn.proj X W (i 0) (i 1) (i 2) * Attn.scale
  unfold Attn.proj
  refine congrArg (· * Attn.scale) (Finset.sum_congr rfl fun k _ => ?_)
  have hd' : (d : Fin 128) = i 2 := Fin.ext hd
  rw [hw, ← hd']
  exact congrArg (· * W (ix2 k d)) (hx k)

/-! ## The blocks and the arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 16 grid points: the activation block and output block 4 sit at (t/4, t%4, 0),
    the weight matrices at (0, 0). -/
theorem idx_facts4 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0 :=
  (by decide +kernel : ∀ t : Fin grid0.N, _)

/-- The printed index maps over the 16 grid points: the activation block and output block 5 sit at (t/4, t%4, 0),
    the weight matrices at (0, 0). -/
theorem idx_facts5 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 3) = t.val / 4 ∧ win0_5.index t (1 : Fin 3) = t.val % 4 ∧ win0_5.index t (2 : Fin 3) = 0 :=
  (by decide +kernel : ∀ t : Fin grid0.N, _)

/-- The printed index maps over the 16 grid points: the activation block and output block 6 sit at (t/4, t%4, 0),
    the weight matrices at (0, 0). -/
theorem idx_facts6 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_6.index t (0 : Fin 3) = t.val / 4 ∧ win0_6.index t (1 : Fin 3) = t.val % 4 ∧ win0_6.index t (2 : Fin 3) = 0 :=
  (by decide +kernel : ∀ t : Fin grid0.N, _)

section Arrays
variable (V : (c : Dev nD) → (b : Ref sig .tc) → Buf (Elt Ideal) ((c : Thread nD τ).loc b))

/-- The activation window's block at point t = 4b + i is rows 1024i … 1024i+1023 of batch b of the activations. -/
theorem xblk_apply (c : Dev nD) (t : Fin cfg0.N) (y : S1x1024x1024.Idx) (k : S4x4096x1024.Idx)
    (h0 : (k 0).val = t.val / 4) (h1 : (k 1).val = t.val % 4 * 1024 + (y 1).val) (h2 : (k 2).val = (y 2).val) :
    (iblk0 V c 0 t : Vec Ideal S1x1024x1024 .f32) y = (V c main_arg0 : S4x4096x1024.Idx → EReal) k := by
  obtain ⟨e0, e1, e2, -⟩ := idx_facts5 t
  have hy0 : (y 0).val < 1 := (y 0).isLt
  unfold iblk0
  rw [View.read_apply]
  show V c main_arg0 _ = V c main_arg0 _
  congr 1
  funext a
  apply Fin.ext
  match a with
  | ⟨0, _⟩ => show win0_0.index t (0 : Fin 3) * 1 + 1 * (y 0).val = (k 0).val; omega
  | ⟨1, _⟩ => show win0_0.index t (1 : Fin 3) * 1024 + 1 * (y 1).val = (k 1).val; omega
  | ⟨2, _⟩ => show win0_0.index t (2 : Fin 3) * 1024 + 1 * (y 2).val = (k 2).val; omega

/-- Weight window 1's block at any point is the whole matrix. -/
theorem wblk1_apply (c : Dev nD) (t : Fin cfg0.N) (y : S1024x128.Idx) :
    (iblk0 V c 1 t : Vec Ideal S1024x128 .f32) y = (V c main_arg1 : S1024x128.Idx → EReal) y := by
  obtain ⟨-, -, -, a0, a1, b0, b1, c0, c1, -⟩ := idx_facts5 t
  unfold iblk0
  rw [View.read_apply]
  show V c main_arg1 _ = V c main_arg1 _
  congr 1
  funext a
  apply Fin.ext
  match a with
  | ⟨0, _⟩ => show win0_1.index t (0 : Fin 2) * 1024 + 1 * (y 0).val = (y 0).val; omega
  | ⟨1, _⟩ => show win0_1.index t (1 : Fin 2) * 128 + 1 * (y 1).val = (y 1).val; omega

/-- Weight window 2's block at any point is the whole matrix. -/
theorem wblk2_apply (c : Dev nD) (t : Fin cfg0.N) (y : S1024x128.Idx) :
    (iblk0 V c 2 t : Vec Ideal S1024x128 .f32) y = (V c main_arg2 : S1024x128.Idx → EReal) y := by
  obtain ⟨-, -, -, a0, a1, b0, b1, c0, c1, -⟩ := idx_facts5 t
  unfold iblk0
  rw [View.read_apply]
  show V c main_arg2 _ = V c main_arg2 _
  congr 1
  funext a
  apply Fin.ext
  match a with
  | ⟨0, _⟩ => show win0_2.index t (0 : Fin 2) * 1024 + 1 * (y 0).val = (y 0).val; omega
  | ⟨1, _⟩ => show win0_2.index t (1 : Fin 2) * 128 + 1 * (y 1).val = (y 1).val; omega

/-- Weight window 3's block at any point is the whole matrix. -/
theorem wblk3_apply (c : Dev nD) (t : Fin cfg0.N) (y : S1024x128.Idx) :
    (iblk0 V c 3 t : Vec Ideal S1024x128 .f32) y = (V c main_arg3 : S1024x128.Idx → EReal) y := by
  obtain ⟨-, -, -, a0, a1, b0, b1, c0, c1, -⟩ := idx_facts5 t
  unfold iblk0
  rw [View.read_apply]
  show V c main_arg3 _ = V c main_arg3 _
  congr 1
  funext a
  apply Fin.ext
  match a with
  | ⟨0, _⟩ => show win0_3.index t (0 : Fin 2) * 1024 + 1 * (y 0).val = (y 0).val; omega
  | ⟨1, _⟩ => show win0_3.index t (1 : Fin 2) * 128 + 1 * (y 1).val = (y 1).val; omega

/-- Point t writes back block t of the k array's function of the whole arrays. -/
theorem flushed_k (c : Dev nD) (t : Fin cfg0.N) :
    (dat0 (F := Ideal) V c).flushed 5 t
      = ((cfg0.win 5).blk t).view.read (Elt Ideal) (kArr (V c main_arg0) (V c main_arg2)) := by
  show (cfg0.win 5).cut (grid0.coords t) ((dat0 (F := Ideal) V c).after 5 t) = _
  rw [after0_5]
  unfold out0_5
  rw [View.canon_unit_zero hz3]
  simp only [View.ld_unit_zero (S := S1x1024x1024) hz3, View.ld_unit_zero (S := S1024x128) hz2]
  obtain ⟨-, -, -, -, -, -, -, -, -, e0, e1, e2⟩ := idx_facts5 t
  funext j
  have hj0 : (j 0).val < 1 := (j 0).isLt
  have hj1 : (j 1).val < 1024 := (j 1).isLt
  have hj2 : (j 2).val < 128 := (j 2).isLt
  show k0_pay3 (F := Ideal) (iblk0 V c 0 t) (iblk0 V c 2 t) ((cfg0.win 5).xinj (grid0.coords t) j)
    = kArr (V c main_arg0) (V c main_arg2) (((cfg0.win 5).blk t).view.emb j)
  refine k_point (iblk0 V c 0 t) (iblk0 V c 2 t) (V c main_arg0) (V c main_arg2) _ _ (fun k => ?_) (fun q => wblk2_apply V c t q) ?_
  · refine xblk_apply V c t _ _ ?_ ?_ ?_
    · show win0_5.index t (0 : Fin 3) * 1 + 1 * (j 0).val = t.val / 4; omega
    · show win0_5.index t (1 : Fin 3) * 1024 + 1 * (j 1).val = t.val % 4 * 1024 + (j 1).val; omega
    · rfl
  · show (j 2).val = win0_5.index t (2 : Fin 3) * 128 + 1 * (j 2).val; omega

/-- An index of the k array is in point t's block iff each coordinate is in the block's range on its axis. -/
theorem mem_blk_k (t : Fin cfg0.N) (i : S4x4096x128.Idx) :
    i ∈ ((cfg0.win 5).blk t).view.set ↔ ∀ a : Fin 3, win0_5.index t a * S1x1024x128.size a ≤ (i a).val ∧ (i a).val < win0_5.index t a * S1x1024x128.size a + S1x1024x128.size a := by
  show i ∈ ((View.whole main_v0_1).slice (win0_5.rect t)).set ↔ _
  rw [View.set_slice_whole, Rect.mem_set_unit]
  exact Iff.rfl

/-- Every index of the k array is in the block of the point 4b + r/1024. -/
theorem cover_k (i : S4x4096x128.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 128 := (i 2).isLt
  obtain ⟨t, ht⟩ : ∃ t : Fin cfg0.N, t.val = (i 0).val * 4 + (i 1).val / 1024 :=
    ⟨⟨(i 0).val * 4 + (i 1).val / 1024, by show _ < 16; omega⟩, rfl⟩
  obtain ⟨-, -, -, -, -, -, -, -, -, e0, e1, e2⟩ := idx_facts5 t
  refine ⟨t, flush0_5 t, ?_⟩
  rw [mem_blk_k]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

/-- The k array after the call: the projection of the activations by the second weight matrix. -/
theorem k_arr (c : Dev nD) : ((dat0 (F := Ideal) V c).arrAt 5 cfg0.N : S4x4096x128.Idx → EReal)
    = fun i => Cert.Attn.proj (V c main_arg0) (V c main_arg2) (i 0) (i 1) (i 2) :=
  (dat0 (F := Ideal) V c).arrAt_eq_of_cover 5 (kArr (V c main_arg0) (V c main_arg2)) (fun t _ => flushed_k V c t) cover_k

/-- Point t writes back block t of the v array's function of the whole arrays. -/
theorem flushed_v (c : Dev nD) (t : Fin cfg0.N) :
    (dat0 (F := Ideal) V c).flushed 6 t
      = ((cfg0.win 6).blk t).view.read (Elt Ideal) (vArr (V c main_arg0) (V c main_arg3)) := by
  show (cfg0.win 6).cut (grid0.coords t) ((dat0 (F := Ideal) V c).after 6 t) = _
  rw [after0_6]
  unfold out0_6
  rw [View.canon_unit_zero hz3]
  simp only [View.ld_unit_zero (S := S1x1024x1024) hz3, View.ld_unit_zero (S := S1024x128) hz2]
  obtain ⟨-, -, -, -, -, -, -, -, -, e0, e1, e2⟩ := idx_facts6 t
  funext j
  have hj0 : (j 0).val < 1 := (j 0).isLt
  have hj1 : (j 1).val < 1024 := (j 1).isLt
  have hj2 : (j 2).val < 128 := (j 2).isLt
  show k0_pay4 (F := Ideal) (iblk0 V c 0 t) (iblk0 V c 3 t) ((cfg0.win 6).xinj (grid0.coords t) j)
    = vArr (V c main_arg0) (V c main_arg3) (((cfg0.win 6).blk t).view.emb j)
  refine v_point (iblk0 V c 0 t) (iblk0 V c 3 t) (V c main_arg0) (V c main_arg3) _ _ (fun k => ?_) (fun q => wblk3_apply V c t q) ?_
  · refine xblk_apply V c t _ _ ?_ ?_ ?_
    · show win0_6.index t (0 : Fin 3) * 1 + 1 * (j 0).val = t.val / 4; omega
    · show win0_6.index t (1 : Fin 3) * 1024 + 1 * (j 1).val = t.val % 4 * 1024 + (j 1).val; omega
    · rfl
  · show (j 2).val = win0_6.index t (2 : Fin 3) * 128 + 1 * (j 2).val; omega

/-- An index of the v array is in point t's block iff each coordinate is in the block's range on its axis. -/
theorem mem_blk_v (t : Fin cfg0.N) (i : S4x4096x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v0_2).slice (win0_6.rect t)).set ↔ _
  rw [View.set_slice_whole, Rect.mem_set_unit]
  exact Iff.rfl

/-- Every index of the v array is in the block of the point 4b + r/1024. -/
theorem cover_v (i : S4x4096x128.Idx) :
    ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 128 := (i 2).isLt
  obtain ⟨t, ht⟩ : ∃ t : Fin cfg0.N, t.val = (i 0).val * 4 + (i 1).val / 1024 :=
    ⟨⟨(i 0).val * 4 + (i 1).val / 1024, by show _ < 16; omega⟩, rfl⟩
  obtain ⟨-, -, -, -, -, -, -, -, -, e0, e1, e2⟩ := idx_facts6 t
  refine ⟨t, flush0_6 t, ?_⟩
  rw [mem_blk_v]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 128 ≤ (i 2).val ∧ (i 2).val < win0_6.index t (2 : Fin 3) * 128 + 128; omega

/-- The v array after the call: the projection of the activations by the third weight matrix. -/
theorem v_arr (c : Dev nD) : ((dat0 (F := Ideal) V c).arrAt 6 cfg0.N : S4x4096x128.Idx → EReal)
    = fun i => Cert.Attn.proj (V c main_arg0) (V c main_arg3) (i 0) (i 1) (i 2) :=
  (dat0 (F := Ideal) V c).arrAt_eq_of_cover 6 (vArr (V c main_arg0) (V c main_arg3)) (fun t _ => flushed_v V c t) cover_v

/-- Point t writes back block t of the q array's function of the whole arrays. -/
theorem flushed_q (c : Dev nD) (t : Fin cfg0.N) :
    (dat0 (F := Ideal) V c).flushed 4 t
      = ((cfg0.win 4).blk t).view.read (Elt Ideal) (qArr (V c main_arg0) (V c main_arg1)) := by
  show (cfg0.win 4).cut (grid0.coords t) ((dat0 (F := Ideal) V c).after 4 t) = _
  rw [after0_4]
  unfold out0_4
  rw [View.canon_unit_zero hz3]
  simp only [View.ld_unit_zero (S := S1x1024x1024) hz3, View.ld_unit_zero (S := S1024x128) hz2]
  obtain ⟨-, -, -, -, -, -, -, -, -, e0, e1, e2⟩ := idx_facts4 t
  funext j
  have hj0 : (j 0).val < 1 := (j 0).isLt
  have hj1 : (j 1).val < 1024 := (j 1).isLt
  have hj2 : (j 2).val < 128 := (j 2).isLt
  show k0_pay2 (F := Ideal) (iblk0 V c 0 t) (iblk0 V c 1 t) ((cfg0.win 4).xinj (grid0.coords t) j)
    = qArr (V c main_arg0) (V c main_arg1) (((cfg0.win 4).blk t).view.emb j)
  refine q_point (iblk0 V c 0 t) (iblk0 V c 1 t) (V c main_arg0) (V c main_arg1) _ _ (fun k => ?_) (fun q => wblk1_apply V c t q) ?_
  · refine xblk_apply V c t _ _ ?_ ?_ ?_
    · show win0_4.index t (0 : Fin 3) * 1 + 1 * (j 0).val = t.val / 4; omega
    · show win0_4.index t (1 : Fin 3) * 1024 + 1 * (j 1).val = t.val % 4 * 1024 + (j 1).val; omega
    · rfl
  · show (j 2).val = win0_4.index t (2 : Fin 3) * 128 + 1 * (j 2).val; omega

/-- An index of the q array is in point t's block iff each coordinate is in the block's range on its axis. -/
theorem mem_blk_q (t : Fin cfg0.N) (i : S4x4096x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v0_0).slice (win0_4.rect t)).set ↔ _
  rw [View.set_slice_whole, Rect.mem_set_unit]
  exact Iff.rfl

/-- Every index of the q array is in the block of the point 4b + r/1024. -/
theorem cover_q (i : S4x4096x128.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 128 := (i 2).isLt
  obtain ⟨t, ht⟩ : ∃ t : Fin cfg0.N, t.val = (i 0).val * 4 + (i 1).val / 1024 :=
    ⟨⟨(i 0).val * 4 + (i 1).val / 1024, by show _ < 16; omega⟩, rfl⟩
  obtain ⟨-, -, -, -, -, -, -, -, -, e0, e1, e2⟩ := idx_facts4 t
  refine ⟨t, flush0_4 t, ?_⟩
  rw [mem_blk_q]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- The q array after the call: the projection of the activations by the first weight matrix, times σ. -/
theorem q_arr (c : Dev nD) : ((dat0 (F := Ideal) V c).arrAt 4 cfg0.N : S4x4096x128.Idx → EReal)
    = fun i => Cert.Attn.proj (V c main_arg0) (V c main_arg1) (i 0) (i 1) (i 2) * Cert.Attn.scale :=
  (dat0 (F := Ideal) V c).arrAt_eq_of_cover 4 (qArr (V c main_arg0) (V c main_arg1)) (fun t _ => flushed_q V c t) cover_q

end Arrays

end Cert.KernelIdeal.HandValue

end
-- ==== Proof.KernelIdeal.StepValue.lean ====
/-
  The attention call, each step's four components as the body's pure terms.

  The four case runs found, for the output block and for each of the three scratch buffers, the list of pieces the case's
  stores wrote; read back, each list is its LAST covering store's payload, and that payload is one of the body's pure
  terms (the skeleton's `k1_payN`) of the step's three blocks, of its two table words, and of what the step before left
  in the scratch buffers — or, in the two reset cases, of the reset values (-∞ for the running maximum, 0 for the
  normaliser and for the weighted sum) — whatever the staging memrefs are.

  With q, k, v the step's query, key and value tiles, m, l, acc the running maximum, normaliser and weighted sum the step
  starts from, and s = q·kᵀ (masked below the diagonal in cases A and D):
    new maximum     m' = max(m, rowmax s)
    new normaliser  l' = exp(m − m')·l + rowsum exp(s − m')
    new sum         acc' = exp(m − m')·acc + bf16(exp(s − m'))·v
    output block    acc' / l'            (cases A and D only)
-/
import proofs.«420285_j7258494730366_3_alg».proof.Proof.KernelIdeal.Reg1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The offsets of a whole-buffer access are all zero. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The found pieces, read back: one lemma per buffer and case, at any memrefs, blocks and table contents -/

set_option maxHeartbeats 1000000 in
/-- Case C, the running maximum: the store that covers it last, read back, is its payload over the blocks and what the step before left. -/
theorem sout1_C_0_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) :
    sout1_C_0 c i arg4 harg4 arg5 harg5 arg6 harg6 arg7 harg7 arg8 harg8 arg9 harg9 arg10 harg10 xq xk hc0 hc1 hc2 x0 x1 x2 xs0 xs1 xs2
      = k1_pay5 (k1_pay10 x0 x1 xs0) := by
  unfold sout1_C_0
  rw [View.read_writes_eq_canon _ _ _ (scover1_C_0 c i arg4 harg4 arg5 harg5 arg6 harg6 arg7 harg7 arg8 harg8 arg9 harg9 arg10 harg10 xq xk hc0 hc1 hc2 x0 x1 x2 xs0 xs1 xs2)]
  unfold kernelRun1_C
  dsimp only
  sl_unfold_words
  rw [View.canon_cons_unit_zero (S := S1024x1) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]

set_option maxHeartbeats 1000000 in
/-- Case C, the normaliser: the store that covers it last, read back, is its payload over the blocks and what the step before left. -/
theorem sout1_C_1_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) :
    sout1_C_1 c i arg4 harg4 arg5 harg5 arg6 harg6 arg7 harg7 arg8 harg8 arg9 harg9 arg10 harg10 xq xk hc0 hc1 hc2 x0 x1 x2 xs0 xs1 xs2
      = k1_pay13 x0 x1 xs0 xs0 xs1 := by
  unfold sout1_C_1
  rw [View.read_writes_eq_canon _ _ _ (scover1_C_1 c i arg4 harg4 arg5 harg5 arg6 harg6 arg7 harg7 arg8 harg8 arg9 harg9 arg10 harg10 xq xk hc0 hc1 hc2 x0 x1 x2 xs0 xs1 xs2)]
  unfold kernelRun1_C
  dsimp only
  sl_unfold_words
  rw [View.canon_cons_unit_zero (S := S1024x1) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]

set_option maxHeartbeats 1000000 in
/-- Case C, the weighted sum: the store that covers it last, read back, is its payload over the blocks and what the step before left. -/
theorem sout1_C_2_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : condOff (wordQ c i xq) (wordK c i xk)) (hc2 : ¬condDiag (wordQ c i xq) (wordK c i xk))
    (x0 x1 x2 : Vec F S1x1024x128 .bf16) (xs0 xs1 : Vec F S1024x1 .f32) (xs2 : Vec F S1024x128 .f32) :
    sout1_C_2 c i arg4 harg4 arg5 harg5 arg6 harg6 arg7 harg7 arg8 harg8 arg9 harg9 arg10 harg10 xq xk hc0 hc1 hc2 x0 x1 x2 xs0 xs1 xs2
      = k1_pay4 (k1_pay14 x0 x1 xs0 xs0 xs2 x2) := by
  unfold sout1_C_2
  rw [View.read_writes_eq_canon _ _ _ (scover1_C_2 c i arg4 harg4 arg5 harg5 arg6 harg6 arg7 harg7 arg8 harg8 arg9 harg9 arg10 harg10 xq xk hc0 hc1 hc2 x0 x1 x2 xs0 xs1 xs2)]
  unfold kernelRun1_C
  dsimp only
  sl_unfold_words
  rw [View.canon_cons_unit_zero (S := S1024x128) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]

set_option maxHeartbeats 1000000 in
/-- Case B, the running maximum: the store that covers it last, read back, is its payload over the blocks and the reset values. -/
theorem sout1_B_0_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) :
    sout1_B_0 c i arg4 harg4 arg5 harg5 arg6 harg6 arg7 harg7 arg8 harg8 arg9 harg9 arg10 harg10 xq xk hc0 hc1 hc2 x0 x1 x2
      = k1_pay5 (k1_pay10 x0 x1 (k1_pay1 (F := F))) := by
  unfold sout1_B_0
  rw [View.read_writes_eq_canon _ _ _ (scover1_B_0 c i arg4 harg4 arg5 harg5 arg6 harg6 arg7 harg7 arg8 harg8 arg9 harg9 arg10 harg10 xq xk hc0 hc1 hc2 x0 x1 x2)]
  unfold kernelRun1_B
  dsimp only
  sl_unfold_words
  rw [View.canon_cons_unit_zero (S := S1024x1) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]

set_option maxHeartbeats 1000000 in
/-- Case B, the normaliser: the store that covers it last, read back, is its payload over the blocks and the reset values. -/
theorem sout1_B_1_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) :
    sout1_B_1 c i arg4 harg4 arg5 harg5 arg6 harg6 arg7 harg7 arg8 harg8 arg9 harg9 arg10 harg10 xq xk hc0 hc1 hc2 x0 x1 x2
      = k1_pay13 x0 x1 (k1_pay1 (F := F)) (k1_pay1 (F := F)) (k1_pay2 (F := F)) := by
  unfold sout1_B_1
  rw [View.read_writes_eq_canon _ _ _ (scover1_B_1 c i arg4 harg4 arg5 harg5 arg6 harg6 arg7 harg7 arg8 harg8 arg9 harg9 arg10 harg10 xq xk hc0 hc1 hc2 x0 x1 x2)]
  unfold kernelRun1_B
  dsimp only
  sl_unfold_words
  rw [View.canon_cons_unit_zero (S := S1024x1) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]

set_option maxHeartbeats 1000000 in
/-- Case B, the weighted sum: the store that covers it last, read back, is its payload over the blocks and the reset values. -/
theorem sout1_B_2_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : condOff (wordQ c i xq) (wordK c i xk)) (hc2 : ¬condDiag (wordQ c i xq) (wordK c i xk))
    (x0 x1 x2 : Vec F S1x1024x128 .bf16) :
    sout1_B_2 c i arg4 harg4 arg5 harg5 arg6 harg6 arg7 harg7 arg8 harg8 arg9 harg9 arg10 harg10 xq xk hc0 hc1 hc2 x0 x1 x2
      = k1_pay4 (k1_pay14 x0 x1 (k1_pay1 (F := F)) (k1_pay1 (F := F)) (k1_pay3 (F := F)) x2) := by
  unfold sout1_B_2
  rw [View.read_writes_eq_canon _ _ _ (scover1_B_2 c i arg4 harg4 arg5 harg5 arg6 harg6 arg7 harg7 arg8 harg8 arg9 harg9 arg10 harg10 xq xk hc0 hc1 hc2 x0 x1 x2)]
  unfold kernelRun1_B
  dsimp only
  sl_unfold_words
  rw [View.canon_cons_unit_zero (S := S1024x128) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]

set_option maxHeartbeats 1000000 in
/-- Case D, the running maximum: the store that covers it last, read back, is its payload over the blocks and what the step before left. -/
theorem sout1_D_0_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) :
    sout1_D_0 c i arg4 harg4 arg5 harg5 arg6 harg6 arg7 harg7 arg8 harg8 arg9 harg9 arg10 harg10 xq xk hc0 hc1 hc2 x0 x1 x2 xs0 xs1 xs2
      = k1_pay7 (k1_pay16 (wordQ c i xq) (wordK c i xk) x0 x1 xs0) := by
  unfold sout1_D_0
  rw [View.read_writes_eq_canon _ _ _ (scover1_D_0 c i arg4 harg4 arg5 harg5 arg6 harg6 arg7 harg7 arg8 harg8 arg9 harg9 arg10 harg10 xq xk hc0 hc1 hc2 x0 x1 x2 xs0 xs1 xs2)]
  unfold kernelRun1_D
  dsimp only
  sl_unfold_words
  rw [View.canon_cons_unit_zero (S := S1024x1) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]
  rfl

set_option maxHeartbeats 1000000 in
/-- Case D, the normaliser: the store that covers it last, read back, is its payload over the blocks and what the step before left. -/
theorem sout1_D_1_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) :
    sout1_D_1 c i arg4 harg4 arg5 harg5 arg6 harg6 arg7 harg7 arg8 harg8 arg9 harg9 arg10 harg10 xq xk hc0 hc1 hc2 x0 x1 x2 xs0 xs1 xs2
      = k1_pay19 (wordQ c i xq) (wordK c i xk) x0 x1 xs0 xs0 xs1 := by
  unfold sout1_D_1
  rw [View.read_writes_eq_canon _ _ _ (scover1_D_1 c i arg4 harg4 arg5 harg5 arg6 harg6 arg7 harg7 arg8 harg8 arg9 harg9 arg10 harg10 xq xk hc0 hc1 hc2 x0 x1 x2 xs0 xs1 xs2)]
  unfold kernelRun1_D
  dsimp only
  sl_unfold_words
  rw [View.canon_cons_unit_zero (S := S1024x1) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]
  rfl

set_option maxHeartbeats 1000000 in
/-- Case D, the weighted sum: the store that covers it last, read back, is its payload over the blocks and what the step before left. -/
theorem sout1_D_2_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) :
    sout1_D_2 c i arg4 harg4 arg5 harg5 arg6 harg6 arg7 harg7 arg8 harg8 arg9 harg9 arg10 harg10 xq xk hc0 hc1 hc2 x0 x1 x2 xs0 xs1 xs2
      = k1_pay6 (k1_pay18 (wordQ c i xq) (wordK c i xk) x0 x1 xs0) xs2 (k1_pay20 (wordQ c i xq) (wordK c i xk) x0 x1 xs0 xs0) x2 := by
  unfold sout1_D_2
  rw [View.read_writes_eq_canon _ _ _ (scover1_D_2 c i arg4 harg4 arg5 harg5 arg6 harg6 arg7 harg7 arg8 harg8 arg9 harg9 arg10 harg10 xq xk hc0 hc1 hc2 x0 x1 x2 xs0 xs1 xs2)]
  unfold kernelRun1_D
  dsimp only
  sl_unfold_words
  rw [View.canon_cons_unit_zero (S := S1024x128) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]
  rfl

set_option maxHeartbeats 1000000 in
/-- Case D, the output block: the store that covers it last, read back, is its payload over the blocks and what the step before left. -/
theorem out1_D_3_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : ¬condReset (wordK c i xk)) (hc1 : ¬condOff (wordQ c i xq) (wordK c i xk)) (hc2 : condDiag (wordQ c i xq) (wordK c i xk))
    (x0 x1 x2 : Vec F S1x1024x128 .bf16) (xs0 xs1 : Vec F S1024x1 .f32) (xs2 : Vec F S1024x128 .f32) :
    out1_D_3 c i arg4 harg4 arg5 harg5 arg6 harg6 arg7 harg7 arg8 harg8 arg9 harg9 arg10 harg10 xq xk hc0 hc1 hc2 x0 x1 x2 xs0 xs1 xs2
      = k1_pay8 (k1_pay6 (k1_pay18 (wordQ c i xq) (wordK c i xk) x0 x1 xs0) xs2 (k1_pay20 (wordQ c i xq) (wordK c i xk) x0 x1 xs0 xs0) x2) (k1_pay19 (wordQ c i xq) (wordK c i xk) x0 x1 xs0 xs0 xs1) := by
  unfold out1_D_3
  rw [View.read_writes_eq_canon _ _ _ (cover1_D_3 c i arg4 harg4 arg5 harg5 arg6 harg6 arg7 harg7 arg8 harg8 arg9 harg9 arg10 harg10 xq xk hc0 hc1 hc2 x0 x1 x2 xs0 xs1 xs2)]
  unfold kernelRun1_D
  dsimp only
  sl_unfold_words
  rw [View.canon_cons_unit_zero (S := S1x1024x128) hz3]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]
  rfl

set_option maxHeartbeats 1000000 in
/-- Case A, the running maximum: the store that covers it last, read back, is its payload over the blocks and the reset values. -/
theorem sout1_A_0_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) :
    sout1_A_0 c i arg4 harg4 arg5 harg5 arg6 harg6 arg7 harg7 arg8 harg8 arg9 harg9 arg10 harg10 xq xk hc0 hc1 hc2 x0 x1 x2
      = k1_pay7 (k1_pay16 (wordQ c i xq) (wordK c i xk) x0 x1 (k1_pay1 (F := F))) := by
  unfold sout1_A_0
  rw [View.read_writes_eq_canon _ _ _ (scover1_A_0 c i arg4 harg4 arg5 harg5 arg6 harg6 arg7 harg7 arg8 harg8 arg9 harg9 arg10 harg10 xq xk hc0 hc1 hc2 x0 x1 x2)]
  unfold kernelRun1_A
  dsimp only
  sl_unfold_words
  rw [View.canon_cons_unit_zero (S := S1024x1) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]
  rfl

set_option maxHeartbeats 1000000 in
/-- Case A, the normaliser: the store that covers it last, read back, is its payload over the blocks and the reset values. -/
theorem sout1_A_1_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) :
    sout1_A_1 c i arg4 harg4 arg5 harg5 arg6 harg6 arg7 harg7 arg8 harg8 arg9 harg9 arg10 harg10 xq xk hc0 hc1 hc2 x0 x1 x2
      = k1_pay19 (wordQ c i xq) (wordK c i xk) x0 x1 (k1_pay1 (F := F)) (k1_pay1 (F := F)) (k1_pay2 (F := F)) := by
  unfold sout1_A_1
  rw [View.read_writes_eq_canon _ _ _ (scover1_A_1 c i arg4 harg4 arg5 harg5 arg6 harg6 arg7 harg7 arg8 harg8 arg9 harg9 arg10 harg10 xq xk hc0 hc1 hc2 x0 x1 x2)]
  unfold kernelRun1_A
  dsimp only
  sl_unfold_words
  rw [View.canon_cons_unit_zero (S := S1024x1) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]
  rfl

set_option maxHeartbeats 1000000 in
/-- Case A, the weighted sum: the store that covers it last, read back, is its payload over the blocks and the reset values. -/
theorem sout1_A_2_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) :
    sout1_A_2 c i arg4 harg4 arg5 harg5 arg6 harg6 arg7 harg7 arg8 harg8 arg9 harg9 arg10 harg10 xq xk hc0 hc1 hc2 x0 x1 x2
      = k1_pay6 (k1_pay18 (wordQ c i xq) (wordK c i xk) x0 x1 (k1_pay1 (F := F))) (k1_pay3 (F := F)) (k1_pay20 (wordQ c i xq) (wordK c i xk) x0 x1 (k1_pay1 (F := F)) (k1_pay1 (F := F))) x2 := by
  unfold sout1_A_2
  rw [View.read_writes_eq_canon _ _ _ (scover1_A_2 c i arg4 harg4 arg5 harg5 arg6 harg6 arg7 harg7 arg8 harg8 arg9 harg9 arg10 harg10 xq xk hc0 hc1 hc2 x0 x1 x2)]
  unfold kernelRun1_A
  dsimp only
  sl_unfold_words
  rw [View.canon_cons_unit_zero (S := S1024x128) hz2]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]
  rfl

set_option maxHeartbeats 1000000 in
/-- Case A, the output block: the store that covers it last, read back, is its payload over the blocks and the reset values. -/
theorem out1_A_3_eq (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (xq : TbBuf (F := F) c tbQ) (xk : TbBuf (F := F) c tbK)
    (hc0 : condReset (wordK c i xk)) (hc1 : ¬condOff (wordQ c i xq) (wordK c i xk)) (hc2 : condDiag (wordQ c i xq) (wordK c i xk))
    (x0 x1 x2 : Vec F S1x1024x128 .bf16) :
    out1_A_3 c i arg4 harg4 arg5 harg5 arg6 harg6 arg7 harg7 arg8 harg8 arg9 harg9 arg10 harg10 xq xk hc0 hc1 hc2 x0 x1 x2
      = k1_pay8 (k1_pay6 (k1_pay18 (wordQ c i xq) (wordK c i xk) x0 x1 (k1_pay1 (F := F))) (k1_pay3 (F := F)) (k1_pay20 (wordQ c i xq) (wordK c i xk) x0 x1 (k1_pay1 (F := F)) (k1_pay1 (F := F))) x2) (k1_pay19 (wordQ c i xq) (wordK c i xk) x0 x1 (k1_pay1 (F := F)) (k1_pay1 (F := F)) (k1_pay2 (F := F))) := by
  unfold out1_A_3
  rw [View.read_writes_eq_canon _ _ _ (cover1_A_3 c i arg4 harg4 arg5 harg5 arg6 harg6 arg7 harg7 arg8 harg8 arg9 harg9 arg10 harg10 xq xk hc0 hc1 hc2 x0 x1 x2)]
  unfold kernelRun1_A
  dsimp only
  sl_unfold_words
  rw [View.canon_cons_unit_zero (S := S1x1024x128) hz3]
  simp only [View.readAt_eq_ld, harg4.read_unread, harg5.read_unread, harg6.read_unread, harg8.read_unread, harg9.read_unread,
    harg10.read_unread, View.ld_unit_zero (S := S1x1024x128) hz3, View.ld_unit_zero (S := S1024x1) hz2,
    View.ld_unit_zero (S := S1024x128) hz2, View.readCov_cons_toLoadRect]
  rfl

/-! ## The same at a step of the grid -/

section Steps

variable (V : (c : Dev nD) → (b : Ref sig .tc) → Buf (Elt F) ((c : Thread nD τ).loc b)) (a : (pcfg1 (F := F)).Adm)

/-- The query, key and value tiles of step `t`, at their literal types. -/
abbrev qblk (c : Dev nD) (t : Fin (cfgA a).N) : Vec F S1x1024x128 .bf16 := iblk1 V a c 0 t
abbrev kblk (c : Dev nD) (t : Fin (cfgA a).N) : Vec F S1x1024x128 .bf16 := iblk1 V a c 1 t
abbrev vblk (c : Dev nD) (t : Fin (cfgA a).N) : Vec F S1x1024x128 .bf16 := iblk1 V a c 2 t

/-! ### Case C -/

/-- Case C, the running maximum after step `t`. -/
theorem step1_C_mx (c : Dev nD) (t : Fin (cfgA a).N) (hR : ¬condReset (wK a c t)) (hO : condOff (wQ a c t) (wK a c t)) (hD : ¬condDiag (wQ a c t) (wK a c t)) (p : Vec F S1x1024x128 .f32 × Vec F S1024x1 .f32 × Vec F S1024x1 .f32 × Vec F S1024x128 .f32) :
    (step1_C V a c t hR hO hD p).2.1
      = k1_pay5 (k1_pay10 (qblk V a c t) (kblk V a c t) p.2.1) := by
  unfold step1_C
  dsimp only
  exact sout1_C_0_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2

/-- Case C, the normaliser after step `t`. -/
theorem step1_C_l (c : Dev nD) (t : Fin (cfgA a).N) (hR : ¬condReset (wK a c t)) (hO : condOff (wQ a c t) (wK a c t)) (hD : ¬condDiag (wQ a c t) (wK a c t)) (p : Vec F S1x1024x128 .f32 × Vec F S1024x1 .f32 × Vec F S1024x1 .f32 × Vec F S1024x128 .f32) :
    (step1_C V a c t hR hO hD p).2.2.1
      = k1_pay13 (qblk V a c t) (kblk V a c t) p.2.1 p.2.1 p.2.2.1 := by
  unfold step1_C
  dsimp only
  exact sout1_C_1_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2

/-- Case C, the weighted sum after step `t`. -/
theorem step1_C_acc (c : Dev nD) (t : Fin (cfgA a).N) (hR : ¬condReset (wK a c t)) (hO : condOff (wQ a c t) (wK a c t)) (hD : ¬condDiag (wQ a c t) (wK a c t)) (p : Vec F S1x1024x128 .f32 × Vec F S1024x1 .f32 × Vec F S1024x1 .f32 × Vec F S1024x128 .f32) :
    (step1_C V a c t hR hO hD p).2.2.2
      = k1_pay4 (k1_pay14 (qblk V a c t) (kblk V a c t) p.2.1 p.2.1 p.2.2.2 (vblk V a c t)) := by
  unfold step1_C
  dsimp only
  exact sout1_C_2_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2

/-! ### Case B -/

/-- Case B, the running maximum after step `t`. -/
theorem step1_B_mx (c : Dev nD) (t : Fin (cfgA a).N) (hR : condReset (wK a c t)) (hO : condOff (wQ a c t) (wK a c t)) (hD : ¬condDiag (wQ a c t) (wK a c t)) :
    (step1_B V a c t hR hO hD).2.1
      = k1_pay5 (k1_pay10 (qblk V a c t) (kblk V a c t) (k1_pay1 (F := F))) := by
  unfold step1_B
  dsimp only
  exact sout1_B_0_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t)

/-- Case B, the normaliser after step `t`. -/
theorem step1_B_l (c : Dev nD) (t : Fin (cfgA a).N) (hR : condReset (wK a c t)) (hO : condOff (wQ a c t) (wK a c t)) (hD : ¬condDiag (wQ a c t) (wK a c t)) :
    (step1_B V a c t hR hO hD).2.2.1
      = k1_pay13 (qblk V a c t) (kblk V a c t) (k1_pay1 (F := F)) (k1_pay1 (F := F)) (k1_pay2 (F := F)) := by
  unfold step1_B
  dsimp only
  exact sout1_B_1_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t)

/-- Case B, the weighted sum after step `t`. -/
theorem step1_B_acc (c : Dev nD) (t : Fin (cfgA a).N) (hR : condReset (wK a c t)) (hO : condOff (wQ a c t) (wK a c t)) (hD : ¬condDiag (wQ a c t) (wK a c t)) :
    (step1_B V a c t hR hO hD).2.2.2
      = k1_pay4 (k1_pay14 (qblk V a c t) (kblk V a c t) (k1_pay1 (F := F)) (k1_pay1 (F := F)) (k1_pay3 (F := F)) (vblk V a c t)) := by
  unfold step1_B
  dsimp only
  exact sout1_B_2_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t)

/-! ### Case D -/

/-- Case D, the running maximum after step `t`. -/
theorem step1_D_mx (c : Dev nD) (t : Fin (cfgA a).N) (hR : ¬condReset (wK a c t)) (hO : ¬condOff (wQ a c t) (wK a c t)) (hD : condDiag (wQ a c t) (wK a c t)) (p : Vec F S1x1024x128 .f32 × Vec F S1024x1 .f32 × Vec F S1024x1 .f32 × Vec F S1024x128 .f32) :
    (step1_D V a c t hR hO hD p).2.1
      = k1_pay7 (k1_pay16 (wQ a c t) (wK a c t) (qblk V a c t) (kblk V a c t) p.2.1) := by
  unfold step1_D
  dsimp only
  exact sout1_D_0_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2

/-- Case D, the normaliser after step `t`. -/
theorem step1_D_l (c : Dev nD) (t : Fin (cfgA a).N) (hR : ¬condReset (wK a c t)) (hO : ¬condOff (wQ a c t) (wK a c t)) (hD : condDiag (wQ a c t) (wK a c t)) (p : Vec F S1x1024x128 .f32 × Vec F S1024x1 .f32 × Vec F S1024x1 .f32 × Vec F S1024x128 .f32) :
    (step1_D V a c t hR hO hD p).2.2.1
      = k1_pay19 (wQ a c t) (wK a c t) (qblk V a c t) (kblk V a c t) p.2.1 p.2.1 p.2.2.1 := by
  unfold step1_D
  dsimp only
  exact sout1_D_1_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2

/-- Case D, the weighted sum after step `t`. -/
theorem step1_D_acc (c : Dev nD) (t : Fin (cfgA a).N) (hR : ¬condReset (wK a c t)) (hO : ¬condOff (wQ a c t) (wK a c t)) (hD : condDiag (wQ a c t) (wK a c t)) (p : Vec F S1x1024x128 .f32 × Vec F S1024x1 .f32 × Vec F S1024x1 .f32 × Vec F S1024x128 .f32) :
    (step1_D V a c t hR hO hD p).2.2.2
      = k1_pay6 (k1_pay18 (wQ a c t) (wK a c t) (qblk V a c t) (kblk V a c t) p.2.1) p.2.2.2 (k1_pay20 (wQ a c t) (wK a c t) (qblk V a c t) (kblk V a c t) p.2.1 p.2.1) (vblk V a c t) := by
  unfold step1_D
  dsimp only
  exact sout1_D_2_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2

/-- Case D, the output block after step `t`. -/
theorem step1_D_out (c : Dev nD) (t : Fin (cfgA a).N) (hR : ¬condReset (wK a c t)) (hO : ¬condOff (wQ a c t) (wK a c t)) (hD : condDiag (wQ a c t) (wK a c t)) (p : Vec F S1x1024x128 .f32 × Vec F S1024x1 .f32 × Vec F S1024x1 .f32 × Vec F S1024x128 .f32) :
    (step1_D V a c t hR hO hD p).1
      = k1_pay8 (k1_pay6 (k1_pay18 (wQ a c t) (wK a c t) (qblk V a c t) (kblk V a c t) p.2.1) p.2.2.2 (k1_pay20 (wQ a c t) (wK a c t) (qblk V a c t) (kblk V a c t) p.2.1 p.2.1) (vblk V a c t)) (k1_pay19 (wQ a c t) (wK a c t) (qblk V a c t) (kblk V a c t) p.2.1 p.2.1 p.2.2.1) := by
  unfold step1_D
  dsimp only
  exact out1_D_3_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t) p.2.1 p.2.2.1 p.2.2.2

/-! ### Case A -/

/-- Case A, the running maximum after step `t`. -/
theorem step1_A_mx (c : Dev nD) (t : Fin (cfgA a).N) (hR : condReset (wK a c t)) (hO : ¬condOff (wQ a c t) (wK a c t)) (hD : condDiag (wQ a c t) (wK a c t)) :
    (step1_A V a c t hR hO hD).2.1
      = k1_pay7 (k1_pay16 (wQ a c t) (wK a c t) (qblk V a c t) (kblk V a c t) (k1_pay1 (F := F))) := by
  unfold step1_A
  dsimp only
  exact sout1_A_0_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t)

/-- Case A, the normaliser after step `t`. -/
theorem step1_A_l (c : Dev nD) (t : Fin (cfgA a).N) (hR : condReset (wK a c t)) (hO : ¬condOff (wQ a c t) (wK a c t)) (hD : condDiag (wQ a c t) (wK a c t)) :
    (step1_A V a c t hR hO hD).2.2.1
      = k1_pay19 (wQ a c t) (wK a c t) (qblk V a c t) (kblk V a c t) (k1_pay1 (F := F)) (k1_pay1 (F := F)) (k1_pay2 (F := F)) := by
  unfold step1_A
  dsimp only
  exact sout1_A_1_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t)

/-- Case A, the weighted sum after step `t`. -/
theorem step1_A_acc (c : Dev nD) (t : Fin (cfgA a).N) (hR : condReset (wK a c t)) (hO : ¬condOff (wQ a c t) (wK a c t)) (hD : condDiag (wQ a c t) (wK a c t)) :
    (step1_A V a c t hR hO hD).2.2.2
      = k1_pay6 (k1_pay18 (wQ a c t) (wK a c t) (qblk V a c t) (kblk V a c t) (k1_pay1 (F := F))) (k1_pay3 (F := F)) (k1_pay20 (wQ a c t) (wK a c t) (qblk V a c t) (kblk V a c t) (k1_pay1 (F := F)) (k1_pay1 (F := F))) (vblk V a c t) := by
  unfold step1_A
  dsimp only
  exact sout1_A_2_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t)

/-- Case A, the output block after step `t`. -/
theorem step1_A_out (c : Dev nD) (t : Fin (cfgA a).N) (hR : condReset (wK a c t)) (hO : ¬condOff (wQ a c t) (wK a c t)) (hD : condDiag (wQ a c t) (wK a c t)) :
    (step1_A V a c t hR hO hD).1
      = k1_pay8 (k1_pay6 (k1_pay18 (wQ a c t) (wK a c t) (qblk V a c t) (kblk V a c t) (k1_pay1 (F := F))) (k1_pay3 (F := F)) (k1_pay20 (wQ a c t) (wK a c t) (qblk V a c t) (kblk V a c t) (k1_pay1 (F := F)) (k1_pay1 (F := F))) (vblk V a c t)) (k1_pay19 (wQ a c t) (wK a c t) (qblk V a c t) (kblk V a c t) (k1_pay1 (F := F)) (k1_pay1 (F := F)) (k1_pay2 (F := F))) := by
  unfold step1_A
  dsimp only
  exact out1_A_3_eq c (grid1.coords t) (ms1_0 a t) (hs1_0 a t) (ms1_1 a t) (hs1_1 a t) (ms1_2 a t) (hs1_2 a t) (ms1_3 a t) (hs1_3 a t) scMx (Memref.isWhole_whole _) scL (Memref.isWhole_whole _) scAcc (Memref.isWhole_whole _) (a.1 0) (a.1 1) hR hO hD (iblk1 V a c 0 t) (iblk1 V a c 1 t) (iblk1 V a c 2 t)

end Steps

end Cert.KernelIdeal.Hand

end
-- ==== Proof.Online.lean ====
/-
  Online softmax, tile by tile, is softmax.

  A row keeps a running maximum m, a normaliser l and a weighted sum a; each tile of logits s and values v
  updates them by
      m' = max m (sup s),   α = exp (m - m'),
      l' = α · l + Σ_j exp (s_j - m'),   a' = α · a + Σ_j exp (s_j - m') · v_j,
  starting from (⊥, 0, 0).  Logits are reals or ⊥, values are reals, and the first tile holds a real logit.
  After n ≥ 1 tiles, with M the maximum over all the logits seen, m = M (a real),
  l = Σ exp (s - M) (a positive real) and a = Σ exp (s - M) · v, so a / l is the softmax-weighted sum.
-/
import Idealize.ShloMosaic.PureOps.Ideal
import Mathlib.Data.EReal.Basic
import Mathlib.Data.EReal.Operations
import Mathlib.Data.EReal.Inv
import Mathlib.Analysis.SpecialFunctions.Exp
import Mathlib.Algebra.BigOperators.Group.Finset.Basic
import Mathlib.Order.Interval.Finset.Nat

noncomputable section

namespace Cert.Attn.Online

open Idealize.ShloMosaic

variable {J : Type} [Fintype J]

/-- One update of (maximum, normaliser, weighted sum) by a tile of logits `s` and values `v`. -/
def upd (s v : J → EReal) (st : EReal × EReal × EReal) : EReal × EReal × EReal :=
  let m' := max st.1 (Finset.univ.sup s)
  (m', Ideal.exp (st.1 - m') * st.2.1 + ∑ j, Ideal.exp (s j - m'),
       Ideal.exp (st.1 - m') * st.2.2 + ∑ j, Ideal.exp (s j - m') * v j)

/-- Tiles 0 .. n-1 in order, from (⊥, 0, 0). -/
def run (s v : ℕ → J → EReal) : ℕ → EReal × EReal × EReal
  | 0 => (⊥, 0, 0)
  | n + 1 => upd (s n) (v n) (run s v n)

/-- The maximum over the first n tiles. -/
def supTo (s : ℕ → J → EReal) (n : ℕ) : EReal := (Finset.range n).sup fun k => Finset.univ.sup (s k)

/-! ### Finite sums against a nonnegative finite factor -/

/-- A nonnegative finite factor distributes over a finite sum of extended reals. -/
theorem mul_sum {ι : Type} (c : EReal) (hc : 0 ≤ c) (hc' : c ≠ ⊤) (t : Finset ι) (f : ι → EReal) :
    c * ∑ i ∈ t, f i = ∑ i ∈ t, c * f i := by
  classical
  induction t using Finset.induction_on with
  | empty => simp
  | insert a t ha ih =>
    rw [Finset.sum_insert ha, Finset.sum_insert ha, EReal.left_distrib_of_nonneg_of_ne_top hc hc', ih]

/-- The same over the tiles seen so far and the columns of each. -/
theorem mul_sum2 (c : EReal) (hc : 0 ≤ c) (hc' : c ≠ ⊤) (n : ℕ) (f : ℕ → J → EReal) :
    c * ∑ k ∈ Finset.range n, ∑ j, f k j = ∑ k ∈ Finset.range n, ∑ j, c * f k j := by
  rw [mul_sum c hc hc']
  exact Finset.sum_congr rfl fun k _ => mul_sum c hc hc' _ _

/-- The exponential of a difference of reals is a nonnegative real. -/
theorem exp_sub_coe (M M' : ℝ) : Ideal.exp ((M : EReal) - M') = ((Real.exp (M - M') : ℝ) : EReal) := by
  rw [← EReal.coe_sub, Ideal.exp_coe]

theorem exp_sub_nonneg (M M' : ℝ) : 0 ≤ Ideal.exp ((M : EReal) - M') := by
  rw [exp_sub_coe]; exact_mod_cast (Real.exp_pos _).le

theorem exp_sub_ne_top (M M' : ℝ) : Ideal.exp ((M : EReal) - M') ≠ ⊤ := by
  rw [exp_sub_coe]; exact EReal.coe_ne_top _

/-- Moving the shift from M to M': e^(M - M') · e^(x - M) = e^(x - M'), at a masked x too. -/
theorem exp_shift (x : EReal) (hx : x ≠ ⊤) (M M' : ℝ) :
    Ideal.exp ((M : EReal) - M') * Ideal.exp (x - M) = Ideal.exp (x - M') := by
  induction x using EReal.rec with
  | bot => simp [EReal.bot_sub]
  | coe r =>
    rw [← EReal.coe_sub, ← EReal.coe_sub, ← EReal.coe_sub, Ideal.exp_coe, Ideal.exp_coe, Ideal.exp_coe,
      ← EReal.coe_mul, ← Real.exp_add]
    congr 2; ring
  | top => exact absurd rfl hx

/-! ### The running maximum -/

theorem supTo_succ (s : ℕ → J → EReal) (n : ℕ) :
    supTo s (n + 1) = max (supTo s n) (Finset.univ.sup (s n)) := by
  unfold supTo
  rw [Finset.range_add_one, Finset.sup_insert, max_comm]

/-- Once the first tile holds a real logit and no logit is ⊤, the running maximum is a real. -/
theorem supTo_real (s : ℕ → J → EReal) (n : ℕ) (hn : 0 < n)
    (hs : ∀ k, k < n → ∀ j, s k j ≠ ⊤) (h0 : ∃ j, s 0 j ≠ ⊥) : ∃ M : ℝ, supTo s n = (M : EReal) := by
  obtain ⟨j0, hj0⟩ := h0
  have htop : supTo s n ≠ ⊤ := by
    apply ne_of_lt
    unfold supTo
    rw [Finset.sup_lt_iff bot_lt_top]
    intro k hk
    rw [Finset.sup_lt_iff bot_lt_top]
    intro j _
    exact lt_top_iff_ne_top.2 (hs k (Finset.mem_range.1 hk) j)
  have hbot : supTo s n ≠ ⊥ := by
    have h1 : s 0 j0 ≤ supTo s n :=
      le_trans (Finset.le_sup (f := s 0) (Finset.mem_univ j0))
        (Finset.le_sup (f := fun k => Finset.univ.sup (s k)) (Finset.mem_range.2 hn))
    exact ne_bot_of_le_ne_bot hj0 h1
  exact ⟨(supTo s n).toReal, (EReal.coe_toReal htop hbot).symm⟩

/-! ### The state after n + 1 tiles -/

theorem run_succ (s v : ℕ → J → EReal) (n : ℕ) : run s v (n + 1) = upd (s n) (v n) (run s v n) := rfl

theorem run_closed (s v : ℕ → J → EReal) (h0 : ∃ j, s 0 j ≠ ⊥) :
    ∀ n, (∀ k, k < n + 1 → ∀ j, s k j ≠ ⊤) →
      run s v (n + 1) = (supTo s (n + 1),
        ∑ k ∈ Finset.range (n + 1), ∑ j, Ideal.exp (s k j - supTo s (n + 1)),
        ∑ k ∈ Finset.range (n + 1), ∑ j, Ideal.exp (s k j - supTo s (n + 1)) * v k j) := by
  intro n
  induction n with
  | zero =>
    intro _
    have h1 : supTo s 1 = Finset.univ.sup (s 0) := by simp [supTo]
    rw [h1]
    simp [run, upd]
  | succ n ih =>
    intro hs
    have hs' : ∀ k, k < n + 1 → ∀ j, s k j ≠ ⊤ := fun k hk => hs k (Nat.lt_succ_of_lt hk)
    obtain ⟨M, hM⟩ := supTo_real s (n + 1) (Nat.succ_pos _) hs' h0
    obtain ⟨M', hM'⟩ := supTo_real s (n + 1 + 1) (Nat.succ_pos _) hs h0
    have hmax : max (M : EReal) (Finset.univ.sup (s (n + 1))) = M' := by
      rw [← hM, ← hM']; exact (supTo_succ s (n + 1)).symm
    have hc := exp_sub_nonneg M M'
    have hc' := exp_sub_ne_top M M'
    rw [run_succ, ih hs', hM', hM]
    simp only [upd, hmax]
    rw [Finset.sum_range_succ _ (n + 1), Finset.sum_range_succ _ (n + 1), mul_sum2 _ hc hc', mul_sum2 _ hc hc']
    refine Prod.ext rfl (Prod.ext ?_ ?_)
    · refine congrArg (· + _) (Finset.sum_congr rfl fun k hk => Finset.sum_congr rfl fun j _ => ?_)
      exact exp_shift _ (hs' k (Finset.mem_range.1 hk) j) M M'
    · refine congrArg (· + _) (Finset.sum_congr rfl fun k hk => Finset.sum_congr rfl fun j _ => ?_)
      rw [← mul_assoc, exp_shift _ (hs' k (Finset.mem_range.1 hk) j) M M']

theorem run_spec (s v : ℕ → J → EReal) (n : ℕ) (hn : 0 < n)
    (hs : ∀ k, k < n → ∀ j, s k j ≠ ⊤) (h0 : ∃ j, s 0 j ≠ ⊥)
    (hv : ∀ k, k < n → ∀ j, ∃ r : ℝ, v k j = (r : EReal)) :
    (∃ M : ℝ, supTo s n = (M : EReal))
    ∧ (run s v n).1 = supTo s n
    ∧ (run s v n).2.1 = ∑ k ∈ Finset.range n, ∑ j, Ideal.exp (s k j - supTo s n)
    ∧ (run s v n).2.2 = ∑ k ∈ Finset.range n, ∑ j, Ideal.exp (s k j - supTo s n) * v k j := by
  have _ := hv
  obtain ⟨m, rfl⟩ : ∃ m, n = m + 1 := ⟨n - 1, by omega⟩
  rw [run_closed s v h0 m hs]
  exact ⟨supTo_real s (m + 1) hn hs h0, rfl, rfl, rfl⟩

/-! ### The normaliser is a positive real -/

/-- The weight of a logit against a real shift, as a real: 0 at a masked logit. -/
def wt (x : EReal) (M : ℝ) : ℝ := (Ideal.exp (x - (M : EReal))).toReal

theorem exp_eq_wt (x : EReal) (hx : x ≠ ⊤) (M : ℝ) : Ideal.exp (x - (M : EReal)) = ((wt x M : ℝ) : EReal) := by
  induction x using EReal.rec with
  | bot => simp [wt, EReal.bot_sub]
  | coe r => rw [wt, ← EReal.coe_sub, Ideal.exp_coe, EReal.toReal_coe]
  | top => exact absurd rfl hx

theorem wt_nonneg (x : EReal) (M : ℝ) : 0 ≤ wt x M := by
  induction x using EReal.rec with
  | bot => simp [wt, EReal.bot_sub]
  | coe r => rw [wt, ← EReal.coe_sub, Ideal.exp_coe, EReal.toReal_coe]; exact (Real.exp_pos _).le
  | top => simp [wt, EReal.top_sub_coe]

theorem wt_pos (r M : ℝ) : 0 < wt (r : EReal) M := by
  rw [wt, ← EReal.coe_sub, Ideal.exp_coe, EReal.toReal_coe]; exact Real.exp_pos _

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem denom_pos (s v : ℕ → J → EReal) (n : ℕ) (hn : 0 < n)
    (hs : ∀ k, k < n → ∀ j, s k j ≠ ⊤) (h0 : ∃ j, s 0 j ≠ ⊥)
    (hv : ∀ k, k < n → ∀ j, ∃ r : ℝ, v k j = (r : EReal)) :
    ∃ L : ℝ, 0 < L ∧ (∑ k ∈ Finset.range n, ∑ j, Ideal.exp (s k j - supTo s n)) = (L : EReal) := by
  have _ := hv
  obtain ⟨M, hM⟩ := supTo_real s n hn hs h0
  obtain ⟨j0, hj0⟩ := h0
  refine ⟨∑ k ∈ Finset.range n, ∑ j, wt (s k j) M, ?_, ?_⟩
  · refine Finset.sum_pos' (fun k _ => Finset.sum_nonneg fun j _ => wt_nonneg _ _)
      ⟨0, Finset.mem_range.2 hn, Finset.sum_pos' (fun j _ => wt_nonneg _ _) ⟨j0, Finset.mem_univ _, ?_⟩⟩
    have hr : ((s 0 j0).toReal : EReal) = s 0 j0 := EReal.coe_toReal (hs 0 hn j0) hj0
    rw [← hr]; exact wt_pos _ _
  · rw [hM, coe_sum]
    refine Finset.sum_congr rfl fun k hk => ?_
    rw [coe_sum]
    exact Finset.sum_congr rfl fun j _ => exp_eq_wt _ (hs k (Finset.mem_range.1 hk) j) M

/-! ### The final quotient is the softmax-weighted sum -/

theorem run_div (s v : ℕ → J → EReal) (n : ℕ) (hn : 0 < n)
    (hs : ∀ k, k < n → ∀ j, s k j ≠ ⊤) (h0 : ∃ j, s 0 j ≠ ⊥)
    (hv : ∀ k, k < n → ∀ j, ∃ r : ℝ, v k j = (r : EReal)) :
    Ideal.div (run s v n).2.2 (run s v n).2.1
      = ∑ k ∈ Finset.range n, ∑ j,
          Ideal.div (Ideal.exp (s k j - supTo s n))
            (∑ k' ∈ Finset.range n, ∑ j', Ideal.exp (s k' j' - supTo s n)) * v k j := by
  obtain ⟨_, _, hl, ha⟩ := run_spec s v n hn hs h0 hv
  obtain ⟨L, hL0, hL⟩ := denom_pos s v n hn hs h0 hv
  rw [hl, ha, hL]
  simp only [Ideal.div_coe hL0.ne']
  have hc : (0 : EReal) ≤ ((1 / L : ℝ) : EReal) := by exact_mod_cast (one_div_pos.2 hL0).le
  rw [mul_comm, mul_sum2 _ hc (EReal.coe_ne_top _)]
  refine Finset.sum_congr rfl fun k _ => Finset.sum_congr rfl fun j _ => ?_
  rw [← mul_assoc, mul_comm (((1 / L : ℝ) : EReal))]

end Cert.Attn.Online
-- ==== Proof.KernelIdeal.PayValue.lean ====
/-
  The attention body's arithmetic read at an index, over the extended reals.

  Row by row and feature by feature, the off-diagonal step of the body is one online-softmax update
      m' = max m (sup_j s_j),  l' = e^(m - m') · l + Σ_j e^(s_j - m'),  a' = e^(m - m') · a + Σ_j e^(s_j - m') · v_j
  over the tile's logits s_j = Σ_e q[r, e] · k[j, e]; the diagonal step is the same update over the causally masked
  tile (column j kept iff j ≤ r when the query tile and the key tile are the same tile); the reset writes (⊥, 0, 0);
  the output block is the weighted sum divided by the normaliser.
-/
import proofs.«420285_j7258494730366_3_alg».proof.Proof.Gen.KernelIdeal.Skeleton
import proofs.«420285_j7258494730366_3_alg».proof.Proof.Online
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

noncomputable section

namespace Cert.KernelIdeal.HandValue

open Idealize.ShloMosaic Idealize.ShloMosaic.ValueIdx Cert.KernelIdeal Cert.KernelIdeal.Gen Cert.Attn

/-! ### Layout forms -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The lane reductions of a 1024 × 1024 block -/

/-- Column k put back into row r. -/
theorem lift_row (r k : Fin 1024) : reduces_S1024x1024_S1024.lift (ValueIdx.ix1 r) k = ix2 r k :=
  funext fun a => Fin.ext (by
    match a with
    | ⟨0, _⟩ => rfl
    | ⟨1, _⟩ => rfl)

theorem rowMax_apply (S : FVec Ideal S1024x1024 .f32) (r : Fin 1024) :
    multiReduction (F := Ideal) .maximumf [1] S1024 S 0xFF800000#32 reduces_S1024x1024_S1024 (.inl rfl) rfl (ValueIdx.ix1 r)
      = Finset.univ.sup fun j : Fin 1024 => S (ix2 r j) := by
  refine (Ideal.multiReduction_maximumf_single S 0xFF800000#32 reduces_S1024x1024_S1024 (.inl rfl) rfl (ValueIdx.ix1 r)).trans ?_
  have hb : (FloatOps.ofBits (F := Ideal) .f32 0xFF800000#32) = (⊥ : EReal) := by
    show Ideal.ofBits .f32 0xFF800000#32 = ⊥
    simp [Ideal.ofBits, Ideal.ieee]
  rw [hb]
  have hf : (S ∘ reduces_S1024x1024_S1024.lift (ValueIdx.ix1 r)) = fun j : Fin 1024 => S (ix2 r j) :=
    funext fun k => congrArg S (lift_row r k)
  rw [hf]
  rfl

theorem rowSum_apply (S : FVec Ideal S1024x1024 .f32) (r : Fin 1024) :
    multiReduction (F := Ideal) .add [1] S1024 S 0x00000000#32 reduces_S1024x1024_S1024 (.inl rfl) rfl (ValueIdx.ix1 r)
      = ∑ j : Fin 1024, S (ix2 r j) := by
  refine (Ideal.multiReduction_add_single S 0x00000000#32 reduces_S1024x1024_S1024 (.inl rfl) rfl (ValueIdx.ix1 r)).trans ?_
  exact Finset.sum_congr rfl fun k _ => congrArg S (lift_row r k)

/-! ### The two block products -/

theorem lhsQK_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhsQK_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhsQK_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhsQK_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of a 1024 × 128 block with a 128 × 1024 block into zero, at (r, j). -/
theorem mm_qk (L : FVec Ideal S1024x128 .bf16) (R : FVec Ideal S128x1024 .bf16) (r j : Fin 1024) :
    matmul dot_S1024x128_S128x1024_S1024x1024_1_0_0_1_n_n none L R (constant (F := Ideal) S1024x1024 .f32 0x00000000#32) (ix2 r j)
      = ∑ e : Fin 128, L (ix2 r e) * R (ix2 e j) := by
  refine (Ideal.matmul_constant_zero_apply dot_S1024x128_S128x1024_S1024x1024_1_0_0_1_n_n none L R (ix2 r j)).trans ?_
  rw [← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 r j) ((ValueIdx.contrEquiv1 dot_S1024x128_S128x1024_S1024x1024_1_0_0_1_n_n 128 rfl rfl).symm k) = ix2 r k := funext fun a => Fin.ext (by
    match a with
    | ⟨0, _⟩ => exact lhsQK_0 _ _
    | ⟨1, _⟩ => exact (lhsQK_1 _ _).trans hk)
  have er : dot_S1024x128_S128x1024_S1024x1024_1_0_0_1_n_n.rhsIdx (ix2 r j) ((ValueIdx.contrEquiv1 dot_S1024x128_S128x1024_S1024x1024_1_0_0_1_n_n 128 rfl rfl).symm k) = ix2 k j := funext fun a => Fin.ext (by
    match a with
    | ⟨0, _⟩ => exact (rhsQK_0 _ _).trans hk
    | ⟨1, _⟩ => exact rhsQK_1 _ _)
  rw [el, er]

theorem lhsPV_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhsPV_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhsPV_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhsPV_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of a 1024 × 1024 block with a 1024 × 128 block into zero, at (r, d). -/
theorem mm_pv (L : FVec Ideal S1024x1024 .bf16) (R : FVec Ideal S1024x128 .bf16) (r : Fin 1024) (d : Fin 128) :
    matmul dot_S1024x1024_S1024x128_S1024x128_1_0_0_1_n_n none L R (constant (F := Ideal) S1024x128 .f32 0x00000000#32) (ix2 r d)
      = ∑ j : Fin 1024, L (ix2 r j) * R (ix2 j d) := by
  refine (Ideal.matmul_constant_zero_apply dot_S1024x1024_S1024x128_S1024x128_1_0_0_1_n_n none L R (ix2 r d)).trans ?_
  rw [← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r d) ((ValueIdx.contrEquiv1 dot_S1024x1024_S1024x128_S1024x128_1_0_0_1_n_n 1024 rfl rfl).symm k) = ix2 r k := funext fun a => Fin.ext (by
    match a with
    | ⟨0, _⟩ => exact lhsPV_0 _ _
    | ⟨1, _⟩ => exact (lhsPV_1 _ _).trans hk)
  have er : dot_S1024x1024_S1024x128_S1024x128_1_0_0_1_n_n.rhsIdx (ix2 r d) ((ValueIdx.contrEquiv1 dot_S1024x1024_S1024x128_S1024x128_1_0_0_1_n_n 1024 rfl rfl).symm k) = ix2 k d := funext fun a => Fin.ext (by
    match a with
    | ⟨0, _⟩ => exact (rhsPV_0 _ _).trans hk
    | ⟨1, _⟩ => exact rhsPV_1 _ _)
  rw [el, er]

/-! ### One step of the fold over a block of logits S -/

/-- The new row maxima. -/
def gMax (S : FVec Ideal S1024x1024 .f32) (mo : Vec Ideal S1024x1 .f32) : FVec Ideal S1024x1 .f32 :=
  maximumf mo (shapeCast S1024x1 (multiReduction (F := Ideal) .maximumf [1] S1024 S 0xFF800000#32
    reduces_S1024x1024_S1024 (.inl rfl) rfl) shapeCasts_S1024_S1024x1)

/-- The rescaling factor e^(m1 - new maximum). -/
def gAlpha (S : FVec Ideal S1024x1024 .f32) (mo m1 : Vec Ideal S1024x1 .f32) : FVec Ideal S1024x1 .f32 :=
  exp (subf m1 (gMax S mo))

/-- The weights e^(logit - new maximum). -/
def gP (S : FVec Ideal S1024x1024 .f32) (mo : Vec Ideal S1024x1 .f32) : FVec Ideal S1024x1024 .f32 :=
  exp (subf S (broadcastTo S1024x1024 (gMax S mo) broadcasts_S1024x1_S1024x1024))

/-- The new normalisers. -/
def gL (S : FVec Ideal S1024x1024 .f32) (mo m1 lo : Vec Ideal S1024x1 .f32) : FVec Ideal S1024x1 .f32 :=
  shapeCast S1024x1 (addf (mulf (gAlpha S mo m1) lo)
    (shapeCast S1024x1 (multiReduction (F := Ideal) .add [1] S1024 (gP S mo) 0x00000000#32
      reduces_S1024x1024_S1024 (.inl rfl) rfl) shapeCasts_S1024_S1024x1)) shapeCasts_S1024x1_S1024x1

/-- The new weighted sums. -/
def gA (S : FVec Ideal S1024x1024 .f32) (mo m1 : Vec Ideal S1024x1 .f32) (ao : Vec Ideal S1024x128 .f32)
    (v : Vec Ideal S1x1024x128 .bf16) : FVec Ideal S1024x128 .f32 :=
  addf (mulf (broadcastTo S1024x128 (gAlpha S mo m1) broadcasts_S1024x1_S1024x128) ao)
    (matmul dot_S1024x1024_S1024x128_S1024x128_1_0_0_1_n_n none (truncf .bf16 (gP S mo) bitsLt_bf16_f32)
      (shapeCast S1024x128 v shapeCasts_S1x1024x128_S1024x128 : FVec Ideal S1024x128 .bf16)
      (constant (F := Ideal) S1024x128 .f32 0x00000000#32))

theorem gMax_apply (S : FVec Ideal S1024x1024 .f32) (mo : Vec Ideal S1024x1 .f32) (r : Fin 1024) :
    gMax S mo (ix2 r 0) = max (mo (ix2 r 0)) (Finset.univ.sup fun j : Fin 1024 => S (ix2 r j)) := by
  unfold gMax
  refine (maximumf_apply _ _ _).trans ?_
  refine congrArg (max (mo (ix2 r 0))) ?_
  exact (shapeCast_a_a1_apply _ _ r 0).trans (rowMax_apply S r)

theorem gAlpha_apply (S : FVec Ideal S1024x1024 .f32) (mo m1 : Vec Ideal S1024x1 .f32) (r : Fin 1024) :
    gAlpha S mo m1 (ix2 r 0) = Ideal.exp (m1 (ix2 r 0) - gMax S mo (ix2 r 0)) := rfl

theorem gP_apply (S : FVec Ideal S1024x1024 .f32) (mo : Vec Ideal S1024x1 .f32) (r j : Fin 1024) :
    gP S mo (ix2 r j) = Ideal.exp (S (ix2 r j) - gMax S mo (ix2 r 0)) := by
  unfold gP
  show Ideal.exp (S (ix2 r j) - broadcastTo S1024x1024 (gMax S mo) broadcasts_S1024x1_S1024x1024 (ix2 r j)) = _
  rw [broadcastTo_a1_ab_apply]

theorem gL_apply (S : FVec Ideal S1024x1024 .f32) (mo m1 lo : Vec Ideal S1024x1 .f32) (r : Fin 1024) :
    gL S mo m1 lo (ix2 r 0) = gAlpha S mo m1 (ix2 r 0) * lo (ix2 r 0) + ∑ j : Fin 1024, gP S mo (ix2 r j) := by
  unfold gL
  rw [shapeCast_self]
  refine (addf_apply _ _ _).trans ?_
  refine congrArg (gAlpha S mo m1 (ix2 r 0) * lo (ix2 r 0) + ·) ?_
  exact (shapeCast_a_a1_apply _ _ r 0).trans (rowSum_apply (gP S mo) r)

theorem gA_apply (S : FVec Ideal S1024x1024 .f32) (mo m1 : Vec Ideal S1024x1 .f32) (ao : Vec Ideal S1024x128 .f32)
    (v : Vec Ideal S1x1024x128 .bf16) (r : Fin 1024) (d : Fin 128) :
    gA S mo m1 ao v (ix2 r d)
      = gAlpha S mo m1 (ix2 r 0) * ao (ix2 r d) + ∑ j : Fin 1024, gP S mo (ix2 r j) * v (ix3 0 j d) := by
  unfold gA
  refine (addf_apply _ _ _).trans ?_
  have h1 : mulf (broadcastTo S1024x128 (gAlpha S mo m1) broadcasts_S1024x1_S1024x128) ao (ix2 r d)
      = gAlpha S mo m1 (ix2 r 0) * ao (ix2 r d) := by
    refine (mulf_apply _ _ _).trans ?_
    rw [broadcastTo_a1_ab_apply]
  rw [h1]
  refine congrArg (gAlpha S mo m1 (ix2 r 0) * ao (ix2 r d) + ·) ?_
  refine (mm_pv _ _ r d).trans ?_
  refine Finset.sum_congr rfl fun j _ => ?_
  rw [shapeCast_1ab_ab_apply]
  rfl

/-- Row r, feature d of one step over logits that read s r j at (r, j): one online-softmax update. -/
theorem g_upd (S : FVec Ideal S1024x1024 .f32) (s : Fin 1024 → Fin 1024 → EReal)
    (hS : ∀ r j, S (ix2 r j) = s r j) (v : Vec Ideal S1x1024x128 .bf16) (mo lo : Vec Ideal S1024x1 .f32)
    (ao : Vec Ideal S1024x128 .f32) (r : Fin 1024) (d : Fin 128) :
    (gMax S mo (ix2 r 0), gL S mo mo lo (ix2 r 0), gA S mo mo ao v (ix2 r d))
      = Online.upd (fun j => s r j) (fun j => v (ix3 0 j d)) (mo (ix2 r 0), lo (ix2 r 0), ao (ix2 r d)) := by
  have hm : gMax S mo (ix2 r 0) = max (mo (ix2 r 0)) (Finset.univ.sup fun j : Fin 1024 => s r j) := by
    rw [gMax_apply]; simp only [hS]
  have hp : ∀ j, gP S mo (ix2 r j) = Ideal.exp (s r j - max (mo (ix2 r 0)) (Finset.univ.sup fun j : Fin 1024 => s r j)) :=
    fun j => by rw [gP_apply, hS, hm]
  have ha : gAlpha S mo mo (ix2 r 0)
      = Ideal.exp (mo (ix2 r 0) - max (mo (ix2 r 0)) (Finset.univ.sup fun j : Fin 1024 => s r j)) := by
    rw [gAlpha_apply, hm]
  unfold Online.upd
  refine Prod.ext hm (Prod.ext ?_ ?_)
  · show gL S mo mo lo (ix2 r 0) = _
    rw [gL_apply, ha]
    simp only [hp]
  · show gA S mo mo ao v (ix2 r d) = _
    rw [gA_apply, ha]
    simp only [hp]

/-! ### The block of logits, plain and causally masked -/

/-- The logit of row r against column j of a q block and a k block. -/
def tileLogit (q k : Vec Ideal S1x1024x128 .bf16) (r j : Fin 1024) : EReal :=
  ∑ e : Fin 128, q (ix3 0 r e) * k (ix3 0 j e)

theorem pay9_apply (q k : Vec Ideal S1x1024x128 .bf16) (r j : Fin 1024) :
    k1_pay9 (F := Ideal) q k (ix2 r j) = tileLogit q k r j := by
  unfold k1_pay9 tileLogit
  dsimp only
  refine (mm_qk _ _ r j).trans ?_
  refine Finset.sum_congr rfl fun e _ => ?_
  rw [shapeCast_1ab_ab_apply, transpose_ix2_apply, shapeCast_1ab_ab_apply]

/-- The masking constant is ⊥ at the ideal values. -/
theorem neg_big : Named.named (F := Ideal) κ "neg_big" (φ := .f32) 0xFF333332#32 = ⊥ :=
  IdealRules.named_const.ideal_named_scalar _ _ _ _ rfl

/-- With the query tile and the key tile the same tile (a number below 4), the comparison
    key·1024 + j ≤ query·1024 + r on signed words is j ≤ r. -/
theorem mask_apply (vq vk : BitVec 32) (hd : vq = vk) (hlt : vq.toNat < 4) (r j : Fin 1024) :
    cmpi .sle (addi (broadcast S1024x1024 (Scalar.muli vk 1024#32)) (iota .tc S1024x1024 32 [1] iota_S1024x1024_d1_w32))
      (addi (broadcast S1024x1024 (Scalar.muli vq 1024#32)) (iota .tc S1024x1024 32 [0] iota_S1024x1024_d0_w32)) (ix2 r j)
      = if j.val ≤ r.val then 1#1 else 0#1 := by
  subst hd
  show IntOp.cmpi .sle (IntOp.addi (Scalar.muli vq 1024#32) (iota .tc S1024x1024 32 [1] iota_S1024x1024_d1_w32 (ix2 r j)))
      (IntOp.addi (Scalar.muli vq 1024#32) (iota .tc S1024x1024 32 [0] iota_S1024x1024_d0_w32 (ix2 r j))) = _
  rw [iota_single_apply, iota_single_apply]
  show IntOp.cmpi .sle (vq * 1024#32 + BitVec.ofNat 32 j.val) (vq * 1024#32 + BitVec.ofNat 32 r.val) = _
  have hj := j.isLt
  have hr := r.isLt
  have ha : (vq * 1024#32 + BitVec.ofNat 32 j.val).toNat = vq.toNat * 1024 + j.val := by
    rw [BitVec.toNat_add, BitVec.toNat_mul, BitVec.toNat_ofNat, BitVec.toNat_ofNat]
    omega
  have hb : (vq * 1024#32 + BitVec.ofNat 32 r.val).toNat = vq.toNat * 1024 + r.val := by
    rw [BitVec.toNat_add, BitVec.toNat_mul, BitVec.toNat_ofNat, BitVec.toNat_ofNat]
    omega
  have hiff := StableHlo.Predicate.sle_iff_toNat (a := vq * 1024#32 + BitVec.ofNat 32 j.val)
    (b := vq * 1024#32 + BitVec.ofNat 32 r.val) (by omega) (by omega)
  by_cases h : j.val ≤ r.val
  · rw [if_pos h]
    exact hiff.2 (by omega)
  · rw [if_neg h]
    exact eq_zero_of_ne_one fun h1 => h (by have := hiff.1 h1; omega)

theorem pay15_eq (vq vk : BitVec 32) (q k : Vec Ideal S1x1024x128 .bf16) :
    k1_pay15 (F := Ideal) vq vk q k
      = select (cmpi .sle
          (addi (broadcast S1024x1024 (Scalar.muli vk 1024#32)) (iota .tc S1024x1024 32 [1] iota_S1024x1024_d1_w32))
          (addi (broadcast S1024x1024 (Scalar.muli vq 1024#32)) (iota .tc S1024x1024 32 [0] iota_S1024x1024_d0_w32)))
        (k1_pay9 (F := Ideal) q k)
        (broadcast S1024x1024 (Named.named (F := Ideal) κ "neg_big" (φ := .f32) 0xFF333332#32)) := rfl

theorem pay15_apply (vq vk : BitVec 32) (hd : vq = vk) (hlt : vq.toNat < 4) (q k : Vec Ideal S1x1024x128 .bf16)
    (r j : Fin 1024) :
    k1_pay15 (F := Ideal) vq vk q k (ix2 r j) = if j.val ≤ r.val then tileLogit q k r j else ⊥ := by
  rw [pay15_eq]
  refine (select_apply _ _ _ _).trans ?_
  rw [mask_apply vq vk hd hlt r j, pay9_apply, broadcast_apply, neg_big]
  split_ifs
  · exact select_one _ _
  · exact select_zero _ _

/-! ### The payloads are the step over their block of logits -/

theorem pay10_eq (q k : Vec Ideal S1x1024x128 .bf16) (mo : Vec Ideal S1024x1 .f32) :
    k1_pay10 (F := Ideal) q k mo = gMax (k1_pay9 (F := Ideal) q k) mo := rfl

theorem pay13_eq (q k : Vec Ideal S1x1024x128 .bf16) (mo m1 lo : Vec Ideal S1024x1 .f32) :
    k1_pay13 (F := Ideal) q k mo m1 lo = gL (k1_pay9 (F := Ideal) q k) mo m1 lo := rfl

theorem pay14_eq (q k : Vec Ideal S1x1024x128 .bf16) (mo m1 : Vec Ideal S1024x1 .f32) (ao : Vec Ideal S1024x128 .f32)
    (v : Vec Ideal S1x1024x128 .bf16) :
    k1_pay14 (F := Ideal) q k mo m1 ao v = gA (k1_pay9 (F := Ideal) q k) mo m1 ao v := rfl

theorem pay16_eq (vq vk : BitVec 32) (q k : Vec Ideal S1x1024x128 .bf16) (mo : Vec Ideal S1024x1 .f32) :
    k1_pay16 (F := Ideal) vq vk q k mo = gMax (k1_pay15 (F := Ideal) vq vk q k) mo := rfl

theorem pay19_eq (vq vk : BitVec 32) (q k : Vec Ideal S1x1024x128 .bf16) (mo m1 lo : Vec Ideal S1024x1 .f32) :
    k1_pay19 (F := Ideal) vq vk q k mo m1 lo = gL (k1_pay15 (F := Ideal) vq vk q k) mo m1 lo := rfl

theorem pay6_eq (vq vk : BitVec 32) (q k : Vec Ideal S1x1024x128 .bf16) (mo m1 : Vec Ideal S1024x1 .f32)
    (ao : Vec Ideal S1024x128 .f32) (v : Vec Ideal S1x1024x128 .bf16) :
    k1_pay6 (F := Ideal) (k1_pay18 vq vk q k mo) ao (k1_pay20 vq vk q k mo m1) v
      = shapeCast S1024x128 (gA (k1_pay15 (F := Ideal) vq vk q k) mo m1 ao v) shapeCasts_S1024x128_S1024x128 := rfl

/-! ### The statements -/

theorem reset_mx (r : Fin 1024) : k1_pay1 (F := Ideal) (ix2 r 0) = ⊥ := by
  unfold k1_pay1
  rw [shapeCast_self]
  show Ideal.ofBits .f32 0xFF800000#32 = ⊥
  simp [Ideal.ofBits, Ideal.ieee]

theorem reset_l (r : Fin 1024) : k1_pay2 (F := Ideal) (ix2 r 0) = 0 := by
  unfold k1_pay2
  rw [shapeCast_self]
  exact Ideal.ofBits_zero_f32

theorem reset_acc (r : Fin 1024) (d : Fin 128) : k1_pay3 (F := Ideal) (ix2 r d) = 0 := by
  unfold k1_pay3
  rw [shapeCast_self]
  exact Ideal.ofBits_zero_f32

/-- The off-diagonal step, row by row and feature by feature, is one online-softmax update. -/
theorem off_upd (q k v : Vec Ideal S1x1024x128 .bf16) (mo lo : Vec Ideal S1024x1 .f32)
    (ao : Vec Ideal S1024x128 .f32) (r : Fin 1024) (d : Fin 128) :
    (k1_pay5 (F := Ideal) (k1_pay10 q k mo) (ix2 r 0), k1_pay13 (F := Ideal) q k mo mo lo (ix2 r 0),
      k1_pay4 (F := Ideal) (k1_pay14 q k mo mo ao v) (ix2 r d))
      = Online.upd (fun j => tileLogit q k r j) (fun j => v (ix3 0 j d)) (mo (ix2 r 0), lo (ix2 r 0), ao (ix2 r d)) := by
  rw [pay10_eq, pay13_eq, pay14_eq]
  unfold k1_pay5 k1_pay4
  rw [shapeCast_self, shapeCast_self]
  exact g_upd (k1_pay9 (F := Ideal) q k) (tileLogit q k) (pay9_apply q k) v mo lo ao r d

/-- The diagonal step with both table words equal (a tile number below 4): the same update over the causally masked
    tile. -/
theorem diag_upd (vq vk : BitVec 32) (hd : vq = vk) (hlt : vq.toNat < 4) (q k v : Vec Ideal S1x1024x128 .bf16)
    (mo lo : Vec Ideal S1024x1 .f32) (ao : Vec Ideal S1024x128 .f32) (r : Fin 1024) (d : Fin 128) :
    (k1_pay7 (F := Ideal) (k1_pay16 vq vk q k mo) (ix2 r 0), k1_pay19 (F := Ideal) vq vk q k mo mo lo (ix2 r 0),
      k1_pay6 (F := Ideal) (k1_pay18 vq vk q k mo) ao (k1_pay20 vq vk q k mo mo) v (ix2 r d))
      = Online.upd (fun j => if j.val ≤ r.val then tileLogit q k r j else ⊥) (fun j => v (ix3 0 j d))
          (mo (ix2 r 0), lo (ix2 r 0), ao (ix2 r d)) := by
  rw [pay16_eq, pay19_eq, pay6_eq]
  unfold k1_pay7
  rw [shapeCast_self, shapeCast_self]
  exact g_upd (k1_pay15 (F := Ideal) vq vk q k) (fun r j => if j.val ≤ r.val then tileLogit q k r j else ⊥)
    (pay15_apply vq vk hd hlt q k) v mo lo ao r d

/-- The output block is the weighted sum over the normaliser. -/
theorem out_div (a : Vec Ideal S1024x128 .f32) (l : Vec Ideal S1024x1 .f32) (r : Fin 1024) (d : Fin 128) :
    k1_pay8 (F := Ideal) a l (ix3 0 r d) = Ideal.div (a (ix2 r d)) (l (ix2 r 0)) := by
  unfold k1_pay8
  rw [shapeCast_ab_1ab_apply]
  refine (divf_apply _ _ _).trans ?_
  rw [broadcastTo_a1_ab_apply]

end Cert.KernelIdeal.HandValue
-- ==== Proof.LibBlockSum.lean ====
/-
  A sum over n·b terms taken block by block, and an accumulator that adds one block's sum per step.

  Position t·b + r is the r-th term of block t. Over a commutative monoid the sum of all n·b terms is the sum over the
  blocks of each block's sum: this is only a re-indexing of the positions by (block, place in block). An accumulator
  that holds 0 + g 0 after step 0 and adds g (k+1) at step k+1 holds g 0 + … + g k after step k; with g t the sum of
  block t, after the last step it holds the sum of all terms.
-/
import Mathlib.Algebra.BigOperators.Fin
import Mathlib.Logic.Equiv.Fin.Basic

namespace Cert.BlockSum

open scoped BigOperators

variable {M : Type*} [AddCommMonoid M]

/-- Among `N = n * b` positions, the one of block `t` at place `r`: `t * b + r`. -/
def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

/-- The sum of all terms is the sum over the blocks of each block's sum. -/
theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

/-- An accumulator that holds `0 + g 0` after step 0 and adds `g (k + 1)` at step `k + 1` holds, after step `k`,
    the sum of `g 0, …, g k`. -/
theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

/-- After its last step the accumulator holds the sum of all the `g t`. -/
theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

/-- An accumulator that adds block `t`'s sum at step `t`, starting from `0`, holds after the last of the `n + 1`
    steps the sum of all `(n + 1) * b` terms. -/
theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.Bridge.lean ====
/-
  The reference's row of attention, taken in key tiles of 1024, is the online-softmax run over the tiles.

  The reference scales the logit (Σ_d q·k)·σ, masks every key after the query, and normalises by one global row maximum
  and one global normaliser.  Tile by tile one scales q first, visits for the query tile qt only the key tiles 0..qt,
  masks only the diagonal tile (column j kept iff j ≤ r, r the row inside the tile) and runs the online update over
  them.  The key tiles after qt are wholly masked (weight e^(-∞) = 0, no contribution to the maximum), the tiles before qt
  wholly unmasked, and the diagonal tile masked exactly where j > r; a positive finite factor moves across a finite sum.
-/
import proofs.«420285_j7258494730366_3_alg».proof.Proof.Spec
import proofs.«420285_j7258494730366_3_alg».proof.Proof.Online
import proofs.«420285_j7258494730366_3_alg».proof.Proof.LibBlockSum
import Idealize.ShloMosaic.PureOps.Ideal.Laws

noncomputable section

namespace Cert.Attn.Bridge

open Idealize.ShloMosaic Idealize.ShloMosaic.ValueIdx Cert.Attn

/-- The global row of row r of query tile qt. -/
def rowOf (qt : Fin 4) (r : Fin 1024) : Fin 4096 := ⟨qt.val * 1024 + r.val, by omega⟩

/-- The global key column of column j of key tile k (total in k: reduced mod 4096, which changes nothing for k < 4). -/
def colOf (k : ℕ) (j : Fin 1024) : Fin 4096 := ⟨(k * 1024 + j.val) % 4096, Nat.mod_lt _ (by decide)⟩

/-- The scaled query entry. -/
def qs (x : SX.Idx → EReal) (wq : SW.Idx → EReal) (b : Fin 4) (t : Fin 4096) (d : Fin 128) : EReal :=
  proj x wq b t d * scale

/-- The logit of the scaled query against a key. -/
def klogit (x : SX.Idx → EReal) (wq wk : SW.Idx → EReal) (b : Fin 4) (t s : Fin 4096) : EReal :=
  ∑ d : Fin 128, qs x wq b t d * proj x wk b s d

/-- Tile k of row (qt, r): its logits, the diagonal tile causally masked. -/
def tileS (x : SX.Idx → EReal) (wq wk : SW.Idx → EReal) (b : Fin 4) (qt : Fin 4) (r : Fin 1024) (k : ℕ)
    (j : Fin 1024) : EReal :=
  if k < qt.val then klogit x wq wk b (rowOf qt r) (colOf k j)
  else if j.val ≤ r.val then klogit x wq wk b (rowOf qt r) (colOf k j) else ⊥

/-- Tile k's values for output feature d. -/
def tileV (x : SX.Idx → EReal) (wv : SW.Idx → EReal) (b : Fin 4) (d : Fin 128) (k : ℕ) (j : Fin 1024) : EReal :=
  proj x wv b (colOf k j) d

/-! ### Realness -/

/-- σ is the positive dyadic 11863283 · 2^(-27). -/
theorem scale_eq : scale = (((11863283 : ℝ) * (2 : ℝ) ^ (-27 : ℤ) : ℝ) : EReal) := by
  simp [scale, Ideal.ofBits, Ideal.ieee, -EReal.coe_mul]

theorem scale_pos_real : ∃ σ : ℝ, 0 < σ ∧ scale = (σ : EReal) := ⟨_, by positivity, scale_eq⟩

/-- A projection of real arrays is a real. -/
theorem proj_real (x : SX.Idx → EReal) (w : SW.Idx → EReal)
    (hx : ∀ i, ∃ r : ℝ, x i = (r : EReal)) (hw : ∀ i, ∃ r : ℝ, w i = (r : EReal))
    (b : Fin 4) (t : Fin 4096) (d : Fin 128) : ∃ r : ℝ, proj x w b t d = (r : EReal) := by
  choose xr hxr using hx
  choose wr hwr using hw
  refine ⟨∑ c : Fin 1024, xr (ix3 b t c) * wr (ix2 c d), ?_⟩
  unfold proj
  rw [Online.coe_sum]
  exact Finset.sum_congr rfl fun c _ => by rw [hxr, hwr, EReal.coe_mul]

/-- A logit of real arrays is a real. -/
theorem klogit_real (x : SX.Idx → EReal) (wq wk : SW.Idx → EReal)
    (hx : ∀ i, ∃ r : ℝ, x i = (r : EReal)) (hq : ∀ i, ∃ r : ℝ, wq i = (r : EReal))
    (hk : ∀ i, ∃ r : ℝ, wk i = (r : EReal))
    (b : Fin 4) (t s : Fin 4096) : ∃ r : ℝ, klogit x wq wk b t s = (r : EReal) := by
  obtain ⟨σ, _, hσ⟩ := scale_pos_real
  choose qr hqr using fun d => proj_real x wq hx hq b t d
  choose kr hkr using fun d => proj_real x wk hx hk b s d
  refine ⟨∑ d : Fin 128, qr d * σ * kr d, ?_⟩
  unfold klogit qs
  rw [Online.coe_sum]
  exact Finset.sum_congr rfl fun d _ => by rw [hqr, hkr, hσ, EReal.coe_mul, EReal.coe_mul]

/-- Scaling the query first or the logit last is the same: σ is a positive real, and such a factor moves across a
    finite sum. -/
theorem klogit_eq_logit (x : SX.Idx → EReal) (wq wk : SW.Idx → EReal) (b : Fin 4) (t s : Fin 4096) :
    klogit x wq wk b t s = logit x wq wk b t s := by
  obtain ⟨σ, hσ0, hσ⟩ := scale_pos_real
  have h : (∑ d : Fin 128, proj x wq b t d * proj x wk b s d) * scale
      = ∑ d : Fin 128, scale * (proj x wq b t d * proj x wk b s d) := by
    rw [mul_comm, hσ]
    exact Online.mul_sum _ (by exact_mod_cast hσ0.le) (EReal.coe_ne_top _) _ _
  unfold klogit qs logit
  rw [h]
  exact Finset.sum_congr rfl fun d _ => by rw [mul_comm (proj x wq b t d) scale, mul_assoc]

theorem tileS_ne_top (x : SX.Idx → EReal) (wq wk : SW.Idx → EReal)
    (hx : ∀ i, ∃ r : ℝ, x i = (r : EReal)) (hq : ∀ i, ∃ r : ℝ, wq i = (r : EReal))
    (hk : ∀ i, ∃ r : ℝ, wk i = (r : EReal))
    (b : Fin 4) (qt : Fin 4) (r : Fin 1024) (k : ℕ) (j : Fin 1024) : tileS x wq wk b qt r k j ≠ ⊤ := by
  obtain ⟨l, hl⟩ := klogit_real x wq wk hx hq hk b (rowOf qt r) (colOf k j)
  unfold tileS
  rw [hl]
  split_ifs
  · exact EReal.coe_ne_top _
  · exact EReal.coe_ne_top _
  · exact bot_ne_top

theorem tileS_zero_real (x : SX.Idx → EReal) (wq wk : SW.Idx → EReal)
    (hx : ∀ i, ∃ r : ℝ, x i = (r : EReal)) (hq : ∀ i, ∃ r : ℝ, wq i = (r : EReal))
    (hk : ∀ i, ∃ r : ℝ, wk i = (r : EReal))
    (b : Fin 4) (qt : Fin 4) (r : Fin 1024) : ∃ j, tileS x wq wk b qt r 0 j ≠ ⊥ := by
  refine ⟨⟨0, by omega⟩, ?_⟩
  obtain ⟨l, hl⟩ := klogit_real x wq wk hx hq hk b (rowOf qt r) (colOf 0 ⟨0, by omega⟩)
  unfold tileS
  rw [hl, if_pos (Nat.zero_le _)]
  split_ifs
  · exact EReal.coe_ne_bot _
  · exact EReal.coe_ne_bot _

theorem tileV_real (x : SX.Idx → EReal) (wv : SW.Idx → EReal)
    (hx : ∀ i, ∃ r : ℝ, x i = (r : EReal)) (hv : ∀ i, ∃ r : ℝ, wv i = (r : EReal))
    (b : Fin 4) (d : Fin 128) (k : ℕ) (j : Fin 1024) : ∃ r : ℝ, tileV x wv b d k j = (r : EReal) :=
  proj_real x wv hx hv b (colOf k j) d

/-! ### A row of 4096 keys as four tiles of 1024 -/

theorem colOf_eq_pos (k : Fin 4) (j : Fin 1024) : Cert.BlockSum.pos 4 1024 rfl k j = colOf k.val j := by
  apply Fin.ext
  show k.val * 1024 + j.val = (k.val * 1024 + j.val) % 4096
  have := k.isLt; have := j.isLt
  omega

theorem sum_blocks4 (f : Fin 4096 → EReal) :
    ∑ i, f i = ∑ k : Fin 4, ∑ j : Fin 1024, f (colOf k.val j) := by
  rw [Cert.BlockSum.sum_blocks 4 1024 rfl f]
  simp only [colOf_eq_pos]

theorem sup_blocks4 (f : Fin 4096 → EReal) :
    Finset.univ.sup f = Finset.univ.sup fun k : Fin 4 => Finset.univ.sup fun j : Fin 1024 => f (colOf k.val j) := by
  apply le_antisymm
  · refine Finset.sup_le fun i _ => ?_
    have hi := i.isLt
    obtain ⟨k0, j0, rfl⟩ : ∃ (k0 : Fin 4) (j0 : Fin 1024), i = colOf k0.val j0 := by
      refine ⟨⟨i.val / 1024, by omega⟩, ⟨i.val % 1024, by omega⟩, Fin.ext ?_⟩
      show i.val = (i.val / 1024 * 1024 + i.val % 1024) % 4096
      omega
    exact le_trans
      (Finset.le_sup (f := fun j : Fin 1024 => f (colOf k0.val j)) (Finset.mem_univ j0))
      (Finset.le_sup (f := fun k : Fin 4 => Finset.univ.sup fun j : Fin 1024 => f (colOf k.val j))
        (Finset.mem_univ k0))
  · exact Finset.sup_le fun k _ => Finset.sup_le fun j _ => Finset.le_sup (Finset.mem_univ _)

/-- A sum over four tiles whose terms vanish after tile qt is the sum over the tiles 0..qt. -/
theorem sum_fin4_cut (g : ℕ → EReal) (qt : Fin 4) :
    ∑ k : Fin 4, (if k.val ≤ qt.val then g k.val else 0) = ∑ k ∈ Finset.range (qt.val + 1), g k := by
  rw [Fin.sum_univ_eq_sum_range (fun k => if k ≤ qt.val then g k else 0) 4, ← Finset.sum_filter]
  refine Finset.sum_congr ?_ fun _ _ => rfl
  ext k
  have := qt.isLt
  simp only [Finset.mem_filter, Finset.mem_range]
  omega

/-- The same for the maximum. -/
theorem sup_fin4_cut (g : ℕ → EReal) (qt : Fin 4) :
    (Finset.univ.sup fun k : Fin 4 => if k.val ≤ qt.val then g k.val else ⊥) = (Finset.range (qt.val + 1)).sup g := by
  have hq := qt.isLt
  apply le_antisymm
  · refine Finset.sup_le fun k _ => ?_
    split_ifs with h
    · exact Finset.le_sup (f := g) (Finset.mem_range.2 (by omega))
    · exact bot_le
  · refine Finset.sup_le fun k hk => ?_
    have hk' := Finset.mem_range.1 hk
    have h := Finset.le_sup (f := fun k : Fin 4 => if k.val ≤ qt.val then g k.val else ⊥)
      (Finset.mem_univ (⟨k, by omega⟩ : Fin 4))
    rwa [if_pos (show k ≤ qt.val by omega)] at h

theorem sum_split (f : Fin 4096 → EReal) (g : ℕ → Fin 1024 → EReal) (qt : Fin 4)
    (h : ∀ (k : Fin 4) (j : Fin 1024), f (colOf k.val j) = if k.val ≤ qt.val then g k.val j else 0) :
    ∑ i, f i = ∑ k ∈ Finset.range (qt.val + 1), ∑ j, g k j := by
  rw [sum_blocks4, ← sum_fin4_cut (fun k => ∑ j, g k j) qt]
  refine Finset.sum_congr rfl fun k _ => ?_
  split_ifs with hk
  · exact Finset.sum_congr rfl fun j _ => by rw [h, if_pos hk]
  · exact Finset.sum_eq_zero fun j _ => by rw [h, if_neg hk]

theorem sup_split (f : Fin 4096 → EReal) (g : ℕ → Fin 1024 → EReal) (qt : Fin 4)
    (h : ∀ (k : Fin 4) (j : Fin 1024), f (colOf k.val j) = if k.val ≤ qt.val then g k.val j else ⊥) :
    Finset.univ.sup f = (Finset.range (qt.val + 1)).sup fun k => Finset.univ.sup (g k) := by
  rw [sup_blocks4, ← sup_fin4_cut (fun k => Finset.univ.sup (g k)) qt]
  refine Finset.sup_congr rfl fun k _ => ?_
  split_ifs with hk
  · exact Finset.sup_congr rfl fun j _ => by rw [h, if_pos hk]
  · exact le_antisymm (Finset.sup_le fun j _ => by rw [h, if_neg hk]) bot_le

/-! ### The masked row, tile by tile -/

/-- Key tile k of row (qt, r): before qt unmasked, at qt masked where j > r, after qt wholly masked. -/
theorem masked_tile (x : SX.Idx → EReal) (wq wk : SW.Idx → EReal) (b : Fin 4) (qt : Fin 4) (r : Fin 1024)
    (k : Fin 4) (j : Fin 1024) :
    masked x wq wk b (rowOf qt r) (colOf k.val j)
      = if k.val ≤ qt.val then tileS x wq wk b qt r k.val j else ⊥ := by
  have hk := k.isLt; have hj := j.isLt; have hr := r.isLt; have hq := qt.isLt
  have hc : (colOf k.val j).val = k.val * 1024 + j.val := by
    show (k.val * 1024 + j.val) % 4096 = _
    omega
  have hrow : (rowOf qt r).val = qt.val * 1024 + r.val := rfl
  unfold masked tileS
  rw [hc, hrow, ← klogit_eq_logit]
  by_cases h1 : k.val < qt.val
  · rw [if_pos (by omega), if_pos (by omega), if_pos h1]
  · by_cases h2 : k.val ≤ qt.val
    · rw [if_pos h2, if_neg h1]
      by_cases h3 : j.val ≤ r.val
      · rw [if_pos (by omega), if_pos h3]
      · rw [if_neg (by omega), if_neg h3]
    · rw [if_neg (by omega), if_neg h2]

theorem attnAt_eq_run (x : SX.Idx → EReal) (wq wk wv : SW.Idx → EReal)
    (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal))
    (b : Fin 4) (qt : Fin 4) (r : Fin 1024) (d : Fin 128) :
    attnAt x wq wk wv b (rowOf qt r) d
      = Ideal.div (Online.run (tileS x wq wk b qt r) (tileV x wv b d) (qt.val + 1)).2.2
          (Online.run (tileS x wq wk b qt r) (tileV x wv b d) (qt.val + 1)).2.1 := by
  have hs : ∀ k, k < qt.val + 1 → ∀ j, tileS x wq wk b qt r k j ≠ ⊤ :=
    fun k _ j => tileS_ne_top x wq wk hx hq hk b qt r k j
  have h0 : ∃ j, tileS x wq wk b qt r 0 j ≠ ⊥ := tileS_zero_real x wq wk hx hq hk b qt r
  have hV : ∀ k, k < qt.val + 1 → ∀ j, ∃ l : ℝ, tileV x wv b d k j = (l : EReal) :=
    fun k _ j => tileV_real x wv hx hv b d k j
  have hmax : rowMax x wq wk b (rowOf qt r) = Online.supTo (tileS x wq wk b qt r) (qt.val + 1) := by
    unfold rowMax Online.supTo
    exact sup_split _ (tileS x wq wk b qt r) qt (masked_tile x wq wk b qt r)
  have hw : ∀ (k : Fin 4) (j : Fin 1024), weight x wq wk b (rowOf qt r) (colOf k.val j)
      = if k.val ≤ qt.val then
          Ideal.exp (tileS x wq wk b qt r k.val j - Online.supTo (tileS x wq wk b qt r) (qt.val + 1))
        else 0 := by
    intro k j
    unfold weight
    rw [masked_tile, hmax]
    split_ifs
    · rfl
    · rw [EReal.bot_sub, Ideal.exp_bot]
  have hden : denom x wq wk b (rowOf qt r)
      = ∑ k ∈ Finset.range (qt.val + 1), ∑ j,
          Ideal.exp (tileS x wq wk b qt r k j - Online.supTo (tileS x wq wk b qt r) (qt.val + 1)) := by
    unfold denom
    exact sum_split _ _ qt hw
  obtain ⟨L, hL0, hL⟩ := Online.denom_pos (tileS x wq wk b qt r) (tileV x wv b d) (qt.val + 1) (Nat.succ_pos _) hs h0 hV
  rw [Online.run_div (tileS x wq wk b qt r) (tileV x wv b d) (qt.val + 1) (Nat.succ_pos _) hs h0 hV]
  unfold attnAt
  rw [hden]
  refine sum_split _ (fun k j => Ideal.div
    (Ideal.exp (tileS x wq wk b qt r k j - Online.supTo (tileS x wq wk b qt r) (qt.val + 1)))
    (∑ k' ∈ Finset.range (qt.val + 1), ∑ j',
      Ideal.exp (tileS x wq wk b qt r k' j' - Online.supTo (tileS x wq wk b qt r) (qt.val + 1)))
    * tileV x wv b d k j) qt ?_
  intro k j
  rw [hw]
  split_ifs
  · rfl
  · rw [hL, Ideal.div_coe hL0.ne', zero_mul, zero_mul]

end Cert.Attn.Bridge
-- ==== Proof.AttnTiles.lean ====
/-
  What the attention call leaves, as a function of the three arrays it finds.

  The call finds the scaled queries Q, the keys K and the values W as arrays [4, 4096, 128].  For the query row r of query
  tile qt it visits the key tiles k = 0 .. qt in order; tile k's logits are the dot products of the query row with the
  tile's 1024 key rows, the diagonal tile k = qt causally masked (column j kept iff j ≤ r), and its values the tile's
  1024 value rows.  Folding the tiles by the online-softmax update from (-∞, 0, 0) and dividing the weighted sum by the
  normaliser gives the output entry.  The ten steps of a batch visit the pairs (qt, k) in the order of the two tables.
-/
import proofs.«420285_j7258494730366_3_alg».proof.Proof.Spec
import proofs.«420285_j7258494730366_3_alg».proof.Proof.Online
import proofs.«420285_j7258494730366_3_alg».proof.Proof.Bridge

noncomputable section

namespace Cert.Attn.Tiles

open Idealize.ShloMosaic Idealize.ShloMosaic.ValueIdx Cert.Attn Cert.Attn.Bridge

/-- The query tile and the key tile of step s of a batch (s = 0 .. 9): the ten pairs with ki ≤ qi, ki ascending within qi. -/
def qiOf : ℕ → ℕ
  | 0 => 0 | 1 => 1 | 2 => 1 | 3 => 2 | 4 => 2 | 5 => 2 | 6 => 3 | 7 => 3 | 8 => 3 | _ => 3
def kiOf : ℕ → ℕ
  | 0 => 0 | 1 => 0 | 2 => 1 | 3 => 0 | 4 => 1 | 5 => 2 | 6 => 0 | 7 => 1 | 8 => 2 | _ => 3

/-- Tile k of row (qt, r) of batch b, read off the arrays: its logits (the diagonal tile causally masked) -/
def arrS (Q K : SO.Idx → EReal) (b : Fin 4) (qt : Fin 4) (r : Fin 1024) (k : ℕ) (j : Fin 1024) : EReal :=
  if k < qt.val then ∑ e : Fin 128, Q (ix3 b (rowOf qt r) e) * K (ix3 b (colOf k j) e)
  else if j.val ≤ r.val then ∑ e : Fin 128, Q (ix3 b (rowOf qt r) e) * K (ix3 b (colOf k j) e) else ⊥
/-- and, for output feature d, its values. -/
def arrV (W : SO.Idx → EReal) (b : Fin 4) (d : Fin 128) (k : ℕ) (j : Fin 1024) : EReal := W (ix3 b (colOf k j) d)

/-- The entry the call leaves at row (qt, r) of batch b, feature d. -/
def outAt (Q K W : SO.Idx → EReal) (b : Fin 4) (qt : Fin 4) (r : Fin 1024) (d : Fin 128) : EReal :=
  Ideal.div (Online.run (arrS Q K b qt r) (arrV W b d) (qt.val + 1)).2.2 (Online.run (arrS Q K b qt r) (arrV W b d) (qt.val + 1)).2.1

/-- The whole array: row t of a batch is row t % 1024 of query tile t / 1024. -/
def attnG (Q K W : SO.Idx → EReal) : SO.Idx → EReal := fun i =>
  outAt Q K W (i 0) ⟨(i 1).val / 1024, by have h : (i 1).val < 4096 := (i 1).isLt; omega⟩ ⟨(i 1).val % 1024, Nat.mod_lt _ (by decide)⟩ (i 2)

theorem attnG_apply (Q K W : SO.Idx → EReal) (b : Fin 4) (qt : Fin 4) (r : Fin 1024) (d : Fin 128) :
    attnG Q K W (ix3 b (rowOf qt r) d) = outAt Q K W b qt r d := by
  have h1 : (qt.val * 1024 + r.val) / 1024 = qt.val := by have := r.isLt; omega
  have h2 : (qt.val * 1024 + r.val) % 1024 = r.val := by have := r.isLt; omega
  show outAt Q K W b ⟨(qt.val * 1024 + r.val) / 1024, _⟩ ⟨(qt.val * 1024 + r.val) % 1024, _⟩ d = _
  congr 1
  · exact Fin.ext h1
  · exact Fin.ext h2

/-- On the arrays the projection call leaves — Q the projected queries times σ, K and W the projected keys and values — the
    tiles are the specification's, so on real inputs the array is the specification's attention. -/
theorem attnG_eq_attn (x : SX.Idx → EReal) (wq wk wv : SW.Idx → EReal)
    (hx : ∀ i, ∃ r : ℝ, x i = (r : EReal)) (hq : ∀ i, ∃ r : ℝ, wq i = (r : EReal)) (hk : ∀ i, ∃ r : ℝ, wk i = (r : EReal)) (hv : ∀ i, ∃ r : ℝ, wv i = (r : EReal)) :
    attnG (fun i => proj x wq (i 0) (i 1) (i 2) * scale) (fun i => proj x wk (i 0) (i 1) (i 2)) (fun i => proj x wv (i 0) (i 1) (i 2))
      = attn x wq wk wv := by
  funext i
  obtain ⟨b, t, d, rfl⟩ : ∃ (b : Fin 4) (t : Fin 4096) (d : Fin 128), i = ix3 b t d := ⟨i 0, i 1, i 2, eq_ix3 i⟩
  obtain ⟨qt, r, rfl⟩ : ∃ (qt : Fin 4) (r : Fin 1024), t = rowOf qt r :=
    ⟨⟨t.val / 1024, by have h : t.val < 4096 := t.isLt; omega⟩, ⟨t.val % 1024, Nat.mod_lt _ (by decide)⟩, Fin.ext (by show t.val = t.val / 1024 * 1024 + t.val % 1024; omega)⟩
  rw [attnG_apply, attn_ix3, attnAt_eq_run x wq wk wv hx hq hk hv b qt r d]
  rfl

end Cert.Attn.Tiles

end
-- ==== Proof.KernelIdeal.AttnSteps.lean ====
/-
  The ten steps of a batch are the online-softmax run over the arrays' tiles.

  The attention call walks, for each batch, the ten pairs (query tile, key tile) with key tile ≤ query tile, key tiles
  ascending within a query tile.  Step s reads the query tile's rows of the array Q and the key tile's rows of K and W.
  A step whose key tile is 0 starts from (-∞, 0, 0); every step folds its tile by one online-softmax update, the diagonal
  tile causally masked.  So after step s the running maximum, normaliser and weighted sum of row r are the run over the
  key tiles 0 .. (key tile of s) of that row's tiles of the arrays, and a diagonal step leaves the quotient.
-/
import proofs.«420285_j7258494730366_3_alg».proof.Proof.KernelIdeal.Reg1
import proofs.«420285_j7258494730366_3_alg».proof.Proof.KernelIdeal.StepValue
import proofs.«420285_j7258494730366_3_alg».proof.Proof.KernelIdeal.PayValue
import proofs.«420285_j7258494730366_3_alg».proof.Proof.AttnTiles

noncomputable section

namespace Cert.KernelIdeal.HandValue

open Idealize.ShloMosaic Idealize.ShloMosaic.TcCoe Idealize.ShloMosaic.ValueIdx
open Cert.KernelIdeal Cert.KernelIdeal.Gen Cert.KernelIdeal.Hand Cert.Attn Cert.Attn.Bridge Cert.Attn.Tiles

variable (V : (c : Dev nD) → (b : Ref sig .tc) → Buf (Elt Ideal) ((c : Thread nD τ).loc b)) (a : (pcfg1 (F := Ideal)).Adm)

/-- The three arrays the call finds. -/
abbrev arrQ (c : Dev nD) : SO.Idx → EReal := V c (Pipeline.arrRef spec1 0)
abbrev arrK (c : Dev nD) : SO.Idx → EReal := V c (Pipeline.arrRef spec1 1)
abbrev arrW (c : Dev nD) : SO.Idx → EReal := V c (Pipeline.arrRef spec1 2)

theorem qiOf_lt (s : ℕ) : qiOf s < 4 := by
  unfold qiOf; split <;> omega

/-- Row r's running maximum and normaliser, and feature d of its weighted sum, after the step at position n. -/
def tri (c : Dev nD) (n : ℕ) (hn : n < (cfgA a).N) (r : Fin 1024) (d : Fin 128) : EReal × EReal × EReal :=
  ((outsAt1 V a c n hn).2.1 (ix2 r 0), (outsAt1 V a c n hn).2.2.1 (ix2 r 0), (outsAt1 V a c n hn).2.2.2 (ix2 r d))

/-- The tables' order: within a query tile the key tiles ascend by one from 0 up to the query tile. -/
theorem order_facts : ∀ n : Fin 9,
    kiOf (n.val + 1) ≤ qiOf (n.val + 1)
    ∧ (kiOf (n.val + 1) = 0 → kiOf (n.val + 1) < qiOf (n.val + 1))
    ∧ (kiOf (n.val + 1) ≠ 0 → qiOf n.val = qiOf (n.val + 1) ∧ kiOf n.val + 1 = kiOf (n.val + 1)) := by
  decide

theorem order_facts' (n : ℕ) (hn : n < 9) :
    kiOf (n + 1) ≤ qiOf (n + 1)
    ∧ (kiOf (n + 1) = 0 → kiOf (n + 1) < qiOf (n + 1))
    ∧ (kiOf (n + 1) ≠ 0 → qiOf n = qiOf (n + 1) ∧ kiOf n + 1 = kiOf (n + 1)) :=
  order_facts ⟨n, hn⟩

/-! ### The two tables at the program's constants, and what they give at the forty points -/

/-- The query-tile table and the key-tile table. -/
def tblOf : pre1.Contents (Elt Ideal) := fun
  | ⟨0, _⟩ => fun i => lit0 (S10.rowMajor i)
  | ⟨1, _⟩ => fun i => lit1 (S10.rowMajor i)

theorem tbl_eq (h0 : ∀ i, a.1 0 i = lit0 (S10.rowMajor i)) (h1 : ∀ i, a.1 1 i = lit1 (S10.rowMajor i)) :
    a.1 = tblOf := funext fun k => match k with
  | ⟨0, _⟩ => funext h0
  | ⟨1, _⟩ => funext h1

/-- Point t is step t % 10 of batch t / 10; its two words are the step's query tile and key tile; the query tile's
    block sits at (batch, query tile, 0), the key and value tiles' blocks at (batch, key tile, 0). -/
theorem point_coords : ∀ t : Fin grid1.N,
    (grid1.coords t (0 : Fin 2)).val = t.val / 10 ∧ (grid1.coords t (1 : Fin 2)).val = t.val % 10 := by
  decide +kernel

set_option synthInstance.maxSize 4096 in
theorem point_words : ∀ t : Fin grid1.N,
    BitVec.toNat (w := 32) (tblOf.atD 0 (k1_off1 (grid1.coords t))) = qiOf (t.val % 10)
    ∧ BitVec.toNat (w := 32) (tblOf.atD 1 (k1_off1 (grid1.coords t))) = kiOf (t.val % 10) := by
  decide +kernel

set_option synthInstance.maxSize 4096 in
theorem point_index : ∀ t : Fin grid1.N,
    ix1 tblOf 0 (grid1.coords t) (0 : Fin 3) = t.val / 10 ∧ ix1 tblOf 0 (grid1.coords t) (1 : Fin 3) = qiOf (t.val % 10)
    ∧ ix1 tblOf 0 (grid1.coords t) (2 : Fin 3) = 0
    ∧ ix1 tblOf 1 (grid1.coords t) (0 : Fin 3) = t.val / 10 ∧ ix1 tblOf 1 (grid1.coords t) (1 : Fin 3) = kiOf (t.val % 10)
    ∧ ix1 tblOf 1 (grid1.coords t) (2 : Fin 3) = 0
    ∧ ix1 tblOf 2 (grid1.coords t) (0 : Fin 3) = t.val / 10 ∧ ix1 tblOf 2 (grid1.coords t) (1 : Fin 3) = kiOf (t.val % 10)
    ∧ ix1 tblOf 2 (grid1.coords t) (2 : Fin 3) = 0 := by
  decide +kernel

theorem kiOf_lt (s : ℕ) : kiOf s < 4 := by
  unfold kiOf; split <;> omega

theorem word_of_toNat (w : BitVec 32) (n : ℕ) (hn : n < 4) (h : w.toNat = n) : w = BitVec.ofNat 32 n := by
  apply BitVec.eq_of_toNat_eq
  rw [h, BitVec.toNat_ofNat]
  omega

/-- The three conditions a step branches on, at tile numbers below 4. -/
theorem cond_iff : ∀ qi ki : Fin 4,
    (condReset (BitVec.ofNat 32 ki.val) ↔ ki.val = 0)
    ∧ (condOff (BitVec.ofNat 32 qi.val) (BitVec.ofNat 32 ki.val) ↔ ki.val < qi.val)
    ∧ (condDiag (BitVec.ofNat 32 qi.val) (BitVec.ofNat 32 ki.val) ↔ ki.val = qi.val) := by
  decide +kernel

theorem cond_iff' (qi ki : ℕ) (hq : qi < 4) (hk : ki < 4) :
    (condReset (BitVec.ofNat 32 ki) ↔ ki = 0)
    ∧ (condOff (BitVec.ofNat 32 qi) (BitVec.ofNat 32 ki) ↔ ki < qi)
    ∧ (condDiag (BitVec.ofNat 32 qi) (BitVec.ofNat 32 ki) ↔ ki = qi) :=
  cond_iff ⟨qi, hq⟩ ⟨ki, hk⟩

section Steps
variable (h0 : ∀ i, a.1 0 i = lit0 (S10.rowMajor i)) (h1 : ∀ i, a.1 1 i = lit1 (S10.rowMajor i))
include h0 h1

theorem wQ_eq (c : Dev nD) (t : Fin (cfgA a).N) : wQ a c t = BitVec.ofNat 32 (qiOf (t.val % 10)) := by
  refine word_of_toNat _ _ (qiOf_lt _) ?_
  have e := atD_wordQ a c (grid1.coords t)
  have e2 : a.1.atD 0 (k1_off1 (grid1.coords t)) = tblOf.atD 0 (k1_off1 (grid1.coords t)) := by
    rw [tbl_eq a h0 h1]
  exact (congrArg (BitVec.toNat (w := 32)) (e.symm.trans e2)).trans (point_words t).1

theorem wK_eq (c : Dev nD) (t : Fin (cfgA a).N) : wK a c t = BitVec.ofNat 32 (kiOf (t.val % 10)) := by
  refine word_of_toNat _ _ (kiOf_lt _) ?_
  have e := atD_wordK a c (grid1.coords t)
  have e2 : a.1.atD 1 (k1_off1 (grid1.coords t)) = tblOf.atD 1 (k1_off1 (grid1.coords t)) := by
    rw [tbl_eq a h0 h1]
  exact (congrArg (BitVec.toNat (w := 32)) (e.symm.trans e2)).trans (point_words t).2

/-! ### The three tiles of a step, read off the arrays -/

/-- The query tile's block at point t: rows (query tile)·1024 + · of batch t / 10. -/
theorem blk0_apply (c : Dev nD) (t : Fin (cfgA a).N) (y : S1x1024x128.Idx) (k : SO.Idx)
    (hk0 : (k 0).val = t.val / 10) (hk1 : (k 1).val = qiOf (t.val % 10) * 1024 + (y 1).val) (hk2 : (k 2).val = (y 2).val) :
    qblk V a c t y = arrQ V c k := by
  obtain ⟨e0, e1, e2, -⟩ := point_index t
  have hy0 : (y 0).val < 1 := (y 0).isLt
  have ha := tbl_eq a h0 h1
  unfold qblk iblk1
  show V c (Pipeline.arrRef spec1 0) _ = V c (Pipeline.arrRef spec1 0) _
  congr 1
  funext x
  apply Fin.ext
  match x with
  | ⟨0, _⟩ => show ix1 a.1 0 (grid1.coords t) (0 : Fin 3) * 1 + 1 * (y 0).val = (k 0).val; rw [ha]; omega
  | ⟨1, _⟩ => show ix1 a.1 0 (grid1.coords t) (1 : Fin 3) * 1024 + 1 * (y 1).val = (k 1).val; rw [ha]; omega
  | ⟨2, _⟩ => show ix1 a.1 0 (grid1.coords t) (2 : Fin 3) * 128 + 1 * (y 2).val = (k 2).val; rw [ha]; omega

/-- The key tile's block: rows (key tile)·1024 + · of batch t / 10. -/
theorem blk1_apply (c : Dev nD) (t : Fin (cfgA a).N) (y : S1x1024x128.Idx) (k : SO.Idx)
    (hk0 : (k 0).val = t.val / 10) (hk1 : (k 1).val = kiOf (t.val % 10) * 1024 + (y 1).val) (hk2 : (k 2).val = (y 2).val) :
    kblk V a c t y = arrK V c k := by
  obtain ⟨-, -, -, e0, e1, e2, -⟩ := point_index t
  have hy0 : (y 0).val < 1 := (y 0).isLt
  have ha := tbl_eq a h0 h1
  unfold kblk iblk1
  show V c (Pipeline.arrRef spec1 1) _ = V c (Pipeline.arrRef spec1 1) _
  congr 1
  funext x
  apply Fin.ext
  match x with
  | ⟨0, _⟩ => show ix1 a.1 1 (grid1.coords t) (0 : Fin 3) * 1 + 1 * (y 0).val = (k 0).val; rw [ha]; omega
  | ⟨1, _⟩ => show ix1 a.1 1 (grid1.coords t) (1 : Fin 3) * 1024 + 1 * (y 1).val = (k 1).val; rw [ha]; omega
  | ⟨2, _⟩ => show ix1 a.1 1 (grid1.coords t) (2 : Fin 3) * 128 + 1 * (y 2).val = (k 2).val; rw [ha]; omega

/-- The value tile's block: the same rows of the values. -/
theorem blk2_apply (c : Dev nD) (t : Fin (cfgA a).N) (y : S1x1024x128.Idx) (k : SO.Idx)
    (hk0 : (k 0).val = t.val / 10) (hk1 : (k 1).val = kiOf (t.val % 10) * 1024 + (y 1).val) (hk2 : (k 2).val = (y 2).val) :
    vblk V a c t y = arrW V c k := by
  obtain ⟨-, -, -, -, -, -, e0, e1, e2⟩ := point_index t
  have hy0 : (y 0).val < 1 := (y 0).isLt
  have ha := tbl_eq a h0 h1
  unfold vblk iblk1
  show V c (Pipeline.arrRef spec1 2) _ = V c (Pipeline.arrRef spec1 2) _
  congr 1
  funext x
  apply Fin.ext
  match x with
  | ⟨0, _⟩ => show ix1 a.1 2 (grid1.coords t) (0 : Fin 3) * 1 + 1 * (y 0).val = (k 0).val; rw [ha]; omega
  | ⟨1, _⟩ => show ix1 a.1 2 (grid1.coords t) (1 : Fin 3) * 1024 + 1 * (y 1).val = (k 1).val; rw [ha]; omega
  | ⟨2, _⟩ => show ix1 a.1 2 (grid1.coords t) (2 : Fin 3) * 128 + 1 * (y 2).val = (k 2).val; rw [ha]; omega

/-! ### The step's tile is the arrays' tile -/

theorem tile_logit (c : Dev nD) (t : Fin (cfgA a).N) (bb : Fin 4) (s : ℕ) (hb : t.val / 10 = bb.val) (hs : t.val % 10 = s)
    (r j : Fin 1024) :
    tileLogit (qblk V a c t) (kblk V a c t) r j
      = ∑ e : Fin 128, arrQ V c (ix3 bb (rowOf ⟨qiOf s, qiOf_lt s⟩ r) e) * arrK V c (ix3 bb (colOf (kiOf s) j) e) := by
  subst hs
  have hk := kiOf_lt (t.val % 10)
  have hj := j.isLt
  unfold tileLogit
  refine Finset.sum_congr rfl fun e _ => ?_
  have e1 := blk0_apply V a h0 h1 c t (ix3 0 r e) (ix3 bb (rowOf ⟨qiOf (t.val % 10), qiOf_lt _⟩ r) e) hb.symm rfl rfl
  have e2 := blk1_apply V a h0 h1 c t (ix3 0 j e) (ix3 bb (colOf (kiOf (t.val % 10)) j) e) hb.symm
    (by show (kiOf (t.val % 10) * 1024 + j.val) % 4096 = kiOf (t.val % 10) * 1024 + j.val; omega) rfl
  rw [e1, e2]

theorem tile_off (c : Dev nD) (t : Fin (cfgA a).N) (bb : Fin 4) (s : ℕ) (hb : t.val / 10 = bb.val) (hs : t.val % 10 = s)
    (r : Fin 1024) (hlt : kiOf s < qiOf s) :
    (fun j => tileLogit (qblk V a c t) (kblk V a c t) r j)
      = arrS (arrQ V c) (arrK V c) bb ⟨qiOf s, qiOf_lt s⟩ r (kiOf s) := by
  funext j
  rw [tile_logit V a h0 h1 c t bb s hb hs r j]
  unfold arrS
  rw [if_pos hlt]

theorem tile_diag (c : Dev nD) (t : Fin (cfgA a).N) (bb : Fin 4) (s : ℕ) (hb : t.val / 10 = bb.val) (hs : t.val % 10 = s)
    (r : Fin 1024) (heq : kiOf s = qiOf s) :
    (fun j : Fin 1024 => if j.val ≤ r.val then tileLogit (qblk V a c t) (kblk V a c t) r j else ⊥)
      = arrS (arrQ V c) (arrK V c) bb ⟨qiOf s, qiOf_lt s⟩ r (kiOf s) := by
  funext j
  rw [tile_logit V a h0 h1 c t bb s hb hs r j]
  unfold arrS
  rw [if_neg (show ¬ kiOf s < qiOf s by omega)]

theorem tile_val (c : Dev nD) (t : Fin (cfgA a).N) (bb : Fin 4) (s : ℕ) (hb : t.val / 10 = bb.val) (hs : t.val % 10 = s)
    (d : Fin 128) :
    (fun j => vblk V a c t (ix3 0 j d)) = arrV (arrW V c) bb d (kiOf s) := by
  subst hs
  funext j
  have hk := kiOf_lt (t.val % 10)
  have hj := j.isLt
  unfold arrV
  exact blk2_apply V a h0 h1 c t (ix3 0 j d) (ix3 bb (colOf (kiOf (t.val % 10)) j) d) hb.symm
    (by show (kiOf (t.val % 10) * 1024 + j.val) % 4096 = kiOf (t.val % 10) * 1024 + j.val; omega) rfl

/-! ### The four cases of a step -/

theorem case_A (c : Dev nD) (t : Fin (cfgA a).N) (r : Fin 1024) (d : Fin 128)
    (hk : kiOf (t.val % 10) = 0) (heq : kiOf (t.val % 10) = qiOf (t.val % 10)) :
    ∃ (hR : condReset (wK a c t)) (hO : ¬condOff (wQ a c t) (wK a c t)) (hD : condDiag (wQ a c t) (wK a c t)),
      outsAt1 V a c t.val t.isLt = step1_A V a c t hR hO hD
      ∧ tri V a c t.val t.isLt r d
        = Online.upd (fun j : Fin 1024 => if j.val ≤ r.val then tileLogit (qblk V a c t) (kblk V a c t) r j else ⊥)
            (fun j => vblk V a c t (ix3 0 j d)) (⊥, 0, 0) := by
  have hq := qiOf_lt (t.val % 10)
  have hk4 := kiOf_lt (t.val % 10)
  obtain ⟨cR, cO, cD⟩ := cond_iff' (qiOf (t.val % 10)) (kiOf (t.val % 10)) hq hk4
  have eQ := wQ_eq a h0 h1 c t
  have eK := wK_eq a h0 h1 c t
  have hR : condReset (wK a c t) := by rw [eK]; exact cR.2 hk
  have hO : ¬condOff (wQ a c t) (wK a c t) := by rw [eQ, eK]; exact fun h => by have := cO.1 h; omega
  have hD : condDiag (wQ a c t) (wK a c t) := by rw [eQ, eK]; exact cD.2 heq
  have hd : wQ a c t = wK a c t := by rw [eQ, eK, heq]
  have hlt : (wQ a c t).toNat < 4 := by rw [eQ, BitVec.toNat_ofNat]; omega
  refine ⟨hR, hO, hD, outsAt1_A V a c t hR hO hD, ?_⟩
  unfold tri
  rw [outsAt1_A V a c t hR hO hD, step1_A_mx, step1_A_l, step1_A_acc]
  refine (diag_upd (wQ a c t) (wK a c t) hd hlt (qblk V a c t) (kblk V a c t) (vblk V a c t)
    (k1_pay1 (F := Ideal)) (k1_pay2 (F := Ideal)) (k1_pay3 (F := Ideal)) r d).trans ?_
  rw [reset_mx, reset_l, reset_acc]

theorem case_B (c : Dev nD) (t : Fin (cfgA a).N) (r : Fin 1024) (d : Fin 128)
    (hk : kiOf (t.val % 10) = 0) (hlt : kiOf (t.val % 10) < qiOf (t.val % 10)) :
    tri V a c t.val t.isLt r d
      = Online.upd (fun j => tileLogit (qblk V a c t) (kblk V a c t) r j) (fun j => vblk V a c t (ix3 0 j d)) (⊥, 0, 0) := by
  have hq := qiOf_lt (t.val % 10)
  have hk4 := kiOf_lt (t.val % 10)
  obtain ⟨cR, cO, cD⟩ := cond_iff' (qiOf (t.val % 10)) (kiOf (t.val % 10)) hq hk4
  have eQ := wQ_eq a h0 h1 c t
  have eK := wK_eq a h0 h1 c t
  have hR : condReset (wK a c t) := by rw [eK]; exact cR.2 hk
  have hO : condOff (wQ a c t) (wK a c t) := by rw [eQ, eK]; exact cO.2 hlt
  have hD : ¬condDiag (wQ a c t) (wK a c t) := by rw [eQ, eK]; exact fun h => by have := cD.1 h; omega
  unfold tri
  rw [outsAt1_B V a c t hR hO hD, step1_B_mx, step1_B_l, step1_B_acc]
  refine (off_upd (qblk V a c t) (kblk V a c t) (vblk V a c t)
    (k1_pay1 (F := Ideal)) (k1_pay2 (F := Ideal)) (k1_pay3 (F := Ideal)) r d).trans ?_
  rw [reset_mx, reset_l, reset_acc]

theorem case_C (c : Dev nD) (t : Fin (cfgA a).N) (r : Fin 1024) (d : Fin 128)
    (hk : kiOf (t.val % 10) ≠ 0) (hlt : kiOf (t.val % 10) < qiOf (t.val % 10)) (ht0 : t.val ≠ 0) :
    tri V a c t.val t.isLt r d
      = Online.upd (fun j => tileLogit (qblk V a c t) (kblk V a c t) r j) (fun j => vblk V a c t (ix3 0 j d))
          (tri V a c (t.val - 1) (Nat.lt_of_le_of_lt (Nat.sub_le _ _) t.isLt) r d) := by
  have hq := qiOf_lt (t.val % 10)
  have hk4 := kiOf_lt (t.val % 10)
  obtain ⟨cR, cO, cD⟩ := cond_iff' (qiOf (t.val % 10)) (kiOf (t.val % 10)) hq hk4
  have eQ := wQ_eq a h0 h1 c t
  have eK := wK_eq a h0 h1 c t
  have hR : ¬condReset (wK a c t) := by rw [eK]; exact fun h => hk (cR.1 h)
  have hO : condOff (wQ a c t) (wK a c t) := by rw [eQ, eK]; exact cO.2 hlt
  have hD : ¬condDiag (wQ a c t) (wK a c t) := by rw [eQ, eK]; exact fun h => by have := cD.1 h; omega
  unfold tri
  rw [outsAt1_C V a c t hR hO hD ht0, step1_C_mx, step1_C_l, step1_C_acc]
  exact off_upd _ _ _ _ _ _ r d

theorem case_D (c : Dev nD) (t : Fin (cfgA a).N) (r : Fin 1024) (d : Fin 128)
    (hk : kiOf (t.val % 10) ≠ 0) (heq : kiOf (t.val % 10) = qiOf (t.val % 10)) (ht0 : t.val ≠ 0) :
    ∃ (hR : ¬condReset (wK a c t)) (hO : ¬condOff (wQ a c t) (wK a c t)) (hD : condDiag (wQ a c t) (wK a c t)),
      outsAt1 V a c t.val t.isLt
        = step1_D V a c t hR hO hD (outsAt1 V a c (t.val - 1) (Nat.lt_of_le_of_lt (Nat.sub_le _ _) t.isLt))
      ∧ tri V a c t.val t.isLt r d
        = Online.upd (fun j : Fin 1024 => if j.val ≤ r.val then tileLogit (qblk V a c t) (kblk V a c t) r j else ⊥)
            (fun j => vblk V a c t (ix3 0 j d))
            (tri V a c (t.val - 1) (Nat.lt_of_le_of_lt (Nat.sub_le _ _) t.isLt) r d) := by
  have hq := qiOf_lt (t.val % 10)
  have hk4 := kiOf_lt (t.val % 10)
  obtain ⟨cR, cO, cD⟩ := cond_iff' (qiOf (t.val % 10)) (kiOf (t.val % 10)) hq hk4
  have eQ := wQ_eq a h0 h1 c t
  have eK := wK_eq a h0 h1 c t
  have hR : ¬condReset (wK a c t) := by rw [eK]; exact fun h => hk (cR.1 h)
  have hO : ¬condOff (wQ a c t) (wK a c t) := by rw [eQ, eK]; exact fun h => by have := cO.1 h; omega
  have hD : condDiag (wQ a c t) (wK a c t) := by rw [eQ, eK]; exact cD.2 heq
  have hd : wQ a c t = wK a c t := by rw [eQ, eK, heq]
  have hlt : (wQ a c t).toNat < 4 := by rw [eQ, BitVec.toNat_ofNat]; omega
  refine ⟨hR, hO, hD, outsAt1_D V a c t hR hO hD ht0, ?_⟩
  unfold tri
  rw [outsAt1_D V a c t hR hO hD ht0, step1_D_mx, step1_D_l, step1_D_acc]
  exact diag_upd (wQ a c t) (wK a c t) hd hlt _ _ _ _ _ _ r d

/-! ### The ten steps -/

theorem steps_aux (c : Dev nD) (bb : Fin 4) (r : Fin 1024) (d : Fin 128) :
    ∀ (n : ℕ) (hn : n < 10) (t : Fin (cfgA a).N) (ht : t.val = bb.val * 10 + n),
      tri V a c t.val t.isLt r d
        = Online.run (arrS (arrQ V c) (arrK V c) bb ⟨qiOf n, qiOf_lt n⟩ r) (arrV (arrW V c) bb d) (kiOf n + 1) := by
  intro n
  induction n with
  | zero =>
    intro hn t ht
    have hb : t.val / 10 = bb.val := by omega
    have hs : t.val % 10 = 0 := by omega
    obtain ⟨_, _, _, _, hA⟩ := case_A V a h0 h1 c t r d (by rw [hs]; rfl) (by rw [hs]; rfl)
    rw [hA, tile_diag V a h0 h1 c t bb 0 hb hs r rfl, tile_val V a h0 h1 c t bb 0 hb hs d]
    rfl
  | succ n ih =>
    intro hn t ht
    have hb : t.val / 10 = bb.val := by omega
    have hs : t.val % 10 = n + 1 := by omega
    have ht0 : t.val ≠ 0 := by omega
    obtain ⟨hle, hzero, hnext⟩ := order_facts' n (by omega)
    rw [Online.run_succ]
    by_cases hk : kiOf (n + 1) = 0
    · have hlt := hzero hk
      rw [case_B V a h0 h1 c t r d (by rw [hs]; exact hk) (by rw [hs]; exact hlt),
        tile_off V a h0 h1 c t bb (n + 1) hb hs r hlt, tile_val V a h0 h1 c t bb (n + 1) hb hs d]
      have h00 : Online.run (arrS (arrQ V c) (arrK V c) bb ⟨qiOf (n + 1), qiOf_lt (n + 1)⟩ r) (arrV (arrW V c) bb d)
          (kiOf (n + 1)) = (⊥, 0, 0) := by rw [hk]; rfl
      rw [h00]
    · obtain ⟨hqq, hkk⟩ := hnext hk
      have ihp := ih (by omega) ⟨t.val - 1, Nat.lt_of_le_of_lt (Nat.sub_le _ _) t.isLt⟩ (by show t.val - 1 = bb.val * 10 + n; omega)
      have hfin : (⟨qiOf n, qiOf_lt n⟩ : Fin 4) = ⟨qiOf (n + 1), qiOf_lt (n + 1)⟩ := Fin.ext hqq
      rw [hfin, hkk] at ihp
      by_cases hlt : kiOf (n + 1) < qiOf (n + 1)
      · rw [case_C V a h0 h1 c t r d (by rw [hs]; exact hk) (by rw [hs]; exact hlt) ht0,
          tile_off V a h0 h1 c t bb (n + 1) hb hs r hlt, tile_val V a h0 h1 c t bb (n + 1) hb hs d]
        exact congrArg _ ihp
      · have heq : kiOf (n + 1) = qiOf (n + 1) := by omega
        obtain ⟨_, _, _, _, hD⟩ := case_D V a h0 h1 c t r d (by rw [hs]; exact hk) (by rw [hs]; exact heq) ht0
        rw [hD, tile_diag V a h0 h1 c t bb (n + 1) hb hs r heq, tile_val V a h0 h1 c t bb (n + 1) hb hs d]
        exact congrArg _ ihp

theorem steps_run (c : Dev nD) (bb : Fin 4) (s : Fin 10) (t : Fin (cfgA a).N) (ht : t.val = bb.val * 10 + s.val)
    (r : Fin 1024) (d : Fin 128) :
    ((outsAt1 V a c t.val t.isLt).2.1 (ix2 r 0), (outsAt1 V a c t.val t.isLt).2.2.1 (ix2 r 0),
      (outsAt1 V a c t.val t.isLt).2.2.2 (ix2 r d))
      = Online.run (arrS (arrQ V c) (arrK V c) bb ⟨qiOf s.val, qiOf_lt s.val⟩ r) (arrV (arrW V c) bb d) (kiOf s.val + 1) :=
  steps_aux V a h0 h1 c bb r d s.val s.isLt t ht

/-- On a diagonal step the block written out is the weighted sum over the normaliser. -/
theorem out_of_tri (c : Dev nD) (t : Fin (cfgA a).N) (r : Fin 1024) (d : Fin 128)
    (heq : kiOf (t.val % 10) = qiOf (t.val % 10)) (hz : kiOf (t.val % 10) = 0 ∨ t.val ≠ 0) :
    (outsAt1 V a c t.val t.isLt).1 (ix3 0 r d)
      = Ideal.div ((outsAt1 V a c t.val t.isLt).2.2.2 (ix2 r d)) ((outsAt1 V a c t.val t.isLt).2.2.1 (ix2 r 0)) := by
  by_cases hk : kiOf (t.val % 10) = 0
  · obtain ⟨hR, hO, hD, hA, _⟩ := case_A V a h0 h1 c t r d hk heq
    rw [hA, step1_A_out, step1_A_acc, step1_A_l]
    exact out_div _ _ r d
  · have ht0 : t.val ≠ 0 := hz.resolve_left hk
    obtain ⟨hR, hO, hD, hDD, _⟩ := case_D V a h0 h1 c t r d hk heq ht0
    rw [hDD, step1_D_out, step1_D_acc, step1_D_l]
    exact out_div _ _ r d

theorem diag_out (c : Dev nD) (bb : Fin 4) (s : Fin 10) (t : Fin (cfgA a).N) (ht : t.val = bb.val * 10 + s.val)
    (hdiag : kiOf s.val = qiOf s.val) (r : Fin 1024) (d : Fin 128) :
    (outsAt1 V a c t.val t.isLt).1 (ix3 0 r d)
      = outAt (arrQ V c) (arrK V c) (arrW V c) bb ⟨qiOf s.val, qiOf_lt s.val⟩ r d := by
  have hs : t.val % 10 = s.val := by have := s.isLt; omega
  have hz : kiOf (t.val % 10) = 0 ∨ t.val ≠ 0 := by
    rw [hs]
    by_cases h : s.val = 0
    · left; rw [h]; rfl
    · right; omega
  rw [out_of_tri V a h0 h1 c t r d (by rw [hs]; exact hdiag) hz]
  have hrun := steps_run V a h0 h1 c bb s t ht r d
  unfold outAt
  have e : kiOf s.val + 1 = qiOf s.val + 1 := by rw [hdiag]
  rw [e] at hrun
  show _ = Ideal.div (Online.run _ _ (qiOf s.val + 1)).2.2 (Online.run _ _ (qiOf s.val + 1)).2.1
  rw [← hrun]

end Steps

end Cert.KernelIdeal.HandValue
-- ==== Proof.KernelIdeal.AttnArr.lean ====
/-
  From the output blocks to the output array of the attention call, at the ideal values.

  The call walks, for each of the 4 batches, ten steps; step s of a batch works on query tile qiOf s and key tile
  kiOf s, the two tables' words.  The output window's block at step t = 10·batch + s is block (batch, qiOf s, 0) of
  the [4, 4096, 128] array, so within a batch it moves exactly after the steps s = 0, 2, 5, 9 — the diagonal steps,
  kiOf s = qiOf s — and the pipeline writes the block back exactly there (where the next step's block differs, and
  at the last step).  At a diagonal step the staging buffer holds what that step stored.  The four diagonal steps of
  a batch write the four query tiles of that batch, so the sixteen written blocks tile the array (row r' of batch b
  lies in the block written after the diagonal step of query tile r'/1024).  Hence the array the call leaves is any
  whole-array function whose block (batch, query tile) is what the diagonal step of that tile stored.
-/
import proofs.«420285_j7258494730366_3_alg».proof.Proof.KernelIdeal.Reg1
import proofs.«420285_j7258494730366_3_alg».proof.Proof.AttnTiles
import Idealize.ShloMosaic.Lib.Pipeline.Value
import Idealize.ShloMosaic.Lib.Pipeline.Kit
import Idealize.ShloMosaic.Lib.ValueIdx

noncomputable section

namespace Cert.KernelIdeal.HandValue

open Cert.KernelIdeal Cert.KernelIdeal.Gen Cert.KernelIdeal.Hand Cert.Attn Cert.Attn.Bridge Cert.Attn.Tiles
open Idealize.ShloMosaic Idealize.ShloMosaic.TcCoe Idealize.SL.Sem Idealize.ShloMosaic.ValueIdx
open Idealize.ShloMosaic.Pipeline (Dat)

/-! ## The schedule at the program's two tables -/

/-- The two tables' contents as the program's constants write them. -/
def tblOut : pre1.Contents (Elt Ideal) := fun
  | ⟨0, _⟩ => fun i => lit0 (S10.rowMajor i)
  | ⟨1, _⟩ => fun i => lit1 (S10.rowMajor i)

/-- A step's query tile is one of the four. -/
theorem qiOf_lt10 : ∀ s : Fin 10, qiOf s.val < 4 := by decide

/-- The diagonal step of query tile q within a batch: 0, 2, 5, 9. -/
def diagStep (q : ℕ) : ℕ := q * (q + 3) / 2

theorem diagStep_facts : ∀ q : Fin 4, diagStep q.val < 10 ∧ kiOf (diagStep q.val) = qiOf (diagStep q.val) ∧ qiOf (diagStep q.val) = q.val := by
  decide

/-- At those tables the output window's block index at step t is (t/10, qiOf (t%10), 0). -/
theorem idx_lit : ∀ t : Fin grid1.N,
    cc1_transform_3 k1_off1_inb numel1_S1 tblOut (grid1.coords t) (0 : Fin 3) = t.val / 10
    ∧ cc1_transform_3 k1_off1_inb numel1_S1 tblOut (grid1.coords t) (1 : Fin 3) = qiOf (t.val % 10)
    ∧ cc1_transform_3 k1_off1_inb numel1_S1 tblOut (grid1.coords t) (2 : Fin 3) = 0 := by
  decide +kernel

/-- At those tables the output block is written back exactly after the diagonal steps. -/
theorem flush_lit : ∀ t : Fin grid1.N,
    Pipeline.Window.flushOf grid1 true (cc1_transform_3 k1_off1_inb numel1_S1 tblOut) t = decide (kiOf (t.val % 10) = qiOf (t.val % 10)) := by
  decide +kernel

section Arr
variable (V : (c : Dev nD) → (b : Ref sig .tc) → Buf (Elt Ideal) ((c : Thread nD τ).loc b)) (a : (pcfg1 (F := Ideal)).Adm)

/-- Tables that hold the program's constants are those contents. -/
theorem tblOut_eq (h0 : ∀ i, a.1 0 i = lit0 (S10.rowMajor i)) (h1 : ∀ i, a.1 1 i = lit1 (S10.rowMajor i)) : a.1 = tblOut :=
  funext fun k => by
    match k with
    | ⟨0, _⟩ => exact funext h0
    | ⟨1, _⟩ => exact funext h1

/-- The output window's block index at step t. -/
theorem idx_out (h0 : ∀ i, a.1 0 i = lit0 (S10.rowMajor i)) (h1 : ∀ i, a.1 1 i = lit1 (S10.rowMajor i)) (t : Fin (cfgA a).N) :
    ((cfgA a).win 3).index t (0 : Fin 3) = t.val / 10
    ∧ ((cfgA a).win 3).index t (1 : Fin 3) = qiOf (t.val % 10)
    ∧ ((cfgA a).win 3).index t (2 : Fin 3) = 0 := by
  show cc1_transform_3 k1_off1_inb numel1_S1 a.1 (grid1.coords t) (0 : Fin 3) = t.val / 10
    ∧ cc1_transform_3 k1_off1_inb numel1_S1 a.1 (grid1.coords t) (1 : Fin 3) = qiOf (t.val % 10)
    ∧ cc1_transform_3 k1_off1_inb numel1_S1 a.1 (grid1.coords t) (2 : Fin 3) = 0
  rw [tblOut_eq a h0 h1]
  exact idx_lit t

/-- The output block is written back exactly after the diagonal steps. -/
theorem flush_out (h0 : ∀ i, a.1 0 i = lit0 (S10.rowMajor i)) (h1 : ∀ i, a.1 1 i = lit1 (S10.rowMajor i)) (t : Fin (cfgA a).N) :
    ((cfgA a).win 3).flush t = decide (kiOf (t.val % 10) = qiOf (t.val % 10)) := by
  show Pipeline.Window.flushOf grid1 true (cc1_transform_3 k1_off1_inb numel1_S1 a.1) t = _
  rw [tblOut_eq a h0 h1]
  exact flush_lit t

/-- An index of the output array is in step t's block iff each coordinate is in the block's range on its axis. -/
theorem mem_blk_out (t : Fin (cfgA a).N) (i : S4x4096x128.Idx) :
    i ∈ (((cfgA a).win 3).blk t).view.set ↔ ∀ x : Fin 3, ((cfgA a).win 3).index t x * S1x1024x128.size x ≤ (i x).val ∧ (i x).val < ((cfgA a).win 3).index t x * S1x1024x128.size x + S1x1024x128.size x := by
  have e : (((cfgA a).win 3).blk t).view.set = (((cfgA a).win 3).rect t).set := View.set_slice_whole main_v1 _
  rw [e]
  exact Rect.mem_set_unit

/-- What a step that writes the block back writes is its block of G. -/
theorem flushed_out (h0 : ∀ i, a.1 0 i = lit0 (S10.rowMajor i)) (h1 : ∀ i, a.1 1 i = lit1 (S10.rowMajor i)) (c : Dev nD) (G : SO.Idx → EReal)
    (hG : ∀ (bb : Fin 4) (s : Fin 10) (t : Fin (cfgA a).N), t.val = bb.val * 10 + s.val → kiOf s.val = qiOf s.val →
        ∀ (r : Fin 1024) (d : Fin 128), (outsAt1 V a c t.val t.isLt).1 (ix3 0 r d) = G (ix3 bb (rowOf ⟨qiOf s.val, qiOf_lt10 s⟩ r) d))
    (t : Fin (cfgA a).N) (ht : ((cfgA a).win 3).flush t = true) :
    (dat1 (F := Ideal) V a c).flushed 3 t = (((cfgA a).win 3).blk t).view.read (Elt Ideal) G := by
  rw [flush_out a h0 h1 t, decide_eq_true_eq] at ht
  obtain ⟨e0, e1, e2⟩ := idx_out a h0 h1 t
  have htN : t.val < 40 := t.isLt
  show ((cfgA a).win 3).cut (grid1.coords t) ((dat1 (F := Ideal) V a c).after 3 t) = _
  rw [after1_3]
  refine funext fun (j : S1x1024x128.Idx) => ?_
  have hj0 : (j 0).val < 1 := (j 0).isLt
  have hj1 : (j 1).val < 1024 := (j 1).isLt
  have hj2 : (j 2).val < 128 := (j 2).isLt
  have key := hG ⟨t.val / 10, by omega⟩ ⟨t.val % 10, Nat.mod_lt _ (by decide)⟩ t (by show t.val = t.val / 10 * 10 + t.val % 10; omega) ht
    ⟨(j 1).val, hj1⟩ ⟨(j 2).val, hj2⟩
  show (outsAt1 V a c t.val t.isLt).1 (((cfgA a).win 3).xinj (grid1.coords t) j) = G ((((cfgA a).win 3).blk t).view.emb j)
  have el : (((cfgA a).win 3).xinj (grid1.coords t) j : S1x1024x128.Idx) = ix3 0 ⟨(j 1).val, hj1⟩ ⟨(j 2).val, hj2⟩ :=
    funext fun x => Fin.ext (by
      match x with
      | ⟨0, _⟩ => show (j 0).val = 0; omega
      | ⟨1, _⟩ => rfl
      | ⟨2, _⟩ => rfl)
  have er : ((((cfgA a).win 3).blk t).view.emb j : S4x4096x128.Idx)
      = ix3 (⟨t.val / 10, by omega⟩ : Fin 4) (rowOf ⟨qiOf (t.val % 10), qiOf_lt10 ⟨t.val % 10, Nat.mod_lt _ (by decide)⟩⟩ ⟨(j 1).val, hj1⟩) ⟨(j 2).val, hj2⟩ :=
    funext fun x => Fin.ext (by
      match x with
      | ⟨0, _⟩ => show ((cfgA a).win 3).index t (0 : Fin 3) * 1 + 1 * (j 0).val = t.val / 10; omega
      | ⟨1, _⟩ => show ((cfgA a).win 3).index t (1 : Fin 3) * 1024 + 1 * (j 1).val = qiOf (t.val % 10) * 1024 + (j 1).val; omega
      | ⟨2, _⟩ => show ((cfgA a).win 3).index t (2 : Fin 3) * 128 + 1 * (j 2).val = (j 2).val; omega)
  rw [el, er]
  exact key

/-- Every index of the output array is in the block written back after the diagonal step of its batch and query tile. -/
theorem cover_out (h0 : ∀ i, a.1 0 i = lit0 (S10.rowMajor i)) (h1 : ∀ i, a.1 1 i = lit1 (S10.rowMajor i)) (i : S4x4096x128.Idx) :
    ∃ t : Fin (cfgA a).N, ((cfgA a).win 3).flush t = true ∧ i ∈ (((cfgA a).win 3).blk t).view.set := by
  have hi0 : (i 0).val < 4 := (i 0).isLt
  have hi1 : (i 1).val < 4096 := (i 1).isLt
  have hi2 : (i 2).val < 128 := (i 2).isLt
  obtain ⟨hd, hkq, hq⟩ := diagStep_facts ⟨(i 1).val / 1024, by omega⟩
  have hd' : diagStep ((i 1).val / 1024) < 10 := hd
  have hkq' : kiOf (diagStep ((i 1).val / 1024)) = qiOf (diagStep ((i 1).val / 1024)) := hkq
  have hq' : qiOf (diagStep ((i 1).val / 1024)) = (i 1).val / 1024 := hq
  obtain ⟨t, ht⟩ : ∃ t : Fin (cfgA a).N, t.val = (i 0).val * 10 + diagStep ((i 1).val / 1024) :=
    ⟨⟨(i 0).val * 10 + diagStep ((i 1).val / 1024), by show _ < 40; omega⟩, rfl⟩
  have hm : t.val % 10 = diagStep ((i 1).val / 1024) := by omega
  have hdv : t.val / 10 = (i 0).val := by omega
  obtain ⟨e0, e1, e2⟩ := idx_out a h0 h1 t
  refine ⟨t, ?_, ?_⟩
  · rw [flush_out a h0 h1 t, decide_eq_true_eq, hm]; exact hkq'
  · rw [mem_blk_out]
    rw [hm, hq'] at e1
    intro x
    match x with
    | ⟨0, _⟩ => show ((cfgA a).win 3).index t (0 : Fin 3) * 1 ≤ (i 0).val ∧ (i 0).val < ((cfgA a).win 3).index t (0 : Fin 3) * 1 + 1; omega
    | ⟨1, _⟩ => show ((cfgA a).win 3).index t (1 : Fin 3) * 1024 ≤ (i 1).val ∧ (i 1).val < ((cfgA a).win 3).index t (1 : Fin 3) * 1024 + 1024; omega
    | ⟨2, _⟩ => show ((cfgA a).win 3).index t (2 : Fin 3) * 128 ≤ (i 2).val ∧ (i 2).val < ((cfgA a).win 3).index t (2 : Fin 3) * 128 + 128; omega

/-- What the call leaves in its output array: any whole-array function whose block (batch, query tile) is what the
    diagonal step of that tile stored. -/
theorem out_arr (h0 : ∀ i, a.1 0 i = lit0 (S10.rowMajor i)) (h1 : ∀ i, a.1 1 i = lit1 (S10.rowMajor i)) (c : Dev nD) (G : SO.Idx → EReal)
    (hG : ∀ (bb : Fin 4) (s : Fin 10) (t : Fin (cfgA a).N), t.val = bb.val * 10 + s.val → kiOf s.val = qiOf s.val →
        ∀ (r : Fin 1024) (d : Fin 128), (outsAt1 V a c t.val t.isLt).1 (ix3 0 r d) = G (ix3 bb (rowOf ⟨qiOf s.val, qiOf_lt10 s⟩ r) d)) :
    ((dat1 (F := Ideal) V a c).arrAt 3 (cfgA a).N : SO.Idx → EReal) = G :=
  (dat1 (F := Ideal) V a c).arrAt_eq_of_cover 3 G (fun t ht => flushed_out V a h0 h1 c G hG t ht) (cover_out a h0 h1)

end Arr

end Cert.KernelIdeal.HandValue

end
-- ==== Proof.KernelIdeal.Value.lean ====
/-
  The idealized kernel program's result is the specification's attention of the four argument arrays.

  The result buffer ends at what the attention call leaves in its output array.  That array's block (batch, query tile) is
  what the tile's diagonal step stored; the ten steps of a batch are the online-softmax run over the tiles of the arrays the
  call finds; those arrays are what the projection call left: the projected queries times σ, the projected keys and the
  projected values of the launch memory's arguments.  On real inputs the tile-by-tile run is the specification's softmax.
-/
import proofs.«420285_j7258494730366_3_alg».proof.Proof.KernelIdeal.Frame
import proofs.«420285_j7258494730366_3_alg».proof.Proof.KernelIdeal.ProjValue
import proofs.«420285_j7258494730366_3_alg».proof.Proof.KernelIdeal.AttnSteps
import proofs.«420285_j7258494730366_3_alg».proof.Proof.KernelIdeal.AttnArr
import proofs.«420285_j7258494730366_3_alg».proof.Proof.AttnTiles

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.Attn Cert.Attn.Bridge Cert.Attn.Tiles

variable (m : (ℓ : Loc nD τ sig) → Buf (Elt Ideal) ℓ) (ρ : Dev nD → PrngReg)
variable (hOk : ok1 (F := Ideal) (tblLit (F := Ideal))) (hT : TblOk (adm1 hOk))

/-- The q array the attention call finds: the projected queries, times σ. -/
theorem found_q (c : Dev nD) :
    (V2 m ρ c (Pipeline.arrRef spec1 0) : SO.Idx → EReal)
      = fun i => proj (m ((c : Thread nD τ).loc main_arg0)) (m ((c : Thread nD τ).loc main_arg1)) (i 0) (i 1) (i 2) * scale :=
  (V2_q m ρ c).trans ((q_arr (V1 m ρ) c).trans (by rw [V1_arg0, V1_arg1]))
/-- The k array: the projected keys. -/
theorem found_k (c : Dev nD) :
    (V2 m ρ c (Pipeline.arrRef spec1 1) : SO.Idx → EReal)
      = fun i => proj (m ((c : Thread nD τ).loc main_arg0)) (m ((c : Thread nD τ).loc main_arg2)) (i 0) (i 1) (i 2) :=
  (V2_k m ρ c).trans ((k_arr (V1 m ρ) c).trans (by rw [V1_arg0, V1_arg2]))
/-- The v array: the projected values. -/
theorem found_v (c : Dev nD) :
    (V2 m ρ c (Pipeline.arrRef spec1 2) : SO.Idx → EReal)
      = fun i => proj (m ((c : Thread nD τ).loc main_arg0)) (m ((c : Thread nD τ).loc main_arg3)) (i 0) (i 1) (i 2) :=
  (V2_v m ρ c).trans ((v_arr (V1 m ρ) c).trans (by rw [V1_arg0, V1_arg3]))

/-- What the attention call leaves in its output array is the specification's attention of the arguments, when they are reals. -/
theorem out_eq_attn (c : Dev nD)
    (hx : ∀ i, ∃ r : ℝ, (m ((c : Thread nD τ).loc main_arg0) : SX.Idx → EReal) i = (r : EReal))
    (hq : ∀ i, ∃ r : ℝ, (m ((c : Thread nD τ).loc main_arg1) : SW.Idx → EReal) i = (r : EReal))
    (hk : ∀ i, ∃ r : ℝ, (m ((c : Thread nD τ).loc main_arg2) : SW.Idx → EReal) i = (r : EReal))
    (hv : ∀ i, ∃ r : ℝ, (m ((c : Thread nD τ).loc main_arg3) : SW.Idx → EReal) i = (r : EReal)) :
    ((dat1 (F := Ideal) (V2 m ρ) (adm1 hOk) c).arrAt 3 (cfgA (adm1 hOk)).N : SO.Idx → EReal)
      = attn (m ((c : Thread nD τ).loc main_arg0)) (m ((c : Thread nD τ).loc main_arg1)) (m ((c : Thread nD τ).loc main_arg2)) (m ((c : Thread nD τ).loc main_arg3)) := by
  have h0 : ∀ i, (adm1 hOk).1 0 i = lit0 (S10.rowMajor i) := fun _ => rfl
  have h1 : ∀ i, (adm1 hOk).1 1 i = lit1 (S10.rowMajor i) := fun _ => rfl
  rw [out_arr (V2 m ρ) (adm1 hOk) h0 h1 c (attnG (arrQ (V2 m ρ) c) (arrK (V2 m ρ) c) (arrW (V2 m ρ) c))
    (fun bb s t ht hd r d => (diag_out (V2 m ρ) (adm1 hOk) h0 h1 c bb s t ht hd r d).trans (attnG_apply _ _ _ bb _ r d).symm)]
  rw [show arrQ (V2 m ρ) c = _ from found_q m ρ c, show arrK (V2 m ρ) c = _ from found_k m ρ c, show arrW (V2 m ρ) c = _ from found_v m ρ c]
  exact attnG_eq_attn _ _ _ _ hx hq hk hv

end Cert.KernelIdeal.HandValue

end
-- ==== Proof.RefRead.lean ====
/- The reference program's run and its operations read one at a time, gathered for the modules that state what the
   reference computes. -/
import proofs.«420285_j7258494730366_3_alg».proof.Proof.Gen.ReferenceIdeal.Run
import proofs.«420285_j7258494730366_3_alg».proof.Proof.Gen.ReferenceIdeal.Read
-- ==== Proof.RefValue.lean ====
/-
  The reference program's result is the causal attention of its four arguments.

  Read one operation at a time, the reference forms the three projections x·Wq, x·Wk, x·Wv as sums over the
  1024 input features, the logits as sums over the 128 projected features times the shared scale, masks a key
  after its query to -∞ (the comparison of two row/column counters below 4096), takes each row's maximum
  (a fold of max from -∞ over the 4096 keys, which is the supremum over them; the further max with -∞ changes
  nothing), subtracts it, exponentiates, sums each row from 0, divides, and sums the value rows with those
  weights.  Each step is the specification's definition at the same index, so the two arrays agree entry by
  entry with no hypothesis on the inputs: only 0 + Σ = Σ and max ⊥ y = y are used.
-/
import proofs.«420285_j7258494730366_3_alg».proof.Proof.RefRead
import proofs.«420285_j7258494730366_3_alg».proof.Proof.Spec
import Idealize.ShloMosaic.PureOps.Reduce
import Idealize.ShloMosaic.PureOps.Ideal.Laws
import Idealize.ShloMosaic.Lib.StableHlo.Predicate
import Idealize.ShloMosaic.Lib.ValueIdx

noncomputable section

namespace Cert.ReferenceIdeal.RefValue

open Cert.ReferenceIdeal Cert.ReferenceIdeal.Read Idealize.ShloMosaic Idealize.ShloMosaic.ValueIdx
  Idealize.ShloMosaic.StableHlo

/-! ## The three projections -/

/-- A projection's entry (b, t, d) is the sum over the input features c of x[b,t,c]·w[c,d]. -/
theorem v0_eq (x : Attn.SX.Idx → EReal) (w : Attn.SW.Idx → EReal) (b : Fin 4) (t : Fin 4096) (d : Fin 128) :
    val_main_v0 (F := Ideal) x w (ix3 b t d) = Attn.proj x w b t d := by
  rw [val_main_v0_apply]
  unfold Attn.proj
  refine Finset.sum_congr rfl fun k _ => ?_
  have el : lidx_main_v0 (ix3 b t d) k = ix3 b t k :=
    funext fun a => Fin.ext (by match a with | ⟨0, _⟩ => rfl | ⟨1, _⟩ => rfl | ⟨2, _⟩ => rfl)
  have er : ridx_main_v0 (ix3 b t d) k = ix2 k d :=
    funext fun a => Fin.ext (by match a with | ⟨0, _⟩ => rfl | ⟨1, _⟩ => rfl)
  rw [el, er]

theorem v1_eq (x : Attn.SX.Idx → EReal) (w : Attn.SW.Idx → EReal) (b : Fin 4) (t : Fin 4096) (d : Fin 128) :
    val_main_v1 (F := Ideal) x w (ix3 b t d) = Attn.proj x w b t d := v0_eq x w b t d

theorem v2_eq (x : Attn.SX.Idx → EReal) (w : Attn.SW.Idx → EReal) (b : Fin 4) (t : Fin 4096) (d : Fin 128) :
    val_main_v2 (F := Ideal) x w (ix3 b t d) = Attn.proj x w b t d := v0_eq x w b t d

/-! ## The logits -/

/-- The scaled logit of query row t against key row s: the sum over the 128 projected features, times σ. -/
theorem v5_eq (x : Attn.SX.Idx → EReal) (wq wk : Attn.SW.Idx → EReal) (b : Fin 4) (t s : Fin 4096) :
    val_main_v5 (F := Ideal) x wq wk (ix3 b t s) = Attn.logit x wq wk b t s := by
  rw [val_main_v5_apply, val_main_v3_apply, val_main_v4_apply, val_main_cst_apply]
  simp only [Ideal.mulf_def, Ideal.ofBits_def]
  unfold Attn.logit
  refine congrArg₂ (· * ·) (Finset.sum_congr rfl fun k _ => ?_) rfl
  have el : lidx_main_v3 (ix3 b t s) k = ix3 b t k :=
    funext fun a => Fin.ext (by match a with | ⟨0, _⟩ => rfl | ⟨1, _⟩ => rfl | ⟨2, _⟩ => rfl)
  have er : ridx_main_v3 (ix3 b t s) k = ix3 b s k :=
    funext fun a => Fin.ext (by match a with | ⟨0, _⟩ => rfl | ⟨1, _⟩ => rfl | ⟨2, _⟩ => rfl)
  rw [el, er, v0_eq, v1_eq]

/-! ## The causal mask -/

/-- The mask bit at (t, s) is set exactly when the key is not after the query: the row counter t (plus the
    offset 0) is compared, signed, with the column counter s, and both are below 2³¹. -/
theorem mask_iff (b : Fin 4) (t s : Fin 4096) :
    val_main_call1_v1 (F := Ideal) (ix3 b t s) = (1 : BitVec 1) ↔ s.val ≤ t.val := by
  rw [val_main_call1_v1_apply, val_main_v7_apply, val_main_call0_v4_apply, val_main_call0_v2_apply,
    val_main_call0_v0_apply, val_main_call0_v1_apply, val_main_call0_c_apply, val_main_call0_v3_apply,
    val_main_v6_apply, val_main_c_apply, val_main_call0_v5_apply, val_main_call0_c_0_apply]
  show Scalar.select (IntOp.cmpi .sge (IntOp.addi (BitVec.ofNat 32 t.val) 0#32) (BitVec.ofNat 32 s.val)) 1#1 0#1 = (1 : BitVec 1)
    ↔ s.val ≤ t.val
  have ht : (BitVec.ofNat 32 t.val).toNat = t.val := by
    rw [BitVec.toNat_ofNat]; exact Nat.mod_eq_of_lt (by have := t.isLt; omega)
  have hs : (BitVec.ofNat 32 s.val).toNat = s.val := by
    rw [BitVec.toNat_ofNat]; exact Nat.mod_eq_of_lt (by have := s.isLt; omega)
  have ha : IntOp.addi (BitVec.ofNat 32 t.val) 0#32 = BitVec.ofNat 32 t.val := by
    unfold IntOp.addi; exact BitVec.add_zero _
  rw [ha]
  have hc' := Predicate.sge_iff_toNat (a := BitVec.ofNat 32 t.val) (b := BitVec.ofNat 32 s.val)
    (by rw [ht]; have := t.isLt; omega) (by rw [hs]; have := s.isLt; omega)
  rw [ht, hs] at hc'
  have hc : IntOp.cmpi .sge (BitVec.ofNat 32 t.val) (BitVec.ofNat 32 s.val) = (1 : BitVec 1) ↔ s.val ≤ t.val := hc'
  unfold Scalar.select
  by_cases h : s.val ≤ t.val
  · rw [if_pos (hc.2 h)]; exact ⟨fun _ => h, fun _ => rfl⟩
  · rw [if_neg (fun e => h (hc.1 e))]; exact ⟨fun e => absurd e (by decide), fun h' => absurd h' h⟩

/-- The pattern 0xFF800000 denotes -∞. -/
theorem ofBits_neg_inf : FloatOps.ofBits (F := Ideal) .f32 0xFF800000#32 = (⊥ : EReal) := by
  show Ideal.ofBits .f32 0xFF800000#32 = ⊥
  simp [Ideal.ofBits, Ideal.ieee]

/-- The masked logit: the logit where the key is not after the query, else -∞. -/
theorem v8_eq (x : Attn.SX.Idx → EReal) (wq wk : Attn.SW.Idx → EReal) (b : Fin 4) (t s : Fin 4096) :
    val_main_v8 (F := Ideal) x wq wk (ix3 b t s) = Attn.masked x wq wk b t s := by
  rw [val_main_v8_apply, v5_eq, val_main_call1_v2_apply, val_main_call1_v0_apply, val_main_cst_0_apply, ofBits_neg_inf]
  unfold Attn.masked Scalar.select
  by_cases h : s.val ≤ t.val
  · rw [if_pos ((mask_iff b t s).2 h), if_pos h]
  · rw [if_neg (fun e => h ((mask_iff b t s).1 e)), if_neg h]

/-! ## The row maximum -/

/-- A fold of max from -∞ over a finite set is the supremum over it. -/
theorem fold_max_eq_sup {ι : Type} [DecidableEq ι] (s : Finset ι) (f : ι → EReal) :
    s.fold (FloatOps.maximumf (F := Ideal) (φ := .f32)) (⊥ : EReal) f = s.sup f := by
  induction s using Finset.induction_on with
  | empty => rfl
  | insert a s ha ih => rw [Finset.fold_insert ha, Finset.sup_insert, ih]; rfl

/-- The reduced index (b, t) with key s put back on the last axis is (b, t, s). -/
theorem lift_eq (h : S4x4096x4096.Reduces [2] S4x4096) (b : Fin 4) (t : Fin 4096) (k : Fin (S4x4096x4096.size 2)) :
    h.lift (ix2 b t) k = ix3 b t (⟨k.val, k.isLt⟩ : Fin 4096) := by
  funext c; apply Fin.ext
  fin_cases c <;> rfl

/-- The reduction with a maximum body from -∞ over the keys is the supremum of the row of masked logits. -/
theorem v9_eq (x : Attn.SX.Idx → EReal) (wq wk : Attn.SW.Idx → EReal) (b : Fin 4) (t : Fin 4096) :
    val_main_v9 (F := Ideal) x wq wk (ix2 b t) = Attn.rowMax x wq wk b t := by
  have h : S4x4096x4096.Reduces [2] S4x4096 := by decide
  unfold val_main_v9
  rw [Host.reduce_eq_fold_single FloatOps.maximumf _ _ _ h]
  have hf : (val_main_v8 (F := Ideal) x wq wk ∘ h.lift (ix2 b t)) = fun k : Fin 4096 => Attn.masked x wq wk b t k :=
    funext fun k => (congrArg (val_main_v8 (F := Ideal) x wq wk) (lift_eq h b t k)).trans (v8_eq x wq wk b t _)
  have hi : ∀ i, val_main_cst_1 (F := Ideal) i = (⊥ : EReal) := fun _ => ofBits_neg_inf
  rw [hf, hi]
  exact fold_max_eq_sup _ _

/-- The further maximum with -∞ changes nothing. -/
theorem v11_eq (x : Attn.SX.Idx → EReal) (wq wk : Attn.SW.Idx → EReal) (b : Fin 4) (t : Fin 4096) :
    val_main_v11 (F := Ideal) x wq wk (ix2 b t) = Attn.rowMax x wq wk b t := by
  rw [val_main_v11_apply, val_main_v10_apply, val_main_cst_2_apply, v9_eq, ofBits_neg_inf]
  exact max_eq_right bot_le

/-! ## The weights and the normaliser -/

/-- The unnormalised weight: e to the masked logit less its row's maximum. -/
theorem v15_eq (x : Attn.SX.Idx → EReal) (wq wk : Attn.SW.Idx → EReal) (b : Fin 4) (t s : Fin 4096) :
    val_main_v15 (F := Ideal) x wq wk (ix3 b t s) = Attn.weight x wq wk b t s := by
  rw [val_main_v15_apply, val_main_v14_apply, val_main_v13_apply, val_main_v12_apply, v8_eq]
  have e : idx_main_v12 (idx_main_v13 (ix3 b t s)) = ix2 b t :=
    funext fun a => Fin.ext (by match a with | ⟨0, _⟩ => rfl | ⟨1, _⟩ => rfl)
  rw [e, v11_eq]
  unfold Attn.weight
  simp only [Ideal.hostUnary_exp_def, Ideal.subf_def]

/-- The row's normaliser: the sum from 0 of the row's weights. -/
theorem v18_eq (x : Attn.SX.Idx → EReal) (wq wk : Attn.SW.Idx → EReal) (b : Fin 4) (t s : Fin 4096) :
    val_main_v18 (F := Ideal) x wq wk (ix3 b t s) = Attn.denom x wq wk b t := by
  rw [val_main_v18_apply, val_main_v17_apply]
  have e : idx_main_v17 (idx_main_v18 (ix3 b t s)) = ix2 b t :=
    funext fun a => Fin.ext (by match a with | ⟨0, _⟩ => rfl | ⟨1, _⟩ => rfl)
  rw [e, val_main_v16_apply, val_main_cst_3_apply]
  simp only [Ideal.ofBits_def, Ideal.ofBits_zero_f32, zero_add]
  unfold Attn.denom
  refine Finset.sum_congr rfl fun k _ => ?_
  have e2 : idx_main_v16 (ix2 b t) k = ix3 b t k :=
    funext fun a => Fin.ext (by match a with | ⟨0, _⟩ => rfl | ⟨1, _⟩ => rfl | ⟨2, _⟩ => rfl)
  rw [e2, v15_eq]

/-! ## The output -/

/-- One entry of the result: the value rows weighted by the normalised weights. -/
theorem v20_eq (x : Attn.SX.Idx → EReal) (wq wk wv : Attn.SW.Idx → EReal) (b : Fin 4) (t : Fin 4096) (d : Fin 128) :
    val_main_v20 (F := Ideal) x wq wk wv (ix3 b t d) = Attn.attnAt x wq wk wv b t d := by
  rw [val_main_v20_apply]
  unfold Attn.attnAt
  refine Finset.sum_congr rfl fun k _ => ?_
  have el : lidx_main_v20 (ix3 b t d) k = ix3 b t k :=
    funext fun a => Fin.ext (by match a with | ⟨0, _⟩ => rfl | ⟨1, _⟩ => rfl | ⟨2, _⟩ => rfl)
  have er : ridx_main_v20 (ix3 b t d) k = ix3 b k d :=
    funext fun a => Fin.ext (by match a with | ⟨0, _⟩ => rfl | ⟨1, _⟩ => rfl | ⟨2, _⟩ => rfl)
  rw [el, er, val_main_v19_apply, v15_eq, v18_eq, v2_eq]
  simp only [Ideal.hostDivf_def]

/-- The last stage, as an array, is the specification's array. -/
theorem val_eq_attn (x : Attn.SX.Idx → EReal) (wq wk wv : Attn.SW.Idx → EReal) :
    val_main_v20 (F := Ideal) x wq wk wv = Attn.attn x wq wk wv := by
  funext i
  obtain ⟨b, t, d, rfl⟩ : ∃ (b : Fin 4) (t : Fin 4096) (d : Fin 128), i = ix3 b t d := ⟨i 0, i 1, i 2, eq_ix3 i⟩
  rw [v20_eq, Attn.attn_ix3]

/-- The reference program's result is the causal attention of its four arguments. -/
theorem res_eq_attn (m : (ℓ : Loc Cert.ReferenceIdeal.nD Cert.ReferenceIdeal.τ Cert.ReferenceIdeal.sig) → Buf (Elt Ideal) ℓ)
    (c : Dev Cert.ReferenceIdeal.nD) :
    (Cert.ReferenceIdeal.Value.res_out0 (F := Ideal) m c : Cert.ReferenceIdeal.S4x4096x128.Idx → EReal)
      = Cert.Attn.attn (m ((c.tc : Thread Cert.ReferenceIdeal.nD Cert.ReferenceIdeal.τ).loc Cert.ReferenceIdeal.main_arg0))
                       (m ((c.tc : Thread _ _).loc Cert.ReferenceIdeal.main_arg1))
                       (m ((c.tc : Thread _ _).loc Cert.ReferenceIdeal.main_arg2))
                       (m ((c.tc : Thread _ _).loc Cert.ReferenceIdeal.main_arg3)) :=
  (val_main_v20_eq (F := Ideal) m c).trans (val_eq_attn _ _ _ _)

end Cert.ReferenceIdeal.RefValue

end
-- ==== Proof.Finite.lean ====
/-
  Finiteness: under the printed precondition every entry of the four argument arrays is a real.

  The precondition says that, for each argument array, |x| < +∞ holds at every index (a comparison, reduced by
  "and" over all axes from "true"), and that the four reductions' conjunction is true.  A conjunction that is true
  has both parts true; a reduction by "and" into a single result that is true had "true" at every index; and an
  extended real whose absolute value max(x, -x) is below +∞ is neither -∞ nor +∞, so it is a real.
-/
import proofs.«420285_j7258494730366_3_alg».proof.Defs
import proofs.«420285_j7258494730366_3_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal
import Idealize.ShloMosaic.PureOps.Ideal.Laws

noncomputable section

namespace Cert.Proof.Finite

open Idealize.ShloMosaic Idealize.SL.Sem Idealize.ShloMosaic.TcCoe

/-- The scalar shape has one index. -/
instance : Subsingleton Cert.Pre_finite_inputs.S_.Idx := ⟨fun a b => funext fun d => d.elim0⟩

/-- The pattern 0x7F800000 denotes +∞. -/
theorem ofBits_pos_inf : Ideal.ofBits .f32 0x7F800000#32 = (⊤ : EReal) := by simp [Ideal.ofBits, Ideal.ieee]

/-- An extended real whose absolute value max(x, -x) is below +∞ is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [ofBits_pos_inf] at h'
  induction x using EReal.rec with
  | bot => simp at h'
  | coe r => exact ⟨r, rfl⟩
  | top => simp at h'

/-- If "|x| < +∞ at every index", reduced by "and" over all axes from "true", is true, every entry of x is a real. -/
theorem all_real {s : Shape} (x : FVec Ideal s .f32)
    (hb : Cert.Pre_finite_inputs.S_.BroadcastsInDim s (![] : Fin 0 → Fin s.rank))
    {axes : List (Fin s.rank)} (hr : s.ReducesTo axes Cert.Pre_finite_inputs.S_) (hu : 0 < Cert.Pre_finite_inputs.S_.numel)
    (h : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ValueIdx.ix0 = 1#1)
    (i : s.Idx) : ∃ r : ℝ, x i = (r : EReal) := by
  have e := Host.reduce_andi_all _ _ hr hu _ h i
  have eb : broadcastInDim s ![] hb (constant (F := Ideal) Cert.Pre_finite_inputs.S_ .f32 0x7F800000#32) i
      = FloatOps.ofBits (F := Ideal) .f32 0x7F800000#32 :=
    broadcastInDim_apply _ hb _ i (fun a => a.elim0) (fun a => a.elim0)
  have e' : FloatOps.cmpf (F := Ideal) (φ := .f32) .olt (FloatOps.hostAbsf (F := Ideal) (φ := .f32) (x i))
      (broadcastInDim s ![] hb (constant (F := Ideal) Cert.Pre_finite_inputs.S_ .f32 0x7F800000#32) i) = 1#1 := e
  rw [eb] at e'
  exact real_of_abs_lt_inf (x i) e'

/-- Under the printed precondition every entry of the activations and of the three weight matrices is a real. -/
theorem real_of_pre (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (∀ i, ∃ r : ℝ, (m ((c.tc : Thread Cert.KernelIdeal.nD Cert.KernelIdeal.τ).loc Cert.KernelIdeal.main_arg0) : Cert.KernelIdeal.S4x4096x1024.Idx → EReal) i = (r : EReal))
    ∧ (∀ i, ∃ r : ℝ, (m ((c.tc : Thread _ _).loc Cert.KernelIdeal.main_arg1) : Cert.KernelIdeal.S1024x128.Idx → EReal) i = (r : EReal))
    ∧ (∀ i, ∃ r : ℝ, (m ((c.tc : Thread _ _).loc Cert.KernelIdeal.main_arg2) : Cert.KernelIdeal.S1024x128.Idx → EReal) i = (r : EReal))
    ∧ (∀ i, ∃ r : ℝ, (m ((c.tc : Thread _ _).loc Cert.KernelIdeal.main_arg3) : Cert.KernelIdeal.S1024x128.Idx → EReal) i = (r : EReal)) := by
  have h0 := congrFun (h c) ValueIdx.ix0
  dsimp only [Cert.Pre_finite_inputs.fn, Cert.Pre_finite_inputs.fn_part1] at h0
  obtain ⟨h012, h3⟩ := IntOp.andi_eq_one.1 (show IntOp.andi _ _ = 1#1 from h0)
  obtain ⟨h01, h2⟩ := IntOp.andi_eq_one.1 (show IntOp.andi _ _ = 1#1 from h012)
  obtain ⟨h0', h1⟩ := IntOp.andi_eq_one.1 (show IntOp.andi _ _ = 1#1 from h01)
  exact ⟨all_real _ _ _ _ h0', all_real _ _ _ _ h1, all_real _ _ _ _ h2, all_real _ _ _ _ h3⟩

end Cert.Proof.Finite

end
-- ==== Proof.lean ====
/-
  Causal attention in two kernels — three projections x·W into q·σ, k, v, then an online softmax that walks, per batch, the
  ten pairs (query tile, key tile) on or below the diagonal — against a plain softmax(q·kᵀ·σ, causal)·v.

  Both programs are proved equal, on real inputs, to ONE function of the four argument arrays (Proof/Spec.lean's `attn`):
  the reference by reading its operations one at a time; the kernel program by naming what each call leaves: the projection
  call's three arrays, then the attention call's output array, whose block (batch, query tile) is what the tile's diagonal
  step stored, the steps of a tile being the online-softmax updates by its key tiles in order.  That the running maximum,
  normaliser and weighted sum folded tile by tile give the softmax with ONE global maximum and normaliser is the identity
  e^(m−m')·e^(s−m) = e^(s−m') on the reals, and needs every logit real or -∞ and every value real: this is where the
  precondition (all inputs finite) is used.  The kernel's finite stand-in for -∞ in the mask is read as -∞, which is what the
  one entry of the idealization's ledger states.

  The frames: each kernel program is two pallas_calls behind two table constants; its run is assembled from one record per
  call over the several-region launch theorem — the projection call one control case, the attention call four, with its three
  scratch buffers carried from step to step in the region's invariant and its two prefetched tables lent to the body.
-/
import proofs.«420285_j7258494730366_3_alg».proof.Defs
import proofs.«420285_j7258494730366_3_alg».proof.Proof.Gen.Kernel
import proofs.«420285_j7258494730366_3_alg».proof.Proof.Gen.KernelIdeal
import proofs.«420285_j7258494730366_3_alg».proof.Proof.Gen.ReferenceIdeal
import proofs.«420285_j7258494730366_3_alg».proof.Proof.Gen.Pre_finite_inputs
import proofs.«420285_j7258494730366_3_alg».proof.Proof.Kernel.Frame
import proofs.«420285_j7258494730366_3_alg».proof.Proof.KernelIdeal.Frame
import proofs.«420285_j7258494730366_3_alg».proof.Proof.KernelIdeal.Value
import proofs.«420285_j7258494730366_3_alg».proof.Proof.RefValue
import proofs.«420285_j7258494730366_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-! ## The two tables' side conditions, at the two instances

The tables are the program's own constants, so that every tile's block lies inside its array, that every step is in one of
the four cases, that a batch's first step resets, and that the output block is written back only after a diagonal step, are
finite checks over the 40 steps. -/

set_option maxHeartbeats 4000000 in
theorem okB : Cert.Kernel.ok1 (F := Bits) (Cert.Kernel.Hand.tblLit (F := Bits)) := by decide +kernel
set_option maxHeartbeats 4000000 in
theorem tblB : Cert.Kernel.Hand.TblOk (Cert.Kernel.Hand.adm1 okB) :=
  ⟨by decide +kernel, by decide +kernel, by decide +kernel⟩
set_option maxHeartbeats 4000000 in
theorem okI : Cert.KernelIdeal.ok1 (F := Ideal) (Cert.KernelIdeal.Hand.tblLit (F := Ideal)) := by decide +kernel
set_option maxHeartbeats 4000000 in
theorem tblI : Cert.KernelIdeal.Hand.TblOk (Cert.KernelIdeal.Hand.adm1 okI) :=
  ⟨by decide +kernel, by decide +kernel, by decide +kernel⟩

/-! ## The claims -/

theorem frame_k : Cert.frame_Kernel := fun m ρ _ => Cert.Kernel.Hand.frame m ρ okB tblB
theorem frame_ki : Cert.frame_KernelIdeal := fun m ρ _ => Cert.KernelIdeal.Hand.frame m ρ okI tblI
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the mask's finite stand-in is named -∞, and the printed constant is that value at the ideal instance. -/
theorem preserves : Cert.preserves_Kernel_KernelIdeal :=
  IdealRules.named_const.statement Cert.KernelIdeal.κ "neg_big" .f32 0xFF333332#32 ⊥ rfl

/-- Both idealized programs end with the specification's attention of the (agreeing, finite) arguments in their result. -/
theorem algebraic : Cert.algebraic_KernelIdeal_ReferenceIdeal := by
  intro m ρ m' ρ' hpre hagree
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.Hand.run_result m ρ okI tblI)
    obtain ⟨hx, hq, hk, hv⟩ := Cert.Proof.Finite.real_of_pre m hpre c
    exact Cert.KernelIdeal.HandValue.out_eq_attn m ρ okI c hx hq hk hv
  · refine (θ_run Cert.ReferenceIdeal.defs _ _).mono (fun r h c => ⟨(h c).1.trans ?_, (h c).2⟩) (Cert.ReferenceIdeal.Value.run (F := Ideal) m' ρ')
    refine (Cert.ReferenceIdeal.RefValue.res_eq_attn m' c).trans ?_
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
